-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x16x64x64 : Shape := ⟨5, ![2, 128, 16, 64, 64]⟩
abbrev S128x128x3x3x3 : Shape := ⟨5, ![128, 128, 3, 3, 3]⟩
abbrev S128 : Shape := ⟨1, ![128]⟩
abbrev S_ : Shape := ⟨0, ![]⟩

class Facts : Prop where
  bcast_S_S2x128x16x64x64 : S_.BroadcastsInDim S2x128x16x64x64 (![] : Fin 0 → Fin S2x128x16x64x64.rank)
  reducesTo_S2x128x16x64x64_S_d0_1_2_3_4 : S2x128x16x64x64.ReducesTo [0, 1, 2, 3, 4] S_
  h_S_ : 0 < S_.numel
  bcast_S_S128x128x3x3x3 : S_.BroadcastsInDim S128x128x3x3x3 (![] : Fin 0 → Fin S128x128x3x3x3.rank)
  reducesTo_S128x128x3x3x3_S_d0_1_2_3_4 : S128x128x3x3x3.ReducesTo [0, 1, 2, 3, 4] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2x128x16x64x64 .f32) (main_arg1 : FVec F S128x128x3x3x3 .f32) (main_arg2 : FVec F S128 .f32) : IVec S_ 1 :=
  let main_v0 : FVec F S2x128x16x64x64 .f32 := Host.absf main_arg0
  let main_cst : FVec F S_ .f32 := constant S_ .f32 0x7F800000#32
  let main_v1 : FVec F S2x128x16x64x64 .f32 := broadcastInDim S2x128x16x64x64 ![] bcast_S_S2x128x16x64x64 main_cst
  let main_v2 : IVec S2x128x16x64x64 1 := cmpf .olt main_v0 main_v1
  let main_c : IVec S_ 1 := constantI S_ 1 1#1
  let main_v3 : IVec S_ 1 := (fun x v => Host.reduce IntOp.andi x v reducesTo_S2x128x16x64x64_S_d0_1_2_3_4 h_S_) main_v2 main_c
  let main_v4 : FVec F S128x128x3x3x3 .f32 := Host.absf main_arg1
  let main_cst_0 : FVec F S_ .f32 := constant S_ .f32 0x7F800000#32
  let main_v5 : FVec F S128x128x3x3x3 .f32 := broadcastInDim S128x128x3x3x3 ![] bcast_S_S128x128x3x3x3 main_cst_0
  let main_v6 : IVec S128x128x3x3x3 1 := cmpf .olt main_v4 main_v5
  let main_c_1 : IVec S_ 1 := constantI S_ 1 1#1
  let main_v7 : IVec S_ 1 := (fun x v => Host.reduce IntOp.andi x v reducesTo_S128x128x3x3x3_S_d0_1_2_3_4 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x128x16x64x64 : Shape := ⟨5, ![2, 128, 16, 64, 64]⟩
abbrev S128x128x3x3x3 : Shape := ⟨5, ![128, 128, 3, 3, 3]⟩
abbrev S128 : Shape := ⟨1, ![128]⟩
abbrev S2x16x64x64x128 : Shape := ⟨5, ![2, 16, 64, 64, 128]⟩
abbrev S2x16x64x32x256 : Shape := ⟨5, ![2, 16, 64, 32, 256]⟩
abbrev S3x3x3x128x128 : Shape := ⟨5, ![3, 3, 3, 128, 128]⟩
abbrev S27x128x128 : Shape := ⟨3, ![27, 128, 128]⟩
abbrev S1x128 : Shape := ⟨2, ![1, 128]⟩
abbrev S2x8x32x32x128 : Shape := ⟨5, ![2, 8, 32, 32, 128]⟩
abbrev S1x1x64x32x256 : Shape := ⟨5, ![1, 1, 64, 32, 256]⟩
abbrev S1x1x32x32x128 : Shape := ⟨5, ![1, 1, 32, 32, 128]⟩
abbrev S1024x128 : Shape := ⟨2, ![1024, 128]⟩
abbrev S64x32x256 : Shape := ⟨3, ![64, 32, 256]⟩
abbrev S64x32x128 : Shape := ⟨3, ![64, 32, 128]⟩
abbrev S64x1x128 : Shape := ⟨3, ![64, 1, 128]⟩
abbrev S64x31x128 : Shape := ⟨3, ![64, 31, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S1x32x128 : Shape := ⟨3, ![1, 32, 128]⟩
abbrev S31x32x128 : Shape := ⟨3, ![31, 32, 128]⟩
abbrev S1x128x128 : Shape := ⟨3, ![1, 128, 128]⟩
abbrev S128x128 : Shape := ⟨2, ![128, 128]⟩
abbrev S2x128x8x32x32 : Shape := ⟨5, ![2, 128, 8, 32, 32]⟩

abbrev nBuf : Space → Nat
  | .hbm => 12
  | .vmem => 10
  | .smem => 0
  | _ => 0

abbrev bufTy : (tb : Table) → Fin (tcTables nBuf tb) → BufTy
  | .hbm, ⟨0, _⟩ => ⟨S2x128x16x64x64, .f32⟩
  | .hbm, ⟨1, _⟩ => ⟨S128x128x3x3x3, .f32⟩
  | .hbm, ⟨2, _⟩ => ⟨S128, .f32⟩
  | .hbm, ⟨3, _⟩ => ⟨S2x16x64x64x128, .f32⟩
  | .hbm, ⟨4, _⟩ => ⟨S2x16x64x64x128, .bf16⟩
  | .hbm, ⟨5, _⟩ => ⟨S2x16x64x32x256, .bf16⟩
  | .hbm, ⟨6, _⟩ => ⟨S3x3x3x128x128, .f32⟩
  | .hbm, ⟨7, _⟩ => ⟨S27x128x128, .f32⟩
  | .hbm, ⟨8, _⟩ => ⟨S27x128x128, .bf16⟩
  | .hbm, ⟨9, _⟩ => ⟨S1x128, .f32⟩
  | .hbm, ⟨10, _⟩ => ⟨S2x8x32x32x128, .f32⟩
  | .hbm, ⟨11, _⟩ => ⟨S2x128x8x32x32, .f32⟩
  | .local _ .vmem, ⟨0, _⟩ => ⟨S1x1x64x32x256, .bf16⟩
  | .local _ .vmem, ⟨1, _⟩ => ⟨S1x1x64x32x256, .bf16⟩
  | .local _ .vmem, ⟨2, _⟩ => ⟨S1x1x64x32x256, .bf16⟩
  | .local _ .vmem, ⟨3, _⟩ => ⟨S1x1x64x32x256, .bf16⟩
  | .local _ .vmem, ⟨4, _⟩ => ⟨S1x1x64x32x256, .bf16⟩
  | .local _ .vmem, ⟨5, _⟩ => ⟨S1x1x64x32x256, .bf16⟩
  | .local _ .vmem, ⟨6, _⟩ => ⟨S27x128x128, .bf16⟩
  | .local _ .vmem, ⟨7, _⟩ => ⟨S1x128, .f32⟩
  | .local _ .vmem, ⟨8, _⟩ => ⟨S1x1x32x32x128, .f32⟩
  | .local _ .vmem, ⟨9, _⟩ => ⟨S1x1x32x32x128, .f32⟩
  | _, _ => ⟨S2x128x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.subi v1 c2_i32_0
  let c0_i32_1 : BitVec 32 := 0#32
  let v3 : BitVec 32 := Scalar.maxsi v2 c0_i32_1
  let c0_i32_2 : BitVec 32 := 0#32
  let c0_i32_3 : BitVec 32 := 0#32
  let c0_i32_4 : BitVec 32 := 0#32
  let c0_i32_5 : BitVec 32 := 0#32
  ![arg0.toNat, v3.toNat, c0_i32_2.toNat, c0_i32_3.toNat, c0_i32_4.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  let c0_i32_3 : BitVec 32 := 0#32
  let c0_i32_4 : BitVec 32 := 0#32
  ![arg0.toNat, v3.toNat, c0_i32_1.toNat, c0_i32_2.toNat, c0_i32_3.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c2_i32_1 : BitVec 32 := 2#32
  let v2 : BitVec 32 := Scalar.subi v1 c2_i32_1
  let c0_i32 : BitVec 32 := 0#32
  let v3 : BitVec 32 := Scalar.maxsi v2 c0_i32
  let c0_i32_2 : BitVec 32 := 0#32
  let c0_i32_3 : BitVec 32 := 0#32
  let c0_i32_4 : BitVec 32 := 0#32
  let c0_i32_5 : BitVec 32 := 0#32
  ![arg0.toNat, v3.toNat, c0_i32_2.toNat, c0_i32_3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2x128x16x64x64_S2x16x64x64x128_0_2_3_4_1 : S2x128x16x64x64.Transposes [0, 2, 3, 4, 1] S2x16x64x64x128
  bitsLt_bf16_f32 : FTy.bits .bf16 < FTy.bits .f32
  shapeCasts_S2x16x64x64x128_S2x16x64x32x256 : S2x16x64x64x128.ShapeCasts S2x16x64x32x256
  transposes_S128x128x3x3x3_S3x3x3x128x128_2_3_4_1_0 : S128x128x3x3x3.Transposes [2, 3, 4, 1, 0] S3x3x3x128x128
  shapeCasts_S3x3x3x128x128_S27x128x128 : S3x3x3x128x128.ShapeCasts S27x128x128
  shapeCasts_S128_S1x128 : S128.ShapeCasts S1x128
  inb_S1x1x64x32x256_S1x1x64x32x256_0_0_0_0_0 : ∀ a, (![0, 0, 0, 0, 0] : Fin 5 → Nat) a + S1x1x64x32x256.size a ≤ S1x1x64x32x256.size a
  h_S1x1x64x32x256 : 0 < S1x1x64x32x256.numel
  shapeCasts_S1x1x64x32x256_S64x32x256 : S1x1x64x32x256.ShapeCasts S64x32x256
  slices_S64x32x256_o0_0_0_S64x32x128 : S64x32x256.Slices ![0, 0, 0] S64x32x128
  slices_S64x32x256_o0_0_128_S64x32x128 : S64x32x256.Slices ![0, 0, 128] S64x32x128
  slices_S64x32x128_o0_0_0_S64x31x128 : S64x32x128.Slices ![0, 0, 0] S64x31x128
  concatenates_S64x1x128_S64x31x128_S64x32x128_d1 : Shape.Concatenates [S64x1x128, S64x31x128] S64x32x128 1
  shapeCasts_S64x32x128_S32x2x32x128 : S64x32x128.ShapeCasts S32x2x32x128
  slices_S32x2x32x128_o0_0_0_0_S32x1x32x128 : S32x2x32x128.Slices ![0, 0, 0, 0] S32x1x32x128
  shapeCasts_S32x1x32x128_S32x32x128 : S32x1x32x128.ShapeCasts S32x32x128
  slices_S32x2x32x128_o0_1_0_0_S32x1x32x128 : S32x2x32x128.Slices ![0, 1, 0, 0] S32x1x32x128
  slices_S32x32x128_o0_0_0_S31x32x128 : S32x32x128.Slices ![0, 0, 0] S31x32x128
  concatenates_S1x32x128_S31x32x128_S32x32x128_d0 : Shape.Concatenates [S1x32x128, S31x32x128] S32x32x128 0
  shapeCasts_S32x32x128_S1024x128 : S32x32x128.ShapeCasts S1024x128
  inb_S27x128x128_S1x128x128_0_0_0 : ∀ a, (![0, 0, 0] : Fin 3 → Nat) a + S1x128x128.size a ≤ S27x128x128.size a
  h_S1x128x128 : 0 < S1x128x128.numel
  shapeCasts_S1x128x128_S128x128 : S1x128x128.ShapeCasts S128x128
  inb_S27x128x128_S1x128x128_3_0_0 : ∀ a, (![3, 0, 0] : Fin 3 → Nat) a + S1x128x128.size a ≤ S27x128x128.size a
  inb_S27x128x128_S1x128x128_6_0_0 : ∀ a, (![6, 0, 0] : Fin 3 → Nat) a + S1x128x128.size a ≤ S27x128x128.size a
  inb_S27x128x128_S1x128x128_1_0_0 : ∀ a, (![1, 0, 0] : Fin 3 → Nat) a + S1x128x128.size a ≤ S27x128x128.size a
  inb_S27x128x128_S1x128x128_4_0_0 : ∀ a, (![4, 0, 0] : Fin 3 → Nat) a + S1x128x128.size a ≤ S27x128x128.size a
  inb_S27x128x128_S1x128x128_7_0_0 : ∀ a, (![7, 0, 0] : Fin 3 → Nat) a + S1x128x128.size a ≤ S27x128x128.size a
  inb_S27x128x128_S1x128x128_2_0_0 : ∀ a, (![2, 0, 0] : Fin 3 → Nat) a + S1x128x128.size a ≤ S27x128x128.size a
  inb_S27x128x128_S1x128x128_5_0_0 : ∀ a, (![5, 0, 0] : Fin 3 → Nat) a + S1x128x128.size a ≤ S27x128x128.size a
  inb_S27x128x128_S1x128x128_8_0_0 : ∀ a, (![8, 0, 0] : Fin 3 → Nat) a + S1x128x128.size a ≤ S27x128x128.size a
  inb_S27x128x128_S1x128x128_9_0_0 : ∀ a, (![9, 0, 0] : Fin 3 → Nat) a + S1x128x128.size a ≤ S27x128x128.size a
  inb_S27x128x128_S1x128x128_12_0_0 : ∀ a, (![12, 0, 0] : Fin 3 → Nat) a + S1x128x128.size a ≤ S27x128x128.size a
  inb_S27x128x128_S1x128x128_15_0_0 : ∀ a, (![15, 0, 0] : Fin 3 → Nat) a + S1x128x128.size a ≤ S27x128x128.size a
  inb_S27x128x128_S1x128x128_10_0_0 : ∀ a, (![10, 0, 0] : Fin 3 → Nat) a + S1x128x128.size a ≤ S27x128x128.size a
  inb_S27x128x128_S1x128x128_13_0_0 : ∀ a, (![13, 0, 0] : Fin 3 → Nat) a + S1x128x128.size a ≤ S27x128x128.size a
  inb_S27x128x128_S1x128x128_16_0_0 : ∀ a, (![16, 0, 0] : Fin 3 → Nat) a + S1x128x128.size a ≤ S27x128x128.size a
  inb_S27x128x128_S1x128x128_11_0_0 : ∀ a, (![11, 0, 0] : Fin 3 → Nat) a + S1x128x128.size a ≤ S27x128x128.size a
  inb_S27x128x128_S1x128x128_14_0_0 : ∀ a, (![14, 0, 0] : Fin 3 → Nat) a + S1x128x128.size a ≤ S27x128x128.size a
  inb_S27x128x128_S1x128x128_17_0_0 : ∀ a, (![17, 0, 0] : Fin 3 → Nat) a + S1x128x128.size a ≤ S27x128x128.size a
  inb_S27x128x128_S1x128x128_18_0_0 : ∀ a, (![18, 0, 0] : Fin 3 → Nat) a + S1x128x128.size a ≤ S27x128x128.size a
  inb_S27x128x128_S1x128x128_21_0_0 : ∀ a, (![21, 0, 0] : Fin 3 → Nat) a + S1x128x128.size a ≤ S27x128x128.size a
  inb_S27x128x128_S1x128x128_24_0_0 : ∀ a, (![24, 0, 0] : Fin 3 → Nat) a + S1x128x128.size a ≤ S27x128x128.size a
  inb_S27x128x128_S1x128x128_19_0_0 : ∀ a, (![19, 0, 0] : Fin 3 → Nat) a + S1x128x128.size a ≤ S27x128x128.size a
  inb_S27x128x128_S1x128x128_22_0_0 : ∀ a, (![22, 0, 0] : Fin 3 → Nat) a + S1x128x128.size a ≤ S27x128x128.size a
  inb_S27x128x128_S1x128x128_25_0_0 : ∀ a, (![25, 0, 0] : Fin 3 → Nat) a + S1x128x128.size a ≤ S27x128x128.size a
  inb_S27x128x128_S1x128x128_20_0_0 : ∀ a, (![20, 0, 0] : Fin 3 → Nat) a + S1x128x128.size a ≤ S27x128x128.size a
  inb_S27x128x128_S1x128x128_23_0_0 : ∀ a, (![23, 0, 0] : Fin 3 → Nat) a + S1x128x128.size a ≤ S27x128x128.size a
  inb_S27x128x128_S1x128x128_26_0_0 : ∀ a, (![26, 0, 0] : Fin 3 → Nat) a + S1x128x128.size a ≤ S27x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S32x32x128 : S1024x128.ShapeCasts S32x32x128
  inb_S1x1x32x32x128_S1x1x32x32x128_0_0_0_0_0 : ∀ a, (![0, 0, 0, 0, 0] : Fin 5 → Nat) a + S1x1x32x32x128.size a ≤ S1x1x32x32x128.size a
  h_S1x1x32x32x128 : 0 < S1x1x32x32x128.numel
  shapeCasts_S1x1x32x32x128_S32x32x128 : S1x1x32x32x128.ShapeCasts S32x32x128
  shapeCasts_S32x32x128_S1x1x32x32x128 : S32x32x128.ShapeCasts S1x1x32x32x128
  transposes_S2x8x32x32x128_S2x128x8x32x32_0_4_1_2_3 : S2x8x32x32x128.Transposes [0, 4, 1, 2, 3] S2x128x8x32x32
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x32x256.size a ≤ S2x16x64x32x256.size a
  hwx0_0 : ∀ i : grid0.Coords, EltTy.bits .bf16 = 32 ∨ (Rect.block (s := S2x16x64x32x256) S1x1x64x32x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x32x256.size a ≤ S2x16x64x32x256.size a
  hwx0_1 : ∀ i : grid0.Coords, EltTy.bits .bf16 = 32 ∨ (Rect.block (s := S2x16x64x32x256) S1x1x64x32x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x32x256.size a ≤ S2x16x64x32x256.size a
  hwx0_2 : ∀ i : grid0.Coords, EltTy.bits .bf16 = 32 ∨ (Rect.block (s := S2x16x64x32x256) S1x1x64x32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S27x128x128.size a ≤ S27x128x128.size a
  hwx0_3 : ∀ i : grid0.Coords, EltTy.bits .bf16 = 32 ∨ (Rect.block (s := S27x128x128) S27x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32x32x128.size a ≤ S2x8x32x32x128.size a
  hwx0_5 : ∀ i : grid0.Coords, EltTy.bits .f32 = 32 ∨ (Rect.block (s := S2x8x32x32x128) S1x1x32x32x128.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v2) S1x1x64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x64x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S27x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x32x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x128x16x64x64 : Shape := ⟨5, ![2, 128, 16, 64, 64]⟩
abbrev S128x128x3x3x3 : Shape := ⟨5, ![128, 128, 3, 3, 3]⟩
abbrev S128 : Shape := ⟨1, ![128]⟩
abbrev S2x16x64x64x128 : Shape := ⟨5, ![2, 16, 64, 64, 128]⟩
abbrev S2x1x64x64x128 : Shape := ⟨5, ![2, 1, 64, 64, 128]⟩
abbrev S2x1x2x64x64x128 : Shape := ⟨6, ![2, 1, 2, 64, 64, 128]⟩
abbrev S2x2x64x64x128 : Shape := ⟨5, ![2, 2, 64, 64, 128]⟩
abbrev S2x18x64x64x128 : Shape := ⟨5, ![2, 18, 64, 64, 128]⟩
abbrev S_ : Shape := ⟨0, ![]⟩
abbrev S2x18x66x66x128 : Shape := ⟨5, ![2, 18, 66, 66, 128]⟩
abbrev S2x18x33x2x33x2x128 : Shape := ⟨7, ![2, 18, 33, 2, 33, 2, 128]⟩
abbrev S2x18x2x2x33x33x128 : Shape := ⟨7, ![2, 18, 2, 2, 33, 33, 128]⟩
abbrev S36x4x33x33x128 : Shape := ⟨5, ![36, 4, 33, 33, 128]⟩
abbrev S3x3x3x128x128 : Shape := ⟨5, ![3, 3, 3, 128, 128]⟩
abbrev S9x384x128 : Shape := ⟨3, ![9, 384, 128]⟩
abbrev S1x128 : Shape := ⟨2, ![1, 128]⟩
abbrev S16x32x32x128 : Shape := ⟨4, ![16, 32, 32, 128]⟩
abbrev S1x4x33x33x128 : Shape := ⟨5, ![1, 4, 33, 33, 128]⟩
abbrev S1x32x32x128 : Shape := ⟨4, ![1, 32, 32, 128]⟩
abbrev S1024x128 : Shape := ⟨2, ![1024, 128]⟩
abbrev S1x1x32x32x128 : Shape := ⟨5, ![1, 1, 32, 32, 128]⟩
abbrev S32x32x128 : Shape := ⟨3, ![32, 32, 128]⟩
abbrev S32x32x384 : Shape := ⟨3, ![32, 32, 384]⟩
abbrev S1024x384 : Shape := ⟨2, ![1024, 384]⟩
abbrev S1x384x128 : Shape := ⟨3, ![1, 384, 128]⟩
abbrev S384x128 : Shape := ⟨2, ![384, 128]⟩
abbrev S2x8x32x32x128 : Shape := ⟨5, ![2, 8, 32, 32, 128]⟩
abbrev S2x128x8x32x32 : Shape := ⟨5, ![2, 128, 8, 32, 32]⟩

abbrev nBuf : Space → Nat
  | .hbm => 26
  | .vmem => 10
  | .smem => 0
  | _ => 0

abbrev bufTy : (tb : Table) → Fin (tcTables nBuf tb) → BufTy
  | .hbm, ⟨0, _⟩ => ⟨S2x128x16x64x64, .f32⟩
  | .hbm, ⟨1, _⟩ => ⟨S128x128x3x3x3, .f32⟩
  | .hbm, ⟨2, _⟩ => ⟨S128, .f32⟩
  | .hbm, ⟨3, _⟩ => ⟨S2x16x64x64x128, .f32⟩
  | .hbm, ⟨4, _⟩ => ⟨S2x1x64x64x128, .f32⟩
  | .hbm, ⟨5, _⟩ => ⟨S2x1x2x64x64x128, .f32⟩
  | .hbm, ⟨6, _⟩ => ⟨S2x2x64x64x128, .f32⟩
  | .hbm, ⟨7, _⟩ => ⟨S2x18x64x64x128, .f32⟩
  | .hbm, ⟨8, _⟩ => ⟨S_, .i32⟩
  | .hbm, ⟨9, _⟩ => ⟨S_, .f32⟩
  | .hbm, ⟨10, _⟩ => ⟨S2x18x66x66x128, .f32⟩
  | .hbm, ⟨11, _⟩ => ⟨S2x18x33x2x33x2x128, .f32⟩
  | .hbm, ⟨12, _⟩ => ⟨S2x18x2x2x33x33x128, .f32⟩
  | .hbm, ⟨13, _⟩ => ⟨S36x4x33x33x128, .f32⟩
  | .hbm, ⟨14, _⟩ => ⟨S3x3x3x128x128, .f32⟩
  | .hbm, ⟨15, _⟩ => ⟨S9x384x128, .f32⟩
  | .hbm, ⟨16, _⟩ => ⟨S_, .i32⟩
  | .hbm, ⟨17, _⟩ => ⟨S_, .f32⟩
  | .hbm, ⟨18, _⟩ => ⟨S9x384x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S16x32x32x128, .f32⟩
  | .hbm, ⟨24, _⟩ => ⟨S2x8x32x32x128, .f32⟩
  | .hbm, ⟨25, _⟩ => ⟨S2x128x8x32x32, .f32⟩
  | .local _ .vmem, ⟨0, _⟩ => ⟨S1x4x33x33x128, .f32⟩
  | .local _ .vmem, ⟨1, _⟩ => ⟨S1x4x33x33x128, .f32⟩
  | .local _ .vmem, ⟨2, _⟩ => ⟨S1x4x33x33x128, .f32⟩
  | .local _ .vmem, ⟨3, _⟩ => ⟨S1x4x33x33x128, .f32⟩
  | .local _ .vmem, ⟨4, _⟩ => ⟨S1x4x33x33x128, .f32⟩
  | .local _ .vmem, ⟨5, _⟩ => ⟨S1x4x33x33x128, .f32⟩
  | .local _ .vmem, ⟨6, _⟩ => ⟨S9x384x128, .f32⟩
  | .local _ .vmem, ⟨7, _⟩ => ⟨S1x128, .f32⟩
  | .local _ .vmem, ⟨8, _⟩ => ⟨S1x32x32x128, .f32⟩
  | .local _ .vmem, ⟨9, _⟩ => ⟨S1x32x32x128, .f32⟩
  | _, _ => ⟨S2x128x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let c2_i32 : BitVec 32 := 2#32
  let v1 : BitVec 32 := Scalar.muli arg1 c2_i32
  let v2 : BitVec 32 := Scalar.addi v0 v1
  let c0_i32 : BitVec 32 := 0#32
  let v3 : BitVec 32 := Scalar.addi v2 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v3.toNat, c0_i32_0.toNat, c0_i32_1.toNat, c0_i32_2.toNat, c0_i32_3.toNat]

def cc0_transform_1 (i : grid0.Coords) : Fin 5 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let c2_i32 : BitVec 32 := 2#32
  let v1 : BitVec 32 := Scalar.muli arg1 c2_i32
  let v2 : BitVec 32 := Scalar.addi v0 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![v3.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let c2_i32 : BitVec 32 := 2#32
  let v1 : BitVec 32 := Scalar.muli arg1 c2_i32
  let v2 : BitVec 32 := Scalar.addi v0 v1
  let c2_i32_0 : BitVec 32 := 2#32
  let v3 : BitVec 32 := Scalar.addi v2 c2_i32_0
  let c0_i32 : BitVec 32 := 0#32
  let c0_i32_1 : BitVec 32 := 0#32
  let c0_i32_2 : BitVec 32 := 0#32
  let c0_i32_3 : BitVec 32 := 0#32
  let c0_i32_4 : BitVec 32 := 0#32
  ![v3.toNat, c0_i32.toNat, c0_i32_1.toNat, c0_i32_2.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x4x33x33x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x33x33x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x33x33x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2x128x16x64x64_S2x16x64x64x128_0_2_3_4_1 : S2x128x16x64x64.Transposes [0, 2, 3, 4, 1] S2x16x64x64x128
  slices_S2x16x64x64x128_S2x1x64x64x128_0_0_0_0_0 : S2x16x64x64x128.Slices ![0, 0, 0, 0, 0] S2x1x64x64x128
  bcast_S2x1x64x64x128_S2x1x2x64x64x128_0_1_3_4_5 : S2x1x64x64x128.BroadcastsInDim S2x1x2x64x64x128 (![0, 1, 3, 4, 5] : Fin 5 → Fin S2x1x2x64x64x128.rank)
  shapeCasts_S2x1x2x64x64x128_S2x2x64x64x128 : S2x1x2x64x64x128.ShapeCasts S2x2x64x64x128
  concatenates_S2x2x64x64x128_S2x16x64x64x128_S2x18x64x64x128_d1 : Shape.Concatenates [S2x2x64x64x128, S2x16x64x64x128] S2x18x64x64x128 1
  pads_S2x18x64x64x128_S2x18x66x66x128_000_000_110_110_000 : S2x18x64x64x128.Pads (![0, 0, 1, 1, 0] : Fin 5 → Nat) ![0, 0, 1, 1, 0] ![0, 0, 0, 0, 0] S2x18x66x66x128
  h_S_ : 0 < S_.numel
  shapeCasts_S2x18x66x66x128_S2x18x33x2x33x2x128 : S2x18x66x66x128.ShapeCasts S2x18x33x2x33x2x128
  transposes_S2x18x33x2x33x2x128_S2x18x2x2x33x33x128_0_1_3_5_2_4_6 : S2x18x33x2x33x2x128.Transposes [0, 1, 3, 5, 2, 4, 6] S2x18x2x2x33x33x128
  shapeCasts_S2x18x2x2x33x33x128_S36x4x33x33x128 : S2x18x2x2x33x33x128.ShapeCasts S36x4x33x33x128
  transposes_S128x128x3x3x3_S3x3x3x128x128_2_3_4_1_0 : S128x128x3x3x3.Transposes [2, 3, 4, 1, 0] S3x3x3x128x128
  shapeCasts_S3x3x3x128x128_S9x384x128 : S3x3x3x128x128.ShapeCasts S9x384x128
  pads_S9x384x128_S9x384x128_000_000_000 : S9x384x128.Pads (![0, 0, 0] : Fin 3 → Nat) ![0, 0, 0] ![0, 0, 0] S9x384x128
  pads_S128_S128_000 : S128.Pads (![0] : Fin 1 → Nat) ![0] ![0] S128
  shapeCasts_S128_S1x128 : S128.ShapeCasts S1x128
  inb_S1x4x33x33x128_S1x1x32x32x128_0_0_0_0_0 : ∀ a, (![0, 0, 0, 0, 0] : Fin 5 → Nat) a + S1x1x32x32x128.size a ≤ S1x4x33x33x128.size a
  h_S1x1x32x32x128 : 0 < S1x1x32x32x128.numel
  shapeCasts_S1x1x32x32x128_S32x32x128 : S1x1x32x32x128.ShapeCasts S32x32x128
  inb_S1x4x33x33x128_S1x1x32x32x128_0_1_0_0_0 : ∀ a, (![0, 1, 0, 0, 0] : Fin 5 → Nat) a + S1x1x32x32x128.size a ≤ S1x4x33x33x128.size a
  inb_S1x4x33x33x128_S1x1x32x32x128_0_0_0_1_0 : ∀ a, (![0, 0, 0, 1, 0] : Fin 5 → Nat) a + S1x1x32x32x128.size a ≤ S1x4x33x33x128.size a
  concatenates_S32x32x128_S32x32x128_S32x32x128_S32x32x384_d2 : Shape.Concatenates [S32x32x128, S32x32x128, S32x32x128] S32x32x384 2
  shapeCasts_S32x32x384_S1024x384 : S32x32x384.ShapeCasts S1024x384
  inb_S9x384x128_S1x384x128_0_0_0 : ∀ a, (![0, 0, 0] : Fin 3 → Nat) a + S1x384x128.size a ≤ S9x384x128.size a
  h_S1x384x128 : 0 < S1x384x128.numel
  shapeCasts_S1x384x128_S384x128 : S1x384x128.ShapeCasts S384x128
  inb_S1x4x33x33x128_S1x1x32x32x128_0_2_0_0_0 : ∀ a, (![0, 2, 0, 0, 0] : Fin 5 → Nat) a + S1x1x32x32x128.size a ≤ S1x4x33x33x128.size a
  inb_S1x4x33x33x128_S1x1x32x32x128_0_3_0_0_0 : ∀ a, (![0, 3, 0, 0, 0] : Fin 5 → Nat) a + S1x1x32x32x128.size a ≤ S1x4x33x33x128.size a
  inb_S1x4x33x33x128_S1x1x32x32x128_0_2_0_1_0 : ∀ a, (![0, 2, 0, 1, 0] : Fin 5 → Nat) a + S1x1x32x32x128.size a ≤ S1x4x33x33x128.size a
  inb_S9x384x128_S1x384x128_1_0_0 : ∀ a, (![1, 0, 0] : Fin 3 → Nat) a + S1x384x128.size a ≤ S9x384x128.size a
  inb_S1x4x33x33x128_S1x1x32x32x128_0_0_1_0_0 : ∀ a, (![0, 0, 1, 0, 0] : Fin 5 → Nat) a + S1x1x32x32x128.size a ≤ S1x4x33x33x128.size a
  inb_S1x4x33x33x128_S1x1x32x32x128_0_1_1_0_0 : ∀ a, (![0, 1, 1, 0, 0] : Fin 5 → Nat) a + S1x1x32x32x128.size a ≤ S1x4x33x33x128.size a
  inb_S1x4x33x33x128_S1x1x32x32x128_0_0_1_1_0 : ∀ a, (![0, 0, 1, 1, 0] : Fin 5 → Nat) a + S1x1x32x32x128.size a ≤ S1x4x33x33x128.size a
  inb_S9x384x128_S1x384x128_2_0_0 : ∀ a, (![2, 0, 0] : Fin 3 → Nat) a + S1x384x128.size a ≤ S9x384x128.size a
  inb_S9x384x128_S1x384x128_3_0_0 : ∀ a, (![3, 0, 0] : Fin 3 → Nat) a + S1x384x128.size a ≤ S9x384x128.size a
  inb_S9x384x128_S1x384x128_4_0_0 : ∀ a, (![4, 0, 0] : Fin 3 → Nat) a + S1x384x128.size a ≤ S9x384x128.size a
  inb_S9x384x128_S1x384x128_5_0_0 : ∀ a, (![5, 0, 0] : Fin 3 → Nat) a + S1x384x128.size a ≤ S9x384x128.size a
  inb_S9x384x128_S1x384x128_6_0_0 : ∀ a, (![6, 0, 0] : Fin 3 → Nat) a + S1x384x128.size a ≤ S9x384x128.size a
  inb_S9x384x128_S1x384x128_7_0_0 : ∀ a, (![7, 0, 0] : Fin 3 → Nat) a + S1x384x128.size a ≤ S9x384x128.size a
  inb_S9x384x128_S1x384x128_8_0_0 : ∀ a, (![8, 0, 0] : Fin 3 → Nat) a + S1x384x128.size a ≤ S9x384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S32x32x128 : S1024x128.ShapeCasts S32x32x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  shapeCasts_S32x32x128_S1x32x32x128 : S32x32x128.ShapeCasts S1x32x32x128
  shapeCasts_S16x32x32x128_S2x8x32x32x128 : S16x32x32x128.ShapeCasts S2x8x32x32x128
  transposes_S2x8x32x32x128_S2x128x8x32x32_0_4_1_2_3 : S2x8x32x32x128.Transposes [0, 4, 1, 2, 3] S2x128x8x32x32
  dot_S1024x384_S384x128_S1024x128_1_0_0_1_n_n_wf : DotDims.WF S1024x384 S384x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x33x33x128.size a ≤ S36x4x33x33x128.size a
  hwx0_0 : ∀ i : grid0.Coords, EltTy.bits .f32 = 32 ∨ (Rect.block (s := S36x4x33x33x128) S1x4x33x33x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x33x33x128.size a ≤ S36x4x33x33x128.size a
  hwx0_1 : ∀ i : grid0.Coords, EltTy.bits .f32 = 32 ∨ (Rect.block (s := S36x4x33x33x128) S1x4x33x33x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x33x33x128.size a ≤ S36x4x33x33x128.size a
  hwx0_2 : ∀ i : grid0.Coords, EltTy.bits .f32 = 32 ∨ (Rect.block (s := S36x4x33x33x128) S1x4x33x33x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x384x128.size a ≤ S9x384x128.size a
  hwx0_3 : ∀ i : grid0.Coords, EltTy.bits .f32 = 32 ∨ (Rect.block (s := S9x384x128) S9x384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32x128.size a ≤ S16x32x32x128.size a
  hwx0_5 : ∀ i : grid0.Coords, EltTy.bits .f32 = 32 ∨ (Rect.block (s := S16x32x32x128) S1x32x32x128.size (cc0_transform_5 i) (hinb0_5 i)).WholeWords (EltTy.packing .f32)

variable [Facts₀]

def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf

abbrev win0_0 : Pipeline.Window sig grid0 :=
  Pipeline.Window.ofSpec (Memref.whole main_v8) S1x4x33x33x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x4x33x33x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4x33x33x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S9x384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x32x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KBody.lean ====
/-
  The stride-2 causal 3x3x3 convolution kernel's body as one pure function of the blocks it loads:
  three frame blocks (each frame's W pairs fused in lanes), the 27 tap matrices and the bias row.
  The body loads each block whole, forms 27 shifted patches, multiplies each with its tap matrix,
  adds the bias and stores the result block whole; `kout` names that stored value and
  `sound_kernel` says the body run leaves exactly it in the output block.
-/
import proofs.«108319_g2000506355603382_pallasbulk_1083_2_alg».proof.Proof.Gen.Kernel.Launch
import proofs.«108319_g2000506355603382_pallasbulk_1083_2_alg».proof.Proof.Gen.Kernel.Skeleton
import proofs.«108319_g2000506355603382_pallasbulk_1083_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rX : Rect S1x1x64x32x256 := Rect.unit (s := S1x1x64x32x256) ![0, 0, 0, 0, 0] S1x1x64x32x256.size inb_S1x1x64x32x256_S1x1x64x32x256_0_0_0_0_0
abbrev rW0 : Rect S27x128x128 := Rect.unit (s := S27x128x128) ![0, 0, 0] S1x128x128.size inb_S27x128x128_S1x128x128_0_0_0
abbrev rW1 : Rect S27x128x128 := Rect.unit (s := S27x128x128) ![1, 0, 0] S1x128x128.size inb_S27x128x128_S1x128x128_1_0_0
abbrev rW2 : Rect S27x128x128 := Rect.unit (s := S27x128x128) ![2, 0, 0] S1x128x128.size inb_S27x128x128_S1x128x128_2_0_0
abbrev rW3 : Rect S27x128x128 := Rect.unit (s := S27x128x128) ![3, 0, 0] S1x128x128.size inb_S27x128x128_S1x128x128_3_0_0
abbrev rW4 : Rect S27x128x128 := Rect.unit (s := S27x128x128) ![4, 0, 0] S1x128x128.size inb_S27x128x128_S1x128x128_4_0_0
abbrev rW5 : Rect S27x128x128 := Rect.unit (s := S27x128x128) ![5, 0, 0] S1x128x128.size inb_S27x128x128_S1x128x128_5_0_0
abbrev rW6 : Rect S27x128x128 := Rect.unit (s := S27x128x128) ![6, 0, 0] S1x128x128.size inb_S27x128x128_S1x128x128_6_0_0
abbrev rW7 : Rect S27x128x128 := Rect.unit (s := S27x128x128) ![7, 0, 0] S1x128x128.size inb_S27x128x128_S1x128x128_7_0_0
abbrev rW8 : Rect S27x128x128 := Rect.unit (s := S27x128x128) ![8, 0, 0] S1x128x128.size inb_S27x128x128_S1x128x128_8_0_0
abbrev rW9 : Rect S27x128x128 := Rect.unit (s := S27x128x128) ![9, 0, 0] S1x128x128.size inb_S27x128x128_S1x128x128_9_0_0
abbrev rW10 : Rect S27x128x128 := Rect.unit (s := S27x128x128) ![10, 0, 0] S1x128x128.size inb_S27x128x128_S1x128x128_10_0_0
abbrev rW11 : Rect S27x128x128 := Rect.unit (s := S27x128x128) ![11, 0, 0] S1x128x128.size inb_S27x128x128_S1x128x128_11_0_0
abbrev rW12 : Rect S27x128x128 := Rect.unit (s := S27x128x128) ![12, 0, 0] S1x128x128.size inb_S27x128x128_S1x128x128_12_0_0
abbrev rW13 : Rect S27x128x128 := Rect.unit (s := S27x128x128) ![13, 0, 0] S1x128x128.size inb_S27x128x128_S1x128x128_13_0_0
abbrev rW14 : Rect S27x128x128 := Rect.unit (s := S27x128x128) ![14, 0, 0] S1x128x128.size inb_S27x128x128_S1x128x128_14_0_0
abbrev rW15 : Rect S27x128x128 := Rect.unit (s := S27x128x128) ![15, 0, 0] S1x128x128.size inb_S27x128x128_S1x128x128_15_0_0
abbrev rW16 : Rect S27x128x128 := Rect.unit (s := S27x128x128) ![16, 0, 0] S1x128x128.size inb_S27x128x128_S1x128x128_16_0_0
abbrev rW17 : Rect S27x128x128 := Rect.unit (s := S27x128x128) ![17, 0, 0] S1x128x128.size inb_S27x128x128_S1x128x128_17_0_0
abbrev rW18 : Rect S27x128x128 := Rect.unit (s := S27x128x128) ![18, 0, 0] S1x128x128.size inb_S27x128x128_S1x128x128_18_0_0
abbrev rW19 : Rect S27x128x128 := Rect.unit (s := S27x128x128) ![19, 0, 0] S1x128x128.size inb_S27x128x128_S1x128x128_19_0_0
abbrev rW20 : Rect S27x128x128 := Rect.unit (s := S27x128x128) ![20, 0, 0] S1x128x128.size inb_S27x128x128_S1x128x128_20_0_0
abbrev rW21 : Rect S27x128x128 := Rect.unit (s := S27x128x128) ![21, 0, 0] S1x128x128.size inb_S27x128x128_S1x128x128_21_0_0
abbrev rW22 : Rect S27x128x128 := Rect.unit (s := S27x128x128) ![22, 0, 0] S1x128x128.size inb_S27x128x128_S1x128x128_22_0_0
abbrev rW23 : Rect S27x128x128 := Rect.unit (s := S27x128x128) ![23, 0, 0] S1x128x128.size inb_S27x128x128_S1x128x128_23_0_0
abbrev rW24 : Rect S27x128x128 := Rect.unit (s := S27x128x128) ![24, 0, 0] S1x128x128.size inb_S27x128x128_S1x128x128_24_0_0
abbrev rW25 : Rect S27x128x128 := Rect.unit (s := S27x128x128) ![25, 0, 0] S1x128x128.size inb_S27x128x128_S1x128x128_25_0_0
abbrev rW26 : Rect S27x128x128 := Rect.unit (s := S27x128x128) ![26, 0, 0] S1x128x128.size inb_S27x128x128_S1x128x128_26_0_0
abbrev rB : Rect S1x128 := Rect.unit (s := S1x128) ![0, 0] S1x128.size inb_S1x128_S1x128_0_0
abbrev rO : Rect S1x1x32x32x128 := Rect.unit (s := S1x1x32x32x128) ![0, 0, 0, 0, 0] S1x1x32x32x128.size inb_S1x1x32x32x128_S1x1x32x32x128_0_0_0_0_0

/-! ## The stored value -/

/-- What the body stores into the output block, as a function of the three frame blocks `x0 x1 x2`
    (time taps 0, 1, 2), the tap matrices `w` and the bias row `b`. -/
def kout (x0 x1 x2 : Vec F S1x1x64x32x256 .bf16) (w : Vec F S27x128x128 .bf16) (b : Vec F S1x128 .f32) : FVec F S1x1x32x32x128 .f32 :=
  k0_pay1
    (k0_pay31 (k0_pay24 (View.ld x2 rX))
      (k0_pay25
        (k0_pay21 (k0_pay14 (View.ld x1 rX))
          (k0_pay15
            (k0_pay11 (k0_pay3 (View.ld x0 rX)) (k0_pay4 (View.ld x0 rX) (View.ld w rW0) (View.ld w rW3) (View.ld w rW6))
              (k0_pay6 (View.ld x0 rX)) (k0_pay7 (View.ld x0 rX)) (k0_pay8 (F := F))
              (View.ld w rW1) (View.ld w rW4) (View.ld w rW7) (View.ld w rW2) (View.ld w rW5))
            (k0_pay12 (k0_pay3 (View.ld x0 rX))) (View.ld w rW8) (View.ld x1 rX) (View.ld w rW9) (View.ld w rW12) (View.ld w rW15))
          (k0_pay17 (View.ld x1 rX)) (k0_pay18 (View.ld x1 rX)) (Scalar.ofBits .bf16 0x0000#16)
          (View.ld w rW10) (View.ld w rW13) (View.ld w rW16) (View.ld w rW11) (View.ld w rW14))
        (k0_pay22 (k0_pay14 (View.ld x1 rX))) (View.ld w rW17) (View.ld x2 rX) (View.ld w rW18) (View.ld w rW21) (View.ld w rW24))
      (k0_pay27 (View.ld x2 rX)) (k0_pay28 (View.ld x2 rX))
      (View.ld w rW19) (View.ld w rW22) (View.ld w rW25) (View.ld w rW20) (View.ld w rW23))
    (k0_pay32 (k0_pay24 (View.ld x2 rX))) (View.ld w rW26) (View.ld b rB)

/-- The output block after the body: its one store, which covers the block. -/
def out5 (x0 x1 x2 : Vec F S1x1x64x32x256 .bf16) (w : Vec F S27x128x128 .bf16) (b : Vec F S1x128 .f32) : Vec F S1x1x32x32x128 .f32 :=
  View.canon [⟨rO, kout x0 x1 x2 w b⟩]

theorem cover5 (p0 : Vec F S1x1x32x32x128 .f32) (y : S1x1x32x32x128.Idx) :
    ∃ pc ∈ ([⟨rO, p0⟩] : List (View.Piece (Elt F) S1x1x32x32x128 .f32)), y ∈ pc.1.set :=
  View.cover_of_tiled [⟨rO, p0⟩] S1x1x32x32x128.size (by rfl) y

/-! ## The body's run -/

set_option maxHeartbeats 4000000 in
/-- On whole staging blocks, the inputs at contents `x0 x1 x2 w b` and the output at anything, the body runs to the
    continuation holding the inputs as they were and the output block at `out5` of them. -/
theorem sound_kernel (c : Dev nD) (E : Set ℕ) (i : grid0.Coords)
    (arg2 : Memref sig .tc .vmem S1x1x64x32x256 .bf16) (harg2 : arg2.IsWhole) (arg3 : Memref sig .tc .vmem S1x1x64x32x256 .bf16) (harg3 : arg3.IsWhole)
    (arg4 : Memref sig .tc .vmem S1x1x64x32x256 .bf16) (harg4 : arg4.IsWhole) (arg5 : Memref sig .tc .vmem S27x128x128 .bf16) (harg5 : arg5.IsWhole)
    (arg6 : Memref sig .tc .vmem S1x128 .f32) (harg6 : arg6.IsWhole) (arg7 : Memref sig .tc .vmem S1x1x32x32x128 .f32) (harg7 : arg7.IsWhole)
    (x0 x1 x2 : Vec F S1x1x64x32x256 .bf16) (w : Vec F S27x128x128 .bf16) (b : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare w ∗ owns (c : Thread nD τ) arg6 fullShare b ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare w ∗ owns (c : Thread nD τ) arg6 fullShare b
            ∗ owns (c : Thread nD τ) arg7 fullShare (out5 x0 x1 x2 w b)) -∗ K ⟨⟩))
      ⊢ wp frame (wpE (defs₀ (F := F)) Variants.none c none) E (cc0__conv_body i arg2 harg2 arg3 harg3 arg4 harg4 arg5 harg5 arg6 harg6 arg7 harg7) K := by
  simp only [cc0__conv_body_eq_skeleton]; unfold cc0__conv_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

end Cert.Kernel.Hand

end
-- ==== Proof.KDat.lean ====
/-
  The proof data of the convolution kernel's one pipeline: the arrays as the region finds them (after the host's
  transposes, casts and reshapes), each window's block at a grid point, what the body leaves in every staging
  block, and the body obligation at every point. The frame array is handed to the kernel through three windows
  (time taps 0, 1, 2), so its full share is dealt among them; the tap matrices and the bias are held whole.
-/
import proofs.«108319_g2000506355603382_pallasbulk_1083_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging block holds its array's block at every point, fetched there or not, for any
    proof data whose array is the region's (`hA`) and whose body leaves the block in place (`hafter`): unfetched,
    the block index has not moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging block holds its array's block at every point, fetched there or not, for any
    proof data whose array is the region's (`hA`) and whose body leaves the block in place (`hafter`): unfetched,
    the block index has not moved; the window is uncut and never idle. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging block holds its array's block at every point, fetched there or not, for any
    proof data whose array is the region's (`hA`) and whose body leaves the block in place (`hafter`): unfetched,
    the block index has not moved; the window is uncut and never idle. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging block holds its array's block at every point, fetched there or not, for any
    proof data whose array is the region's (`hA`) and whose body leaves the block in place (`hafter`): unfetched,
    the block index has not moved; the window is uncut and never idle. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging block holds its array's block at every point, fetched there or not, for any
    proof data whose array is the region's (`hA`) and whose body leaves the block in place (`hafter`): unfetched,
    the block index has not moved; the window is uncut and never idle. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The region's invariant: the core's scoped buffers that are no staging buffer (there are none). -/
abbrev ΦK (c : Dev nD) : sProp 𝕄 :=
  Pipeline.scopedRest (Ix := Unit) (Name := ℕ) (U := UR sig nD τ) (Lvl := ℕ) (Val := Elt F) spec0 c

/-- The share of its array each input window holds: the frame array's full share dealt to its three windows. -/
abbrev qK : Fin cfg0.W → PosShare TreeShare := fun
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := ΦK c
  q := qK
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- Each input window's current staging block holds its array's block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- What the body is called with at point `t`: the obligation's precondition, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input blocks hold their arrays' blocks (`before0` … `before4`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch of the convolution program: @main is seven host operations (the activations to channels-last
  with each W pair fused in lanes, the weights to 27 tap matrices, the bias to a row), one kernel region
  on a 2 x 8 grid whose first three windows read ONE array at three time taps, and one host transpose of
  the region's result. The run: every weakly fair execution terminates, the arguments end unchanged, and the
  result buffer ends at the host transpose of the region's output array as the pipeline library computes it.
-/
import proofs.«108319_g2000506355603382_pallasbulk_1083_2_alg».proof.Proof.KDat
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- Core `c`'s buffer contents when the region is left: as it was entered, but for the output array, which holds
    what the write-backs of all grid points left. -/
def Wexit (c : Dev nD) : Valuation τ sig (Elt F) := fun b =>
  if h : Proc.devRef .tc main_v7 = b then
    cast (congrArg (fun b' : DevRef τ sig => b'.ty.Contents (Elt F)) h) ((dats m 0 c).arrAt 5 cfg0.N)
  else V0 m c b

theorem Wexit_out (c : Dev nD) : Wexit m c (Proc.devRef .tc main_v7) = (dats m 0 c).arrAt 5 cfg0.N := by
  unfold Wexit; rw [dif_pos rfl]; rfl

theorem Wexit_of_ne (c : Dev nD) (b : DevRef τ sig) (hb : Proc.devRef .tc main_v7 ≠ b) : Wexit m c b = V0 m c b := by
  unfold Wexit; rw [dif_neg hb]

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations allocate nothing. -/
theorem hostOps0_fresh : (hostOps0 : List (HloOp τ sig (Elt F))).Forall fun op => op.fresh = ∅ := by
  simp only [List.Forall]; repeat' constructor
/-- Nor does the transpose after the region. -/
theorem hostOps1_fresh : (hostOps1 : List (HloOp τ sig (Elt F))).Forall fun op => op.fresh = ∅ := by
  simp only [List.Forall]; repeat' constructor

/-- @main around the region: the seven host operations, the region, the host transpose; it reduces to the region
    continued by the transpose, the buffers at their contents after the seven. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The region's arrays from the buffers behind them -/

/-- The distinct buffers behind the windows' arrays, one by one: the frame array, the tap matrices, the bias row and the
    output array. -/
theorem arrBufs_chain (c : Dev nD) :
    (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v5) ↦{fullShare} V m c main_v5)
          ∗ (((c : Thread nD τ).loc main_v6) ↦{fullShare} V m c main_v6) ∗ (((c : Thread nD τ).loc main_v7) ↦{fullShare} V m c main_v7)) := by
  unfold Pipeline.arrBufs
  exact bigSep_eq_bigSepL_of_eq [main_v2, main_v5, main_v6, main_v7] (by decide) (by decide) _

/-- The windows' arrays, one by one, each a whole buffer at its window's share: the frame array three times, at the
    left, right-left and right-right parts of the full share. -/
theorem arrays_chain (c : Dev nD) (n : Nat) :
    ((dats m 0 c).arrays ((dats m 0 c).arrAt · n) : sProp 𝕄)
      = iprop((((c : Thread nD τ).loc main_v2) ↦{fullShare.left} (dats m 0 c).arrAt 0 n)
          ∗ (((c : Thread nD τ).loc main_v2) ↦{fullShare.right.left} (dats m 0 c).arrAt 1 n)
          ∗ (((c : Thread nD τ).loc main_v2) ↦{fullShare.right.right} (dats m 0 c).arrAt 2 n)
          ∗ (((c : Thread nD τ).loc main_v5) ↦{fullShare} (dats m 0 c).arrAt 3 n)
          ∗ (((c : Thread nD τ).loc main_v6) ↦{fullShare} (dats m 0 c).arrAt 4 n)
          ∗ (((c : Thread nD τ).loc main_v7) ↦{fullShare} (dats m 0 c).arrAt 5 n)) := by
  unfold Dat.arrays
  rw [show (bigSep Finset.univ fun w : Fin cfg0.W => ((cfg0.win w).arr.view.loc (c.tc : Thread nD τ) ↦[(cfg0.win w).arr.view.set]{(dats m 0 c).share w} (dats m 0 c).arrAt w n : sProp 𝕄))
      = bigSep Finset.univ fun w : Fin cfg0.W => (((c.tc : Thread nD τ).loc (Pipeline.arrRef spec0 w)) ↦{(dats m 0 c).share w} (dats m 0 c).arrAt w n : sProp 𝕄)
    from bigSep_congr fun w _ => by rw [(arr_whole0 w).set_eq_univ]]
  rw [bigSep_W0]
  rfl

/-- The four buffers behind the six windows' arrays, whole at the full share as the region finds them, make the
    windows' arrays at entry: the frame array's full share is dealt left, right-left, right-right to its three
    windows; the tap matrices, the bias and the output array are each one window's, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : (dats m 0 c).arrAt 0 0 = V m c main_v2 := A_eq m c 0
  have e1 : (dats m 0 c).arrAt 1 0 = V m c main_v2 := A_eq m c 1
  have e2 : (dats m 0 c).arrAt 2 0 = V m c main_v2 := A_eq m c 2
  have e3 : (dats m 0 c).arrAt 3 0 = V m c main_v5 := A_eq m c 3
  have e4 : (dats m 0 c).arrAt 4 0 = V m c main_v6 := A_eq m c 4
  have e5 : (dats m 0 c).arrAt 5 0 = V m c main_v7 := A_eq m c 5
  rw [arrBufs_chain, arrays_chain, e0, e1, e2, e3, e4, e5]
  iintro ⟨H2, H5, H6, H7⟩
  ihave H2' := ((pointsTo_share (PosShare.mem_left_op_right fullShare)).1) $$ H2
  icases H2' with ⟨H2l, H2r⟩
  ihave H2'' := ((pointsTo_share (PosShare.mem_left_op_right fullShare.right)).1) $$ H2r
  icases H2'' with ⟨H2rl, H2rr⟩
  isplitl [H2l]; · iexact H2l
  isplitl [H2rl]; · iexact H2rl
  isplitl [H2rr]; · iexact H2rr
  isplitl [H5]; · iexact H5
  isplitl [H6]; · iexact H6
  iexact H7

/-! ## The buffers that bypass the region -/

/-- The eight unscoped buffers that are no window's array, whole at the contents the region finds them at, but for
    the result buffer, at `X`. -/
def restAt (c : Dev nD) (X : Buf (Elt F) ((c : Thread nD τ).loc main_v8)) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_v0) ↦{fullShare} V m c main_v0)
    ∗ (((c : Thread nD τ).loc main_v1) ↦{fullShare} V m c main_v1) ∗ (((c : Thread nD τ).loc main_v3) ↦{fullShare} V m c main_v3)
    ∗ (((c : Thread nD τ).loc main_v4) ↦{fullShare} V m c main_v4) ∗ (((c : Thread nD τ).loc main_v8) ↦{fullShare} X))

/-- As the region finds them they are the library's rest of the unscoped buffers. -/
theorem restAt_entry (c : Dev nD) :
    (Pipeline.unscopedRest (Ix := Unit) (Name := ℕ) (U := UR sig nD τ) (Lvl := ℕ) spec0 c (V m c) : sProp 𝕄) = restAt m c (V m c main_v8) :=
  unscopedRest0_eq c (V m c)

/-! ## The host transpose after the region -/

/-- The output array and the result buffer: all the transpose touches. -/
abbrev outRefs : Finset (DevRef τ sig) := {Proc.devRef .tc main_v7, Proc.devRef .tc main_v8}

/-- The two held whole at contents `W`, one by one. -/
theorem held_out (c : Dev nD) (W : Valuation τ sig (Elt F)) :
    (StableHlo.held (c.tc : Thread nD τ) outRefs W : sProp 𝕄)
      = iprop((((c : Thread nD τ).loc main_v7) ↦{fullShare} W (Proc.devRef .tc main_v7))
          ∗ (((c : Thread nD τ).loc main_v8) ↦{fullShare} W (Proc.devRef .tc main_v8))) := by
  unfold StableHlo.held outRefs
  rw [bigSep_insert (Finset.notMem_singleton.mpr (StableHlo.devRef_ne_of_ne (by decide))), bigSep_singleton]
  rfl

/-- The transpose does not write the output array: after it the array is as the region left it. -/
theorem after_out (c : Dev nD) :
    StableHlo.after hostOps1 (Wexit m c) (Proc.devRef .tc main_v7) = (dats m 0 c).arrAt 5 cfg0.N := by
  rw [StableHlo.after_of_forall_not_mem (b := Proc.devRef .tc main_v7) _ _ (List.forall_iff_forall_mem.mp (by
    simp only [hostOps1, List.Forall, StableHlo.unary_writes, Finset.mem_singleton]
    exact StableHlo.devRef_ne_of_ne (by decide))), Wexit_out]

/-- The two at the region's exit: the output array as the write-backs left it, the result buffer as the region found it. -/
theorem held_exit (c : Dev nD) :
    (StableHlo.held (c.tc : Thread nD τ) outRefs (Wexit m c) : sProp 𝕄)
      = iprop((((c : Thread nD τ).loc main_v7) ↦{fullShare} (dats m 0 c).arrAt 5 cfg0.N)
          ∗ (((c : Thread nD τ).loc main_v8) ↦{fullShare} V m c main_v8)) := by
  rw [held_out, Wexit_out, Wexit_of_ne m c _ (StableHlo.devRef_ne_of_ne (by decide))]

/-- The two after the transpose: the output array unchanged, the result buffer at the transpose. -/
theorem held_done (c : Dev nD) :
    (StableHlo.held (c.tc : Thread nD τ) outRefs (StableHlo.after (List.flatten [hostOps1]) (Wexit m c)) : sProp 𝕄)
      = iprop((((c : Thread nD τ).loc main_v7) ↦{fullShare} (dats m 0 c).arrAt 5 cfg0.N)
          ∗ (((c : Thread nD τ).loc main_v8) ↦{fullShare} StableHlo.after hostOps1 (Wexit m c) (Proc.devRef .tc main_v8))) := by
  rw [held_out, show List.flatten [hostOps1 (F := F)] = hostOps1 from List.append_nil _, after_out]

/-- The transpose touches only the output array and the result buffer. -/
theorem sfx_sub : ∀ ops ∈ ([hostOps1] : List (List (HloOp τ sig (Elt F)))), ∀ op ∈ ops, op.bufs ⊆ outRefs := by
  intro ops hops op hop
  simp only [List.mem_cons, List.mem_nil_iff, or_false] at hops
  subst hops
  simp only [hostOps1, List.mem_cons, List.mem_nil_iff, or_false] at hop
  subst hop
  exact (StableHlo.unary_bufs ..).subset

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the transpose of the output array into the result buffer runs, and hands back the arrays as
    the region left them and the bypassing buffers with the result buffer at the transpose. -/
theorem htail (c : Dev nD) (Q' : PUnit → sProp 𝕄) :
    iprop((iprop((dats m 0 c).arrays ((dats m 0 c).arrAt · cfg0.N)
              ∗ restAt m c (StableHlo.after hostOps1 (Wexit m c) (Proc.devRef .tc main_v8))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [restAt_entry, arrays_chain]
  unfold restAt
  show _ ⊢ wp frame (wpE (Pipeline.defs (pcfgs (F := F)) defs₀) (Variants.lift Variants.none) (c : Thread nD τ) none) Set.univ
      (Pipeline.chain (([hostOps1] : List (List (HloOp τ sig (Elt F)))).map StableHlo.seq ++ [])) Q'
  iintro ⟨Hk, Hb, ⟨A0, A1, A2, A3, A4, A5⟩, ⟨R0, R1, R2, R3, R4, R5, R6, R8⟩⟩
  ihave Hh := (Entails.of_eq (held_exit m c).symm) $$ [A5 R8]
  · isplitl [A5]; · iexact A5
    iexact R8
  iapply (Pipeline.wp_seqs_then (pcfgs (F := F)) defs₀ Variants.none c outRefs [] [hostOps1] sfx_sub sfx_fresh (Wexit m c)) $$ [Hb Hh]
  · isplitl [Hb]; · iexact Hb
    iexact Hh
  iintro ⟨Hb, Hh⟩
  rw [Pipeline.chain_nil, wp_pure]
  imodintro
  ihave Hh' := (Entails.of_eq (held_done m c)) $$ Hh
  icases Hh' with ⟨A5, R8⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R8

/-! ## The final memory -/

/-- What the run's post says of core `c`. -/
def QY (c : Dev nD) (s : MemSt nD τ sig (Elt F)) : Prop :=
  s.mem ((c.tc : Thread nD τ).loc main_v8) = StableHlo.after hostOps1 (Wexit m c) (Proc.devRef .tc main_v8)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

/-- The bypassing buffers held whole fix the memory at the result buffer and at the three arguments. -/
theorem hY (c : Dev nD) (s' : Phys nD τ sig (Elt F)) :
    iprop((BI.emp : sProp 𝕄) ∗ restAt m c (StableHlo.after hostOps1 (Wexit m c) (Proc.devRef .tc main_v8)) ∗ SI s')
      ⊢ |={Set.univ}=> iprop(⌜QY m c s'.mem⌝ ∗ SI s') := by
  unfold restAt
  rw [V_main_arg0, V_main_arg1, V_main_arg2]
  iintro ⟨-, ⟨H0, H1, H2, -, -, -, -, H8⟩, HSI⟩
  icombine HSI H0 gives %h0
  icombine HSI H1 gives %h1
  icombine HSI H2 gives %h2
  icombine HSI H8 gives %h8
  imodintro
  isplitr
  · ipureintro
    exact ⟨Buf.eq_of_forall_mem_univ h8, Buf.eq_of_forall_mem_univ h0, Buf.eq_of_forall_mem_univ h1, Buf.eq_of_forall_mem_univ h2⟩
  iexact HSI

set_option backward.isDefEq.respectTransparency.types false in
/-- THE RUN. -/
theorem run_main : θ_run defs (onTc (τ := τ) (main (F := F))) (s₀ m ρ) (fun r => ∀ c : Dev nD,
      r.2.mem ((c.tc : Thread nD τ).loc main_v8) = StableHlo.after hostOps1 (Wexit m c) (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_noSem_pf_tail (fun q => (cfgs q).toPCfg) (fun q => (cfgs q).toPCfg_adm) (dats m) () cellOf_inj 0
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => restAt m c (StableHlo.after hostOps1 (Wexit m c) (Proc.devRef .tc main_v8)))
    (hX := fun c => by
      rw [Pipeline.unscopedRestP_none]
      iintro H; isplitr; · iempintro
      iexact H)
    (hin := fun c => by
      iintro ⟨-, -, HR⟩
      iapply (show (Pipeline.scopedRest (Ix := Unit) (Name := ℕ) (U := UR sig nD τ) (Lvl := ℕ) (Val := Elt F) spec0 c : sProp 𝕄) ⊢ (dats m 0 c).Φ 0 from by
        dsimp only [dats]; exact .rfl)
      iexact HR)
    (hout := fun c => by
      iintro HR; isplitr; · iempintro
      iapply (show (dats m 0 c).Φ (Fin.last cfg0.N) ⊢ (Pipeline.scopedRest (Ix := Unit) (Name := ℕ) (U := UR sig nD τ) (Lvl := ℕ) (Val := Elt F) spec0 c : sProp 𝕄) from by
        dsimp only [dats]; exact .rfl)
      iexact HR)
    (htail := htail m)
    (QY := QY m)
    (hY := hY m)
    (hQ := fun s h c => (h c).2.2)

end Cert.Kernel.Hand

end
-- ==== Proof.KIBody.lean ====
/-
  The stride-2 causal 3x3x3 convolution kernel's body as one pure function of the blocks it loads:
  three frame blocks (each frame's W pairs fused in lanes), the 27 tap matrices and the bias row.
  The body loads each block whole, forms 27 shifted patches, multiplies each with its tap matrix,
  adds the bias and stores the result block whole; `kout` names that stored value and
  `sound_kernel` says the body run leaves exactly it in the output block.
-/
import proofs.«108319_g2000506355603382_pallasbulk_1083_2_alg».proof.Proof.Gen.KernelIdeal.Launch
import proofs.«108319_g2000506355603382_pallasbulk_1083_2_alg».proof.Proof.Gen.KernelIdeal.Skeleton
import proofs.«108319_g2000506355603382_pallasbulk_1083_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rX : Rect S1x1x64x32x256 := Rect.unit (s := S1x1x64x32x256) ![0, 0, 0, 0, 0] S1x1x64x32x256.size inb_S1x1x64x32x256_S1x1x64x32x256_0_0_0_0_0
abbrev rW0 : Rect S27x128x128 := Rect.unit (s := S27x128x128) ![0, 0, 0] S1x128x128.size inb_S27x128x128_S1x128x128_0_0_0
abbrev rW1 : Rect S27x128x128 := Rect.unit (s := S27x128x128) ![1, 0, 0] S1x128x128.size inb_S27x128x128_S1x128x128_1_0_0
abbrev rW2 : Rect S27x128x128 := Rect.unit (s := S27x128x128) ![2, 0, 0] S1x128x128.size inb_S27x128x128_S1x128x128_2_0_0
abbrev rW3 : Rect S27x128x128 := Rect.unit (s := S27x128x128) ![3, 0, 0] S1x128x128.size inb_S27x128x128_S1x128x128_3_0_0
abbrev rW4 : Rect S27x128x128 := Rect.unit (s := S27x128x128) ![4, 0, 0] S1x128x128.size inb_S27x128x128_S1x128x128_4_0_0
abbrev rW5 : Rect S27x128x128 := Rect.unit (s := S27x128x128) ![5, 0, 0] S1x128x128.size inb_S27x128x128_S1x128x128_5_0_0
abbrev rW6 : Rect S27x128x128 := Rect.unit (s := S27x128x128) ![6, 0, 0] S1x128x128.size inb_S27x128x128_S1x128x128_6_0_0
abbrev rW7 : Rect S27x128x128 := Rect.unit (s := S27x128x128) ![7, 0, 0] S1x128x128.size inb_S27x128x128_S1x128x128_7_0_0
abbrev rW8 : Rect S27x128x128 := Rect.unit (s := S27x128x128) ![8, 0, 0] S1x128x128.size inb_S27x128x128_S1x128x128_8_0_0
abbrev rW9 : Rect S27x128x128 := Rect.unit (s := S27x128x128) ![9, 0, 0] S1x128x128.size inb_S27x128x128_S1x128x128_9_0_0
abbrev rW10 : Rect S27x128x128 := Rect.unit (s := S27x128x128) ![10, 0, 0] S1x128x128.size inb_S27x128x128_S1x128x128_10_0_0
abbrev rW11 : Rect S27x128x128 := Rect.unit (s := S27x128x128) ![11, 0, 0] S1x128x128.size inb_S27x128x128_S1x128x128_11_0_0
abbrev rW12 : Rect S27x128x128 := Rect.unit (s := S27x128x128) ![12, 0, 0] S1x128x128.size inb_S27x128x128_S1x128x128_12_0_0
abbrev rW13 : Rect S27x128x128 := Rect.unit (s := S27x128x128) ![13, 0, 0] S1x128x128.size inb_S27x128x128_S1x128x128_13_0_0
abbrev rW14 : Rect S27x128x128 := Rect.unit (s := S27x128x128) ![14, 0, 0] S1x128x128.size inb_S27x128x128_S1x128x128_14_0_0
abbrev rW15 : Rect S27x128x128 := Rect.unit (s := S27x128x128) ![15, 0, 0] S1x128x128.size inb_S27x128x128_S1x128x128_15_0_0
abbrev rW16 : Rect S27x128x128 := Rect.unit (s := S27x128x128) ![16, 0, 0] S1x128x128.size inb_S27x128x128_S1x128x128_16_0_0
abbrev rW17 : Rect S27x128x128 := Rect.unit (s := S27x128x128) ![17, 0, 0] S1x128x128.size inb_S27x128x128_S1x128x128_17_0_0
abbrev rW18 : Rect S27x128x128 := Rect.unit (s := S27x128x128) ![18, 0, 0] S1x128x128.size inb_S27x128x128_S1x128x128_18_0_0
abbrev rW19 : Rect S27x128x128 := Rect.unit (s := S27x128x128) ![19, 0, 0] S1x128x128.size inb_S27x128x128_S1x128x128_19_0_0
abbrev rW20 : Rect S27x128x128 := Rect.unit (s := S27x128x128) ![20, 0, 0] S1x128x128.size inb_S27x128x128_S1x128x128_20_0_0
abbrev rW21 : Rect S27x128x128 := Rect.unit (s := S27x128x128) ![21, 0, 0] S1x128x128.size inb_S27x128x128_S1x128x128_21_0_0
abbrev rW22 : Rect S27x128x128 := Rect.unit (s := S27x128x128) ![22, 0, 0] S1x128x128.size inb_S27x128x128_S1x128x128_22_0_0
abbrev rW23 : Rect S27x128x128 := Rect.unit (s := S27x128x128) ![23, 0, 0] S1x128x128.size inb_S27x128x128_S1x128x128_23_0_0
abbrev rW24 : Rect S27x128x128 := Rect.unit (s := S27x128x128) ![24, 0, 0] S1x128x128.size inb_S27x128x128_S1x128x128_24_0_0
abbrev rW25 : Rect S27x128x128 := Rect.unit (s := S27x128x128) ![25, 0, 0] S1x128x128.size inb_S27x128x128_S1x128x128_25_0_0
abbrev rW26 : Rect S27x128x128 := Rect.unit (s := S27x128x128) ![26, 0, 0] S1x128x128.size inb_S27x128x128_S1x128x128_26_0_0
abbrev rB : Rect S1x128 := Rect.unit (s := S1x128) ![0, 0] S1x128.size inb_S1x128_S1x128_0_0
abbrev rO : Rect S1x1x32x32x128 := Rect.unit (s := S1x1x32x32x128) ![0, 0, 0, 0, 0] S1x1x32x32x128.size inb_S1x1x32x32x128_S1x1x32x32x128_0_0_0_0_0

/-! ## The stored value -/

/-- What the body stores into the output block, as a function of the three frame blocks `x0 x1 x2`
    (time taps 0, 1, 2), the tap matrices `w` and the bias row `b`. -/
def kout (x0 x1 x2 : Vec F S1x1x64x32x256 .bf16) (w : Vec F S27x128x128 .bf16) (b : Vec F S1x128 .f32) : FVec F S1x1x32x32x128 .f32 :=
  k0_pay1
    (k0_pay31 (k0_pay24 (View.ld x2 rX))
      (k0_pay25
        (k0_pay21 (k0_pay14 (View.ld x1 rX))
          (k0_pay15
            (k0_pay11 (k0_pay3 (View.ld x0 rX)) (k0_pay4 (View.ld x0 rX) (View.ld w rW0) (View.ld w rW3) (View.ld w rW6))
              (k0_pay6 (View.ld x0 rX)) (k0_pay7 (View.ld x0 rX)) (k0_pay8 (F := F))
              (View.ld w rW1) (View.ld w rW4) (View.ld w rW7) (View.ld w rW2) (View.ld w rW5))
            (k0_pay12 (k0_pay3 (View.ld x0 rX))) (View.ld w rW8) (View.ld x1 rX) (View.ld w rW9) (View.ld w rW12) (View.ld w rW15))
          (k0_pay17 (View.ld x1 rX)) (k0_pay18 (View.ld x1 rX)) (Scalar.ofBits .bf16 0x0000#16)
          (View.ld w rW10) (View.ld w rW13) (View.ld w rW16) (View.ld w rW11) (View.ld w rW14))
        (k0_pay22 (k0_pay14 (View.ld x1 rX))) (View.ld w rW17) (View.ld x2 rX) (View.ld w rW18) (View.ld w rW21) (View.ld w rW24))
      (k0_pay27 (View.ld x2 rX)) (k0_pay28 (View.ld x2 rX))
      (View.ld w rW19) (View.ld w rW22) (View.ld w rW25) (View.ld w rW20) (View.ld w rW23))
    (k0_pay32 (k0_pay24 (View.ld x2 rX))) (View.ld w rW26) (View.ld b rB)

/-- The output block after the body: its one store, which covers the block. -/
def out5 (x0 x1 x2 : Vec F S1x1x64x32x256 .bf16) (w : Vec F S27x128x128 .bf16) (b : Vec F S1x128 .f32) : Vec F S1x1x32x32x128 .f32 :=
  View.canon [⟨rO, kout x0 x1 x2 w b⟩]

theorem cover5 (p0 : Vec F S1x1x32x32x128 .f32) (y : S1x1x32x32x128.Idx) :
    ∃ pc ∈ ([⟨rO, p0⟩] : List (View.Piece (Elt F) S1x1x32x32x128 .f32)), y ∈ pc.1.set :=
  View.cover_of_tiled [⟨rO, p0⟩] S1x1x32x32x128.size (by rfl) y

/-! ## The body's run -/

set_option maxHeartbeats 4000000 in
/-- On whole staging blocks, the inputs at contents `x0 x1 x2 w b` and the output at anything, the body runs to the
    continuation holding the inputs as they were and the output block at `out5` of them. -/
theorem sound_kernel (c : Dev nD) (E : Set ℕ) (i : grid0.Coords)
    (arg2 : Memref sig .tc .vmem S1x1x64x32x256 .bf16) (harg2 : arg2.IsWhole) (arg3 : Memref sig .tc .vmem S1x1x64x32x256 .bf16) (harg3 : arg3.IsWhole)
    (arg4 : Memref sig .tc .vmem S1x1x64x32x256 .bf16) (harg4 : arg4.IsWhole) (arg5 : Memref sig .tc .vmem S27x128x128 .bf16) (harg5 : arg5.IsWhole)
    (arg6 : Memref sig .tc .vmem S1x128 .f32) (harg6 : arg6.IsWhole) (arg7 : Memref sig .tc .vmem S1x1x32x32x128 .f32) (harg7 : arg7.IsWhole)
    (x0 x1 x2 : Vec F S1x1x64x32x256 .bf16) (w : Vec F S27x128x128 .bf16) (b : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare w ∗ owns (c : Thread nD τ) arg6 fullShare b ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare w ∗ owns (c : Thread nD τ) arg6 fullShare b
            ∗ owns (c : Thread nD τ) arg7 fullShare (out5 x0 x1 x2 w b)) -∗ K ⟨⟩))
      ⊢ wp frame (wpE (defs₀ (F := F)) Variants.none c none) E (cc0__conv_body i arg2 harg2 arg3 harg3 arg4 harg4 arg5 harg5 arg6 harg6 arg7 harg7) K := by
  simp only [cc0__conv_body_eq_skeleton]; unfold cc0__conv_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

end Cert.KernelIdeal.Hand

end
-- ==== Proof.KIDat.lean ====
/-
  The proof data of the convolution kernel's one pipeline: the arrays as the region finds them (after the host's
  transposes, casts and reshapes), each window's block at a grid point, what the body leaves in every staging
  block, and the body obligation at every point. The frame array is handed to the kernel through three windows
  (time taps 0, 1, 2), so its full share is dealt among them; the tap matrices and the bias are held whole.
-/
import proofs.«108319_g2000506355603382_pallasbulk_1083_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the seven host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging block holds its array's block at every point, fetched there or not, for any
    proof data whose array is the region's (`hA`) and whose body leaves the block in place (`hafter`): unfetched,
    the block index has not moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging block holds its array's block at every point, fetched there or not, for any
    proof data whose array is the region's (`hA`) and whose body leaves the block in place (`hafter`): unfetched,
    the block index has not moved; the window is uncut and never idle. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging block holds its array's block at every point, fetched there or not, for any
    proof data whose array is the region's (`hA`) and whose body leaves the block in place (`hafter`): unfetched,
    the block index has not moved; the window is uncut and never idle. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging block holds its array's block at every point, fetched there or not, for any
    proof data whose array is the region's (`hA`) and whose body leaves the block in place (`hafter`): unfetched,
    the block index has not moved; the window is uncut and never idle. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging block holds its array's block at every point, fetched there or not, for any
    proof data whose array is the region's (`hA`) and whose body leaves the block in place (`hafter`): unfetched,
    the block index has not moved; the window is uncut and never idle. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The region's invariant: the core's scoped buffers that are no staging buffer (there are none). -/
abbrev ΦK (c : Dev nD) : sProp 𝕄 :=
  Pipeline.scopedRest (Ix := Unit) (Name := ℕ) (U := UR sig nD τ) (Lvl := ℕ) (Val := Elt F) spec0 c

/-- The share of its array each input window holds: the frame array's full share dealt to its three windows. -/
abbrev qK : Fin cfg0.W → PosShare TreeShare := fun
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := ΦK c
  q := qK
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- Each input window's current staging block holds its array's block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- What the body is called with at point `t`: the obligation's precondition, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input blocks hold their arrays' blocks (`before0` … `before4`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch of the convolution program: @main is seven host operations (the activations to channels-last
  with each W pair fused in lanes, the weights to 27 tap matrices, the bias to a row), one kernel region
  on a 2 x 8 grid whose first three windows read ONE array at three time taps, and one host transpose of
  the region's result. The run: every weakly fair execution terminates, the arguments end unchanged, and the
  result buffer ends at the host transpose of the region's output array as the pipeline library computes it.
-/
import proofs.«108319_g2000506355603382_pallasbulk_1083_2_alg».proof.Proof.KIDat
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- Core `c`'s buffer contents when the region is left: as it was entered, but for the output array, which holds
    what the write-backs of all grid points left. -/
def Wexit (c : Dev nD) : Valuation τ sig (Elt F) := fun b =>
  if h : Proc.devRef .tc main_v7 = b then
    cast (congrArg (fun b' : DevRef τ sig => b'.ty.Contents (Elt F)) h) ((dats m 0 c).arrAt 5 cfg0.N)
  else V0 m c b

theorem Wexit_out (c : Dev nD) : Wexit m c (Proc.devRef .tc main_v7) = (dats m 0 c).arrAt 5 cfg0.N := by
  unfold Wexit; rw [dif_pos rfl]; rfl

theorem Wexit_of_ne (c : Dev nD) (b : DevRef τ sig) (hb : Proc.devRef .tc main_v7 ≠ b) : Wexit m c b = V0 m c b := by
  unfold Wexit; rw [dif_neg hb]

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations allocate nothing. -/
theorem hostOps0_fresh : (hostOps0 : List (HloOp τ sig (Elt F))).Forall fun op => op.fresh = ∅ := by
  simp only [List.Forall]; repeat' constructor
/-- Nor does the transpose after the region. -/
theorem hostOps1_fresh : (hostOps1 : List (HloOp τ sig (Elt F))).Forall fun op => op.fresh = ∅ := by
  simp only [List.Forall]; repeat' constructor

/-- @main around the region: the seven host operations, the region, the host transpose; it reduces to the region
    continued by the transpose, the buffers at their contents after the seven. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The region's arrays from the buffers behind them -/

/-- The distinct buffers behind the windows' arrays, one by one: the frame array, the tap matrices, the bias row and the
    output array. -/
theorem arrBufs_chain (c : Dev nD) :
    (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v5) ↦{fullShare} V m c main_v5)
          ∗ (((c : Thread nD τ).loc main_v6) ↦{fullShare} V m c main_v6) ∗ (((c : Thread nD τ).loc main_v7) ↦{fullShare} V m c main_v7)) := by
  unfold Pipeline.arrBufs
  exact bigSep_eq_bigSepL_of_eq [main_v2, main_v5, main_v6, main_v7] (by decide) (by decide) _

/-- The windows' arrays, one by one, each a whole buffer at its window's share: the frame array three times, at the
    left, right-left and right-right parts of the full share. -/
theorem arrays_chain (c : Dev nD) (n : Nat) :
    ((dats m 0 c).arrays ((dats m 0 c).arrAt · n) : sProp 𝕄)
      = iprop((((c : Thread nD τ).loc main_v2) ↦{fullShare.left} (dats m 0 c).arrAt 0 n)
          ∗ (((c : Thread nD τ).loc main_v2) ↦{fullShare.right.left} (dats m 0 c).arrAt 1 n)
          ∗ (((c : Thread nD τ).loc main_v2) ↦{fullShare.right.right} (dats m 0 c).arrAt 2 n)
          ∗ (((c : Thread nD τ).loc main_v5) ↦{fullShare} (dats m 0 c).arrAt 3 n)
          ∗ (((c : Thread nD τ).loc main_v6) ↦{fullShare} (dats m 0 c).arrAt 4 n)
          ∗ (((c : Thread nD τ).loc main_v7) ↦{fullShare} (dats m 0 c).arrAt 5 n)) := by
  unfold Dat.arrays
  rw [show (bigSep Finset.univ fun w : Fin cfg0.W => ((cfg0.win w).arr.view.loc (c.tc : Thread nD τ) ↦[(cfg0.win w).arr.view.set]{(dats m 0 c).share w} (dats m 0 c).arrAt w n : sProp 𝕄))
      = bigSep Finset.univ fun w : Fin cfg0.W => (((c.tc : Thread nD τ).loc (Pipeline.arrRef spec0 w)) ↦{(dats m 0 c).share w} (dats m 0 c).arrAt w n : sProp 𝕄)
    from bigSep_congr fun w _ => by rw [(arr_whole0 w).set_eq_univ]]
  rw [bigSep_W0]
  rfl

/-- The four buffers behind the six windows' arrays, whole at the full share as the region finds them, make the
    windows' arrays at entry: the frame array's full share is dealt left, right-left, right-right to its three
    windows; the tap matrices, the bias and the output array are each one window's, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : (dats m 0 c).arrAt 0 0 = V m c main_v2 := A_eq m c 0
  have e1 : (dats m 0 c).arrAt 1 0 = V m c main_v2 := A_eq m c 1
  have e2 : (dats m 0 c).arrAt 2 0 = V m c main_v2 := A_eq m c 2
  have e3 : (dats m 0 c).arrAt 3 0 = V m c main_v5 := A_eq m c 3
  have e4 : (dats m 0 c).arrAt 4 0 = V m c main_v6 := A_eq m c 4
  have e5 : (dats m 0 c).arrAt 5 0 = V m c main_v7 := A_eq m c 5
  rw [arrBufs_chain, arrays_chain, e0, e1, e2, e3, e4, e5]
  iintro ⟨H2, H5, H6, H7⟩
  ihave H2' := ((pointsTo_share (PosShare.mem_left_op_right fullShare)).1) $$ H2
  icases H2' with ⟨H2l, H2r⟩
  ihave H2'' := ((pointsTo_share (PosShare.mem_left_op_right fullShare.right)).1) $$ H2r
  icases H2'' with ⟨H2rl, H2rr⟩
  isplitl [H2l]; · iexact H2l
  isplitl [H2rl]; · iexact H2rl
  isplitl [H2rr]; · iexact H2rr
  isplitl [H5]; · iexact H5
  isplitl [H6]; · iexact H6
  iexact H7

/-! ## The buffers that bypass the region -/

/-- The eight unscoped buffers that are no window's array, whole at the contents the region finds them at, but for
    the result buffer, at `X`. -/
def restAt (c : Dev nD) (X : Buf (Elt F) ((c : Thread nD τ).loc main_v8)) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_v0) ↦{fullShare} V m c main_v0)
    ∗ (((c : Thread nD τ).loc main_v1) ↦{fullShare} V m c main_v1) ∗ (((c : Thread nD τ).loc main_v3) ↦{fullShare} V m c main_v3)
    ∗ (((c : Thread nD τ).loc main_v4) ↦{fullShare} V m c main_v4) ∗ (((c : Thread nD τ).loc main_v8) ↦{fullShare} X))

/-- As the region finds them they are the library's rest of the unscoped buffers. -/
theorem restAt_entry (c : Dev nD) :
    (Pipeline.unscopedRest (Ix := Unit) (Name := ℕ) (U := UR sig nD τ) (Lvl := ℕ) spec0 c (V m c) : sProp 𝕄) = restAt m c (V m c main_v8) :=
  unscopedRest0_eq c (V m c)

/-! ## The host transpose after the region -/

/-- The output array and the result buffer: all the transpose touches. -/
abbrev outRefs : Finset (DevRef τ sig) := {Proc.devRef .tc main_v7, Proc.devRef .tc main_v8}

/-- The two held whole at contents `W`, one by one. -/
theorem held_out (c : Dev nD) (W : Valuation τ sig (Elt F)) :
    (StableHlo.held (c.tc : Thread nD τ) outRefs W : sProp 𝕄)
      = iprop((((c : Thread nD τ).loc main_v7) ↦{fullShare} W (Proc.devRef .tc main_v7))
          ∗ (((c : Thread nD τ).loc main_v8) ↦{fullShare} W (Proc.devRef .tc main_v8))) := by
  unfold StableHlo.held outRefs
  rw [bigSep_insert (Finset.notMem_singleton.mpr (StableHlo.devRef_ne_of_ne (by decide))), bigSep_singleton]
  rfl

/-- The transpose does not write the output array: after it the array is as the region left it. -/
theorem after_out (c : Dev nD) :
    StableHlo.after hostOps1 (Wexit m c) (Proc.devRef .tc main_v7) = (dats m 0 c).arrAt 5 cfg0.N := by
  rw [StableHlo.after_of_forall_not_mem (b := Proc.devRef .tc main_v7) _ _ (List.forall_iff_forall_mem.mp (by
    simp only [hostOps1, List.Forall, StableHlo.unary_writes, Finset.mem_singleton]
    exact StableHlo.devRef_ne_of_ne (by decide))), Wexit_out]

/-- The two at the region's exit: the output array as the write-backs left it, the result buffer as the region found it. -/
theorem held_exit (c : Dev nD) :
    (StableHlo.held (c.tc : Thread nD τ) outRefs (Wexit m c) : sProp 𝕄)
      = iprop((((c : Thread nD τ).loc main_v7) ↦{fullShare} (dats m 0 c).arrAt 5 cfg0.N)
          ∗ (((c : Thread nD τ).loc main_v8) ↦{fullShare} V m c main_v8)) := by
  rw [held_out, Wexit_out, Wexit_of_ne m c _ (StableHlo.devRef_ne_of_ne (by decide))]

/-- The two after the transpose: the output array unchanged, the result buffer at the transpose. -/
theorem held_done (c : Dev nD) :
    (StableHlo.held (c.tc : Thread nD τ) outRefs (StableHlo.after (List.flatten [hostOps1]) (Wexit m c)) : sProp 𝕄)
      = iprop((((c : Thread nD τ).loc main_v7) ↦{fullShare} (dats m 0 c).arrAt 5 cfg0.N)
          ∗ (((c : Thread nD τ).loc main_v8) ↦{fullShare} StableHlo.after hostOps1 (Wexit m c) (Proc.devRef .tc main_v8))) := by
  rw [held_out, show List.flatten [hostOps1 (F := F)] = hostOps1 from List.append_nil _, after_out]

/-- The transpose touches only the output array and the result buffer. -/
theorem sfx_sub : ∀ ops ∈ ([hostOps1] : List (List (HloOp τ sig (Elt F)))), ∀ op ∈ ops, op.bufs ⊆ outRefs := by
  intro ops hops op hop
  simp only [List.mem_cons, List.mem_nil_iff, or_false] at hops
  subst hops
  simp only [hostOps1, List.mem_cons, List.mem_nil_iff, or_false] at hop
  subst hop
  exact (StableHlo.unary_bufs ..).subset

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the transpose of the output array into the result buffer runs, and hands back the arrays as
    the region left them and the bypassing buffers with the result buffer at the transpose. -/
theorem htail (c : Dev nD) (Q' : PUnit → sProp 𝕄) :
    iprop((iprop((dats m 0 c).arrays ((dats m 0 c).arrAt · cfg0.N)
              ∗ restAt m c (StableHlo.after hostOps1 (Wexit m c) (Proc.devRef .tc main_v8))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [restAt_entry, arrays_chain]
  unfold restAt
  show _ ⊢ wp frame (wpE (Pipeline.defs (pcfgs (F := F)) defs₀) (Variants.lift Variants.none) (c : Thread nD τ) none) Set.univ
      (Pipeline.chain (([hostOps1] : List (List (HloOp τ sig (Elt F)))).map StableHlo.seq ++ [])) Q'
  iintro ⟨Hk, Hb, ⟨A0, A1, A2, A3, A4, A5⟩, ⟨R0, R1, R2, R3, R4, R5, R6, R8⟩⟩
  ihave Hh := (Entails.of_eq (held_exit m c).symm) $$ [A5 R8]
  · isplitl [A5]; · iexact A5
    iexact R8
  iapply (Pipeline.wp_seqs_then (pcfgs (F := F)) defs₀ Variants.none c outRefs [] [hostOps1] sfx_sub sfx_fresh (Wexit m c)) $$ [Hb Hh]
  · isplitl [Hb]; · iexact Hb
    iexact Hh
  iintro ⟨Hb, Hh⟩
  rw [Pipeline.chain_nil, wp_pure]
  imodintro
  ihave Hh' := (Entails.of_eq (held_done m c)) $$ Hh
  icases Hh' with ⟨A5, R8⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R8

/-! ## The final memory -/

/-- What the run's post says of core `c`. -/
def QY (c : Dev nD) (s : MemSt nD τ sig (Elt F)) : Prop :=
  s.mem ((c.tc : Thread nD τ).loc main_v8) = StableHlo.after hostOps1 (Wexit m c) (Proc.devRef .tc main_v8)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

/-- The bypassing buffers held whole fix the memory at the result buffer and at the three arguments. -/
theorem hY (c : Dev nD) (s' : Phys nD τ sig (Elt F)) :
    iprop((BI.emp : sProp 𝕄) ∗ restAt m c (StableHlo.after hostOps1 (Wexit m c) (Proc.devRef .tc main_v8)) ∗ SI s')
      ⊢ |={Set.univ}=> iprop(⌜QY m c s'.mem⌝ ∗ SI s') := by
  unfold restAt
  rw [V_main_arg0, V_main_arg1, V_main_arg2]
  iintro ⟨-, ⟨H0, H1, H2, -, -, -, -, H8⟩, HSI⟩
  icombine HSI H0 gives %h0
  icombine HSI H1 gives %h1
  icombine HSI H2 gives %h2
  icombine HSI H8 gives %h8
  imodintro
  isplitr
  · ipureintro
    exact ⟨Buf.eq_of_forall_mem_univ h8, Buf.eq_of_forall_mem_univ h0, Buf.eq_of_forall_mem_univ h1, Buf.eq_of_forall_mem_univ h2⟩
  iexact HSI

set_option backward.isDefEq.respectTransparency.types false in
/-- THE RUN. -/
theorem run_main : θ_run defs (onTc (τ := τ) (main (F := F))) (s₀ m ρ) (fun r => ∀ c : Dev nD,
      r.2.mem ((c.tc : Thread nD τ).loc main_v8) = StableHlo.after hostOps1 (Wexit m c) (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_noSem_pf_tail (fun q => (cfgs q).toPCfg) (fun q => (cfgs q).toPCfg_adm) (dats m) () cellOf_inj 0
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => restAt m c (StableHlo.after hostOps1 (Wexit m c) (Proc.devRef .tc main_v8)))
    (hX := fun c => by
      rw [Pipeline.unscopedRestP_none]
      iintro H; isplitr; · iempintro
      iexact H)
    (hin := fun c => by
      iintro ⟨-, -, HR⟩
      iapply (show (Pipeline.scopedRest (Ix := Unit) (Name := ℕ) (U := UR sig nD τ) (Lvl := ℕ) (Val := Elt F) spec0 c : sProp 𝕄) ⊢ (dats m 0 c).Φ 0 from by
        dsimp only [dats]; exact .rfl)
      iexact HR)
    (hout := fun c => by
      iintro HR; isplitr; · iempintro
      iapply (show (dats m 0 c).Φ (Fin.last cfg0.N) ⊢ (Pipeline.scopedRest (Ix := Unit) (Name := ℕ) (U := UR sig nD τ) (Lvl := ℕ) (Val := Elt F) spec0 c : sProp 𝕄) from by
        dsimp only [dats]; exact .rfl)
      iexact HR)
    (htail := htail m)
    (QY := QY m)
    (hY := hY m)
    (hQ := fun s h c => (h c).2.2)

end Cert.KernelIdeal.Hand

end
-- ==== Proof.ConvSpec.lean ====
/-
  The specification both programs meet at the exact extended reals: a causal 3x3x3 convolution of stride 2
  over a video x[n, ci, t, h, w] with weights w[co, ci, kt, kh, kw] and a bias b[co].
  Output (n, co, t, ho, wo) sums, over the 27 taps and the 128 input channels, the activation at frame
  max(2t + kt - 2, 0) (the first frame stands in for the two frames before the clip) and at the spatial
  position (2ho + kh - 1, 2wo + kw - 1) (zero outside the picture) times the weight, and adds the bias.
  Addition of extended reals is commutative and associative, so any order and grouping of the taps gives this sum;
  `kfold` and `rfold` are the two orders the programs use.
-/
import Idealize.ShloMosaic.PureOps.Ideal
import Idealize.ShloMosaic.Lib.ValueIdx

noncomputable section

open scoped BigOperators

namespace Cert.ConvSpec

open Idealize.ShloMosaic Idealize.ShloMosaic.ValueIdx

abbrev SX : Shape := ⟨5, ![2, 128, 16, 64, 64]⟩
abbrev SW : Shape := ⟨5, ![128, 128, 3, 3, 3]⟩
abbrev SB : Shape := ⟨1, ![128]⟩
abbrev SO : Shape := ⟨5, ![2, 128, 8, 32, 32]⟩

/-- The input frame that time tap `kt` of output frame `t` reads: max(2t + kt - 2, 0) (truncated subtraction). -/
def tin (t : Fin 8) (kt : Fin 3) : Fin 16 := ⟨2 * t.val + kt.val - 2, by have := t.isLt; have := kt.isLt; omega⟩

/-- The activation read at PADDED spatial coordinates `hp, wp` in [0, 66): the picture's (hp - 1, wp - 1), zero on the border. -/
def xpad (x : SX.Idx → EReal) (n : Fin 2) (ci : Fin 128) (tf : Fin 16) (hp wp : ℕ) : EReal :=
  if h : 1 ≤ hp ∧ hp ≤ 64 ∧ 1 ≤ wp ∧ wp ≤ 64 then x (ix5 n ci tf ⟨hp - 1, by omega⟩ ⟨wp - 1, by omega⟩) else 0

/-- One product of the convolution. -/
def term (x : SX.Idx → EReal) (w : SW.Idx → EReal) (n : Fin 2) (co : Fin 128) (t : Fin 8) (ho wo : Fin 32)
    (kt kh kw : Fin 3) (ci : Fin 128) : EReal :=
  xpad x n ci (tin t kt) (2 * ho.val + kh.val) (2 * wo.val + kw.val) * w (ix5 co ci kt kh kw)

/-- THE SPECIFICATION. -/
def conv (x : SX.Idx → EReal) (w : SW.Idx → EReal) (b : SB.Idx → EReal) : SO.Idx → EReal := fun i =>
  (∑ kt : Fin 3, ∑ kh : Fin 3, ∑ kw : Fin 3, ∑ ci : Fin 128, term x w (i 0) (i 1) (i 2) (i 3) (i 4) kt kh kw ci) + b (ix1 (i 1))

/-- The 27 taps `d kt kh kw` added one by one to a zero accumulator, time tap outermost, then kw, then kh innermost. -/
def kfold (d : Fin 3 → Fin 3 → Fin 3 → EReal) : EReal :=
  0 + d 0 0 0 + d 0 1 0 + d 0 2 0 + d 0 0 1 + d 0 1 1 + d 0 2 1 + d 0 0 2 + d 0 1 2 + d 0 2 2 + d 1 0 0 + d 1 1 0 + d 1 2 0 + d 1 0 1 + d 1 1 1 + d 1 2 1 + d 1 0 2 + d 1 1 2 + d 1 2 2 + d 2 0 0 + d 2 1 0 + d 2 2 0 + d 2 0 1 + d 2 1 1 + d 2 2 1 + d 2 0 2 + d 2 1 2 + d 2 2 2

/-- The 9 fused taps `D kt kh` added one by one to a zero accumulator, time tap outermost. -/
def rfold (D : Fin 3 → Fin 3 → EReal) : EReal :=
  0 + D 0 0 + D 0 1 + D 0 2 + D 1 0 + D 1 1 + D 1 2 + D 2 0 + D 2 1 + D 2 2

theorem kfold_eq (d : Fin 3 → Fin 3 → Fin 3 → EReal) : kfold d = ∑ kt : Fin 3, ∑ kh : Fin 3, ∑ kw : Fin 3, d kt kh kw := by
  unfold kfold
  simp only [Fin.sum_univ_three, zero_add]
  abel

theorem rfold_eq (D : Fin 3 → Fin 3 → EReal) : rfold D = ∑ kt : Fin 3, ∑ kh : Fin 3, D kt kh := by
  unfold rfold
  simp only [Fin.sum_univ_three, zero_add]
  abel

/-- A sum over the 384 fused (kw, ci) columns is the double sum over kw and ci, column `kw * 128 + ci`. -/
theorem sum_fused (f : Fin 384 → EReal) :
    ∑ j : Fin 384, f j = ∑ kw : Fin 3, ∑ ci : Fin 128, f ⟨kw.val * 128 + ci.val, by have := kw.isLt; have := ci.isLt; omega⟩ := by
  -- the pairs (kw, ci) number the 384 columns as ci + 128 * kw
  calc ∑ j : Fin 384, f j
      = ∑ p : Fin 3 × Fin 128, f (finProdFinEquiv p) := (Equiv.sum_comp (finProdFinEquiv (m := 3) (n := 128)) f).symm
    _ = ∑ kw : Fin 3, ∑ ci : Fin 128, f (finProdFinEquiv (kw, ci)) := Fintype.sum_prod_type _
    _ = _ := Finset.sum_congr rfl fun kw _ => Finset.sum_congr rfl fun ci _ =>
        congrArg f (Fin.ext (by rw [finProdFinEquiv_apply_val]; dsimp only; omega))

end Cert.ConvSpec

end
-- ==== Proof.KIArr.lean ====
/-
  From the pipeline's account of the output array to the body's stored value: the result buffer at
  (n, co, t, ho, wo) is what grid point (n, t) stored at (ho, wo, co) of its output block, a function of the blocks that
  point read; and those blocks are the frames max(2t + kt - 2, 0) of clip n, all the tap matrices, and the bias row.
-/
import proofs.«108319_g2000506355603382_pallasbulk_1083_2_alg».proof.Proof.KILaunch
import proofs.«108319_g2000506355603382_pallasbulk_1083_2_alg».proof.Proof.ConvSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The grid point of clip `n` and output frame `t` (the grid is 2 x 8, row-major). -/
def pt (n : Fin 2) (t : Fin 8) : Fin cfg0.N := ⟨n.val * 8 + t.val, by rw [show cfg0.N = 16 from N_0]; have := n.isLt; have := t.isLt; omega⟩

/-! ## The host transpose after the region -/

/-- The result buffer is the transpose, by the permutation (0, 4, 1, 2, 3), of the region's output array. -/
theorem result_eq_transpose (c : Dev nD) :
    StableHlo.after hostOps1 (Wexit m c) (Proc.devRef .tc main_v8)
      = transpose S2x128x8x32x32 [0, 4, 1, 2, 3] (Wexit m c (Proc.devRef .tc main_v7)) transposes_S2x8x32x32x128_S2x128x8x32x32_0_4_1_2_3 := by
  show StableHlo.after hostOps1 _ (Proc.devRef .tc main_v8) = _
  after_results

/-- So the result buffer at (n, co, t, ho, wo) is the output array at (n, t, ho, wo, co): channels move from last to second. -/
theorem result_at_array (c : Dev nD) (n : Fin 2) (co : Fin 128) (t : Fin 8) (ho wo : Fin 32) :
    StableHlo.after hostOps1 (Wexit m c) (Proc.devRef .tc main_v8) (ix5 n co t ho wo)
      = (dats m 0 c).arrAt 5 cfg0.N (ix5 n t ho wo co) := by
  rw [result_eq_transpose, Wexit_out]
  exact transpose_apply _ _ _ _ _ fun b => match b with | ⟨0, _⟩ => rfl | ⟨1, _⟩ => rfl | ⟨2, _⟩ => rfl | ⟨3, _⟩ => rfl | ⟨4, _⟩ => rfl

/-! ## The output array, block by block -/

theorem zero_offsets5 : (![0, 0, 0, 0, 0] : Fin 5 → Nat) = fun _ => 0 := funext fun a => by fin_cases a <;> rfl

/-- What a grid point stores into its output block: the body's value of the five blocks the point read. -/
def stored (c : Dev nD) (p : Fin cfg0.N) : Vec Ideal S1x1x32x32x128 .f32 :=
  kout (F := Ideal) (iblk m c 0 p) (iblk m c 1 p) (iblk m c 2 p) (iblk m c 3 p) (iblk m c 4 p)

/-- The output array as one function of its index: at (n, t, ho, wo, co), what point (n, t) stored at (ho, wo, co). -/
def outArr (c : Dev nD) : S2x8x32x32x128.Idx → Elt Ideal .f32 := fun i =>
  stored m c (pt (i 0) (i 1)) (ix5 0 0 (i 2) (i 3) (i 4))

/-- The output's index map over the grid: point p writes block (p / 8, p % 8, 0, 0, 0). -/
theorem out_index : ∀ p : Fin cfg0.N, win0_5.index p 0 = p.val / 8 ∧ win0_5.index p 1 = p.val % 8
    ∧ win0_5.index p 2 = 0 ∧ win0_5.index p 3 = 0 ∧ win0_5.index p 4 = 0 :=
  (by decide +kernel : ∀ p : Fin grid0.N, _)

/-- What point p writes back is its block of `outArr`: the block's element (0, 0, ho, wo, co) sits in the array at
    (p / 8, p % 8, ho, wo, co), whose grid point is p itself. -/
theorem flushed_eq (c : Dev nD) (p : Fin cfg0.N) :
    (dats m 0 c).flushed 5 p = ((cfg0.win 5).blk p).view.read (Elt Ideal) (outArr m c) := by
  show (cfg0.win 5).cut (grid0.coords p) ((dats m 0 c).after 5 p) = _
  rw [after5]
  unfold out5
  rw [View.canon_unit_zero zero_offsets5]
  obtain ⟨e0, e1, e2, e3, e4⟩ := out_index p
  have hN : p.val < 16 := lt_of_lt_of_eq p.isLt N_0
  funext y
  show stored m c p (fun a => ⟨(y a).val, _⟩) = outArr m c (((cfg0.win 5).blk p).view.emb y)
  unfold outArr
  have y0 : (y 0).val = 0 := by have : (y 0).val < 1 := (y 0).isLt; omega
  have y1 : (y 1).val = 0 := by have : (y 1).val < 1 := (y 1).isLt; omega
  have hpt : pt ((((cfg0.win 5).blk p).view.emb y) 0) ((((cfg0.win 5).blk p).view.emb y) 1) = p := by
    apply Fin.ext
    show (win0_5.index p 0 * 1 + 1 * (y 0).val) * 8 + (win0_5.index p 1 * 1 + 1 * (y 1).val) = p.val
    rw [e0, e1, y0, y1]; omega
  rw [hpt]
  congr 1
  funext a; apply Fin.ext
  match a with
  | ⟨0, _⟩ => exact y0
  | ⟨1, _⟩ => exact y1
  | ⟨2, _⟩ => show (y 2).val = win0_5.index p 2 * 32 + 1 * (y 2).val; rw [e2]; omega
  | ⟨3, _⟩ => show (y 3).val = win0_5.index p 3 * 32 + 1 * (y 3).val; rw [e3]; omega
  | ⟨4, _⟩ => show (y 4).val = win0_5.index p 4 * 128 + 1 * (y 4).val; rw [e4]; omega

/-- Every index (n, t, ho, wo, co) of the output array lies in the block point (n, t) writes back. -/
theorem covered (i : S2x8x32x32x128.Idx) :
    ∃ p : Fin cfg0.N, (cfg0.win 5).flush p = true ∧ i ∈ ((cfg0.win 5).blk p).view.set := by
  have h0 : (i 0).val < 2 := (i 0).isLt
  have h1 : (i 1).val < 8 := (i 1).isLt
  have h2 : (i 2).val < 32 := (i 2).isLt
  have h3 : (i 3).val < 32 := (i 3).isLt
  have h4 : (i 4).val < 128 := (i 4).isLt
  refine ⟨pt (i 0) (i 1), flush0_5 _, ?_⟩
  obtain ⟨e0, e1, e2, e3, e4⟩ := out_index (pt (i 0) (i 1))
  have hp : (pt (i 0) (i 1)).val = (i 0).val * 8 + (i 1).val := rfl
  show i ∈ ((View.whole main_v7).slice (win0_5.rect (pt (i 0) (i 1)))).set
  rw [View.set_slice_whole, Rect.mem_set_unit]
  intro a
  match a with
  | ⟨0, _⟩ => show win0_5.index (pt (i 0) (i 1)) 0 * 1 ≤ (i 0).val ∧ (i 0).val < win0_5.index (pt (i 0) (i 1)) 0 * 1 + 1; rw [e0, hp]; omega
  | ⟨1, _⟩ => show win0_5.index (pt (i 0) (i 1)) 1 * 1 ≤ (i 1).val ∧ (i 1).val < win0_5.index (pt (i 0) (i 1)) 1 * 1 + 1; rw [e1, hp]; omega
  | ⟨2, _⟩ => show win0_5.index (pt (i 0) (i 1)) 2 * 32 ≤ (i 2).val ∧ (i 2).val < win0_5.index (pt (i 0) (i 1)) 2 * 32 + 32; rw [e2]; omega
  | ⟨3, _⟩ => show win0_5.index (pt (i 0) (i 1)) 3 * 32 ≤ (i 3).val ∧ (i 3).val < win0_5.index (pt (i 0) (i 1)) 3 * 32 + 32; rw [e3]; omega
  | ⟨4, _⟩ => show win0_5.index (pt (i 0) (i 1)) 4 * 128 ≤ (i 4).val ∧ (i 4).val < win0_5.index (pt (i 0) (i 1)) 4 * 128 + 128; rw [e4]; omega

/-- The output array after the run is `outArr`: the sixteen blocks tile it, and each point wrote its block of it. -/
theorem out_final (c : Dev nD) : (dats m 0 c).arrAt 5 cfg0.N = outArr m c :=
  (dats m 0 c).arrAt_eq_of_cover 5 (outArr m c) (fun p _ => flushed_eq m c p) covered

/-- The result buffer at an index is the stored value of that index's grid point at the block position. -/
theorem result_at (c : Dev nD) (n : Fin 2) (co : Fin 128) (t : Fin 8) (ho wo : Fin 32) :
    StableHlo.after hostOps1 (Wexit m c) (Proc.devRef .tc main_v8) (ix5 n co t ho wo)
      = kout (F := Ideal) (iblk m c 0 (pt n t)) (iblk m c 1 (pt n t)) (iblk m c 2 (pt n t)) (iblk m c 3 (pt n t)) (iblk m c 4 (pt n t))
          (ix5 0 0 ho wo co) := by
  rw [result_at_array, out_final]
  rfl

/-! ## The blocks a point reads -/

/-- The frame windows' index maps over the grid: window kt's block index at point p is
    (p / 8, max(2 (p % 8) + kt - 2, 0), 0, 0, 0), the subtraction truncated. -/
theorem frame_index0 : ∀ p : Fin cfg0.N, win0_0.index p 0 = p.val / 8 ∧ win0_0.index p 1 = 2 * (p.val % 8) + 0 - 2
    ∧ win0_0.index p 2 = 0 ∧ win0_0.index p 3 = 0 ∧ win0_0.index p 4 = 0 :=
  (by decide +kernel : ∀ p : Fin grid0.N, _)
theorem frame_index1 : ∀ p : Fin cfg0.N, win0_1.index p 0 = p.val / 8 ∧ win0_1.index p 1 = 2 * (p.val % 8) + 1 - 2
    ∧ win0_1.index p 2 = 0 ∧ win0_1.index p 3 = 0 ∧ win0_1.index p 4 = 0 :=
  (by decide +kernel : ∀ p : Fin grid0.N, _)
theorem frame_index2 : ∀ p : Fin cfg0.N, win0_2.index p 0 = p.val / 8 ∧ win0_2.index p 1 = 2 * (p.val % 8) + 2 - 2
    ∧ win0_2.index p 2 = 0 ∧ win0_2.index p 3 = 0 ∧ win0_2.index p 4 = 0 :=
  (by decide +kernel : ∀ p : Fin grid0.N, _)
/-- The tap matrices' and the bias's index maps are zero at every point. -/
theorem taps_index : ∀ p : Fin cfg0.N, win0_3.index p 0 = 0 ∧ win0_3.index p 1 = 0 ∧ win0_3.index p 2 = 0 :=
  (by decide +kernel : ∀ p : Fin grid0.N, _)
theorem bias_index : ∀ p : Fin cfg0.N, win0_4.index p 0 = 0 ∧ win0_4.index p 1 = 0 :=
  (by decide +kernel : ∀ p : Fin grid0.N, _)

/-- Window `kt`'s block at point (n, t) is frame max(2t + kt - 2, 0) of clip n of the fused-lane activations. -/
theorem iblk_frame0 (c : Dev nD) (n : Fin 2) (t : Fin 8) (h : Fin 64) (j : Fin 32) (l : Fin 256) :
    iblk m c 0 (pt n t) (ix5 0 0 h j l) = V m c main_v2 (ix5 n (Cert.ConvSpec.tin t 0) h j l) := by
  obtain ⟨e0, e1, e2, e3, e4⟩ := frame_index0 (pt n t)
  have hp : (pt n t).val = n.val * 8 + t.val := rfl
  have hn := n.isLt; have ht := t.isLt
  unfold iblk
  rw [View.read_apply]
  show V m c main_v2 _ = V m c main_v2 _
  congr 1
  funext a; apply Fin.ext
  match a with
  | ⟨0, _⟩ => show win0_0.index (pt n t) 0 * 1 + 1 * 0 = n.val; rw [e0, hp]; omega
  | ⟨1, _⟩ => show win0_0.index (pt n t) 1 * 1 + 1 * 0 = 2 * t.val + 0 - 2; rw [e1, hp]; omega
  | ⟨2, _⟩ => show win0_0.index (pt n t) 2 * 64 + 1 * h.val = h.val; rw [e2]; omega
  | ⟨3, _⟩ => show win0_0.index (pt n t) 3 * 32 + 1 * j.val = j.val; rw [e3]; omega
  | ⟨4, _⟩ => show win0_0.index (pt n t) 4 * 256 + 1 * l.val = l.val; rw [e4]; omega
theorem iblk_frame1 (c : Dev nD) (n : Fin 2) (t : Fin 8) (h : Fin 64) (j : Fin 32) (l : Fin 256) :
    iblk m c 1 (pt n t) (ix5 0 0 h j l) = V m c main_v2 (ix5 n (Cert.ConvSpec.tin t 1) h j l) := by
  obtain ⟨e0, e1, e2, e3, e4⟩ := frame_index1 (pt n t)
  have hp : (pt n t).val = n.val * 8 + t.val := rfl
  have hn := n.isLt; have ht := t.isLt
  unfold iblk
  rw [View.read_apply]
  show V m c main_v2 _ = V m c main_v2 _
  congr 1
  funext a; apply Fin.ext
  match a with
  | ⟨0, _⟩ => show win0_1.index (pt n t) 0 * 1 + 1 * 0 = n.val; rw [e0, hp]; omega
  | ⟨1, _⟩ => show win0_1.index (pt n t) 1 * 1 + 1 * 0 = 2 * t.val + 1 - 2; rw [e1, hp]; omega
  | ⟨2, _⟩ => show win0_1.index (pt n t) 2 * 64 + 1 * h.val = h.val; rw [e2]; omega
  | ⟨3, _⟩ => show win0_1.index (pt n t) 3 * 32 + 1 * j.val = j.val; rw [e3]; omega
  | ⟨4, _⟩ => show win0_1.index (pt n t) 4 * 256 + 1 * l.val = l.val; rw [e4]; omega
theorem iblk_frame2 (c : Dev nD) (n : Fin 2) (t : Fin 8) (h : Fin 64) (j : Fin 32) (l : Fin 256) :
    iblk m c 2 (pt n t) (ix5 0 0 h j l) = V m c main_v2 (ix5 n (Cert.ConvSpec.tin t 2) h j l) := by
  obtain ⟨e0, e1, e2, e3, e4⟩ := frame_index2 (pt n t)
  have hp : (pt n t).val = n.val * 8 + t.val := rfl
  have hn := n.isLt; have ht := t.isLt
  unfold iblk
  rw [View.read_apply]
  show V m c main_v2 _ = V m c main_v2 _
  congr 1
  funext a; apply Fin.ext
  match a with
  | ⟨0, _⟩ => show win0_2.index (pt n t) 0 * 1 + 1 * 0 = n.val; rw [e0, hp]; omega
  | ⟨1, _⟩ => show win0_2.index (pt n t) 1 * 1 + 1 * 0 = 2 * t.val + 2 - 2; rw [e1, hp]; omega
  | ⟨2, _⟩ => show win0_2.index (pt n t) 2 * 64 + 1 * h.val = h.val; rw [e2]; omega
  | ⟨3, _⟩ => show win0_2.index (pt n t) 3 * 32 + 1 * j.val = j.val; rw [e3]; omega
  | ⟨4, _⟩ => show win0_2.index (pt n t) 4 * 256 + 1 * l.val = l.val; rw [e4]; omega
/-- The tap matrices' and the bias's windows are their whole arrays at every point. -/
theorem iblk_w (c : Dev nD) (n : Fin 2) (t : Fin 8) (k : Fin 27) (ci co : Fin 128) :
    iblk m c 3 (pt n t) (ix3 k ci co) = V m c main_v5 (ix3 k ci co) := by
  obtain ⟨e0, e1, e2⟩ := taps_index (pt n t)
  unfold iblk
  rw [View.read_apply]
  show V m c main_v5 _ = V m c main_v5 _
  congr 1
  funext a; apply Fin.ext
  match a with
  | ⟨0, _⟩ => show win0_3.index (pt n t) 0 * 27 + 1 * k.val = k.val; rw [e0]; omega
  | ⟨1, _⟩ => show win0_3.index (pt n t) 1 * 128 + 1 * ci.val = ci.val; rw [e1]; omega
  | ⟨2, _⟩ => show win0_3.index (pt n t) 2 * 128 + 1 * co.val = co.val; rw [e2]; omega
theorem iblk_b (c : Dev nD) (n : Fin 2) (t : Fin 8) (co : Fin 128) :
    iblk m c 4 (pt n t) (ix2 0 co) = V m c main_v6 (ix2 0 co) := by
  obtain ⟨e0, e1⟩ := bias_index (pt n t)
  unfold iblk
  rw [View.read_apply]
  show V m c main_v6 _ = V m c main_v6 _
  congr 1
  funext a; apply Fin.ext
  match a with
  | ⟨0, _⟩ => show win0_4.index (pt n t) 0 * 1 + 1 * 0 = 0; rw [e0]
  | ⟨1, _⟩ => show win0_4.index (pt n t) 1 * 128 + 1 * co.val = co.val; rw [e1]; omega

end Cert.KernelIdeal.Hand

end
-- ==== Proof.KIPay.lean ====
/-
  The kernel body's stored value read at one output position, at the exact extended reals. A frame block holds a
  64 x 64 picture of 128 channels with each pair of neighbouring columns fused in the lanes: column w of the picture is
  block column w / 2, lanes (w % 2) * 128 + ci. The body's shifted patches are reads of that picture at the padded
  position (2 ho + kh, 2 wo + kw), zero on the border, and each tap contributes the sum over the input channels of the
  patch times its tap matrix; the 27 contributions are added to a zero accumulator in the body's order, then the bias.
-/
import proofs.«108319_g2000506355603382_pallasbulk_1083_2_alg».proof.Proof.KIBody
import proofs.«108319_g2000506355603382_pallasbulk_1083_2_alg».proof.Proof.ConvSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- A frame block (column pairs fused in lanes) read at PADDED spatial coordinates `hp, wp` in [0, 66) and channel `ci`:
    the picture's (hp - 1, wp - 1), zero on the border. -/
def fr (x : Vec Ideal S1x1x64x32x256 .bf16) (hp wp : ℕ) (ci : Fin 128) : EReal :=
  if h : 1 ≤ hp ∧ hp ≤ 64 ∧ 1 ≤ wp ∧ wp ≤ 64 then
    x (ix5 0 0 ⟨hp - 1, by omega⟩ ⟨(wp - 1) / 2, by omega⟩ ⟨((wp - 1) % 2) * 128 + ci.val, by have := ci.isLt; omega⟩)
  else 0

/-- The frame block of time tap `kt`. -/
def sel {α : Type} (kt : Fin 3) (x0 x1 x2 : α) : α := match kt with | ⟨0, _⟩ => x0 | ⟨1, _⟩ => x1 | ⟨2, _⟩ => x2

section Layout
variable {α : Type}

/-- A 64-row array cast to 32 pairs of rows: pair `ho`, member `p` is row `2 ho + p`. -/
theorem rows_apply (g : S64x32x128.Idx → α) (h : S64x32x128.ShapeCasts S32x2x32x128)
    (ho : Fin 32) (p : Fin 2) (wo : Fin 32) (ci : Fin 128) :
    shapeCast S32x2x32x128 g h (ix4 ho p wo ci) = g (ix3 ⟨2 * ho.val + p.val, by omega⟩ wo ci) :=
  shapeCast_apply g h _ _ (by
    rw [Shape.rowMajor_val_three, Shape.rowMajor_val_four]
    show ((2 * ho.val + p.val) * 32 + wo.val) * 128 + ci.val = ((ho.val * 2 + p.val) * 32 + wo.val) * 128 + ci.val
    omega)

/-- Member `p` of every pair of rows, as a 32-row array. -/
theorem member_apply (G : S32x2x32x128.Idx → α) (p : Nat) (hs : S32x2x32x128.Slices ![0, p, 0, 0] S32x1x32x128)
    (hc : S32x1x32x128.ShapeCasts S32x32x128) (ho : Fin 32) (wo : Fin 32) (ci : Fin 128) (k : Fin 2) (hk : k.val = p) :
    shapeCast S32x32x128 (extractStridedSlice S32x1x32x128 ![0, p, 0, 0] G hs) hc (ix3 ho wo ci) = G (ix4 ho k wo ci) := by
  refine (shapeCast_apply _ hc (ix3 ho wo ci) (ix4 ho (0 : Fin 1) wo ci) (by
    rw [Shape.rowMajor_val_three, Shape.rowMajor_val_four]
    show ((ho.val * 1 + 0) * 32 + wo.val) * 128 + ci.val = (ho.val * 32 + wo.val) * 128 + ci.val
    omega)).trans ?_
  exact slice4_axis1_apply p G hs ho (0 : Fin 1) wo ci k (by rw [hk]; rfl)

/-- A 32 x 32 x 128 array cast to 1024 rows: row `ho * 32 + wo`. -/
theorem flat_apply (T : S32x32x128.Idx → α) (h : S32x32x128.ShapeCasts S1024x128)
    (ho : Fin 32) (wo : Fin 32) (ci : Fin 128) :
    shapeCast S1024x128 T h (ix2 (⟨ho.val * 32 + wo.val, by omega⟩ : Fin 1024) ci) = T (ix3 ho wo ci) :=
  shapeCast_apply T h _ _ (by
    rw [Shape.rowMajor_val_three, Shape.rowMajor_val_two]
    show (ho.val * 32 + wo.val) * 128 + ci.val = (ho.val * 32 + wo.val) * 128 + ci.val
    rfl)

end Layout

section Layout2
variable {α : Type}

/-- A zero-offset cut of the first 31 rows reads the same coordinates. -/
theorem head31_apply (T : S32x32x128.Idx → α) (hs : S32x32x128.Slices ![0, 0, 0] S31x32x128)
    (q : Fin 31) (wo : Fin 32) (ci : Fin 128) (k : Fin 32) (hk : k.val = q.val) :
    extractStridedSlice S31x32x128 ![0, 0, 0] T hs (ix3 q wo ci) = T (ix3 k wo ci) :=
  extractStridedSlice_apply _ _ _ _ _ (fun ax => by
    match ax with
    | ⟨0, _⟩ => exact hk.trans (Nat.zero_add _).symm
    | ⟨1, _⟩ => exact (Nat.zero_add _).symm
    | ⟨2, _⟩ => exact (Nat.zero_add _).symm)

/-- One row `z` in front of the first 31 rows of `T`: row 0 is `z`, row `ho > 0` is row `ho - 1` of `T`. -/
theorem shiftRow_zero (z : S1x32x128.Idx → α) (T : S32x32x128.Idx → α) (hs : S32x32x128.Slices ![0, 0, 0] S31x32x128)
    (hc : Shape.Concatenates [S1x32x128, S31x32x128] S32x32x128 0) (ho : Fin 32) (wo : Fin 32) (ci : Fin 128) (h0 : ho.val = 0) :
    concatenate S32x32x128 0 [⟨S1x32x128, z⟩, ⟨S31x32x128, extractStridedSlice S31x32x128 ![0, 0, 0] T hs⟩] hc (ix3 ho wo ci)
      = z (ix3 (0 : Fin 1) wo ci) :=
  concatenate_pair_apply_left (t := S32x32x128) (s₁ := S1x32x128) (s₂ := S31x32x128) 0 z _ hc (ix3 ho wo ci) rfl (ix3 (0 : Fin 1) wo ci)
    (fun b => by
      match b with
      | ⟨0, _⟩ => exact h0.symm
      | ⟨1, _⟩ => rfl
      | ⟨2, _⟩ => rfl)

theorem shiftRow_succ (z : S1x32x128.Idx → α) (T : S32x32x128.Idx → α) (hs : S32x32x128.Slices ![0, 0, 0] S31x32x128)
    (hc : Shape.Concatenates [S1x32x128, S31x32x128] S32x32x128 0) (ho : Fin 32) (wo : Fin 32) (ci : Fin 128) (k : Fin 32)
    (hk : k.val + 1 = ho.val) :
    concatenate S32x32x128 0 [⟨S1x32x128, z⟩, ⟨S31x32x128, extractStridedSlice S31x32x128 ![0, 0, 0] T hs⟩] hc (ix3 ho wo ci)
      = T (ix3 k wo ci) := by
  refine (concatenate_pair_apply_right (t := S32x32x128) (s₁ := S1x32x128) (s₂ := S31x32x128) 0 z _ hc (ix3 ho wo ci) rfl rfl
    (ix3 (⟨k.val, by have := ho.isLt; omega⟩ : Fin 31) wo ci)
    (fun b hb => by
      match b with
      | ⟨0, _⟩ => exact absurd rfl hb
      | ⟨1, _⟩ => rfl
      | ⟨2, _⟩ => rfl)
    (by show k.val + 1 = ho.val; exact hk)).trans ?_
  exact head31_apply T hs _ wo ci k rfl

/-- A zero-offset cut of the first 31 columns reads the same coordinates. -/
theorem headCol31_apply (g : S64x32x128.Idx → α) (hs : S64x32x128.Slices ![0, 0, 0] S64x31x128)
    (h : Fin 64) (q : Fin 31) (ci : Fin 128) (k : Fin 32) (hk : k.val = q.val) :
    extractStridedSlice S64x31x128 ![0, 0, 0] g hs (ix3 h q ci) = g (ix3 h k ci) :=
  slice3_axis1_apply 0 g hs h q ci k (hk.trans (Nat.zero_add _).symm)

/-- One column `z` in front of the first 31 columns of `g`. -/
theorem shiftCol_zero (z : S64x1x128.Idx → α) (g : S64x32x128.Idx → α) (hs : S64x32x128.Slices ![0, 0, 0] S64x31x128)
    (hc : Shape.Concatenates [S64x1x128, S64x31x128] S64x32x128 1) (h : Fin 64) (wc : Fin 32) (ci : Fin 128) (h0 : wc.val = 0) :
    concatenate S64x32x128 1 [⟨S64x1x128, z⟩, ⟨S64x31x128, extractStridedSlice S64x31x128 ![0, 0, 0] g hs⟩] hc (ix3 h wc ci)
      = z (ix3 h (0 : Fin 1) ci) :=
  concatenate_pair_apply_left (t := S64x32x128) (s₁ := S64x1x128) (s₂ := S64x31x128) 1 z _ hc (ix3 h wc ci) rfl (ix3 h (0 : Fin 1) ci)
    (fun b => by
      match b with
      | ⟨0, _⟩ => rfl
      | ⟨1, _⟩ => exact h0.symm
      | ⟨2, _⟩ => rfl)

theorem shiftCol_succ (z : S64x1x128.Idx → α) (g : S64x32x128.Idx → α) (hs : S64x32x128.Slices ![0, 0, 0] S64x31x128)
    (hc : Shape.Concatenates [S64x1x128, S64x31x128] S64x32x128 1) (h : Fin 64) (wc : Fin 32) (ci : Fin 128) (k : Fin 32)
    (hk : k.val + 1 = wc.val) :
    concatenate S64x32x128 1 [⟨S64x1x128, z⟩, ⟨S64x31x128, extractStridedSlice S64x31x128 ![0, 0, 0] g hs⟩] hc (ix3 h wc ci)
      = g (ix3 h k ci) := by
  refine (concatenate_pair_apply_right (t := S64x32x128) (s₁ := S64x1x128) (s₂ := S64x31x128) 1 z _ hc (ix3 h wc ci) rfl rfl
    (ix3 h (⟨k.val, by have := wc.isLt; omega⟩ : Fin 31) ci)
    (fun b hb => by
      match b with
      | ⟨0, _⟩ => rfl
      | ⟨1, _⟩ => exact absurd rfl hb
      | ⟨2, _⟩ => rfl)
    (by show k.val + 1 = wc.val; exact hk)).trans ?_
  exact headCol31_apply g hs h _ ci k rfl

/-- The block with its two unit axes dropped. -/
theorem drop2_apply (x : S1x1x64x32x256.Idx → α) (hc : S1x1x64x32x256.ShapeCasts S64x32x256)
    (h : Fin 64) (wc : Fin 32) (l : Fin 256) :
    shapeCast S64x32x256 x hc (ix3 h wc l) = x (ix5 (0 : Fin 1) (0 : Fin 1) h wc l) :=
  shapeCast_apply x hc _ _ (by
    rw [Shape.rowMajor_val_five, Shape.rowMajor_val_three]
    show (((0 * 1 + 0) * 64 + h.val) * 32 + wc.val) * 256 + l.val = (h.val * 32 + wc.val) * 256 + l.val
    omega)

/-- A cut of 128 lanes from lane `o`. -/
theorem lanes_apply (X : S64x32x256.Idx → α) (o : Nat) (hs : S64x32x256.Slices ![0, 0, o] S64x32x128)
    (h : Fin 64) (wc : Fin 32) (ci : Fin 128) (l : Fin 256) (hl : l.val = o + ci.val) :
    extractStridedSlice S64x32x128 ![0, 0, o] X hs (ix3 h wc ci) = X (ix3 h wc l) :=
  extractStridedSlice_apply _ _ _ _ _ (fun ax => by
    match ax with
    | ⟨0, _⟩ => exact (Nat.zero_add _).symm
    | ⟨1, _⟩ => exact (Nat.zero_add _).symm
    | ⟨2, _⟩ => exact hl)

end Layout2

/-! ## The body's operands, named -/

abbrev D0 : DotDims S1024x128 S128x128 S1024x128 := dot_S1024x128_S128x128_S1024x128_1_0_0_1_n_n

/-- The zero row and column the body puts in front of a shifted patch. -/
def zrow : FVec Ideal S1x32x128 .bf16 := broadcast S1x32x128 (Scalar.ofBits .bf16 0x0000#16)
def zcol : FVec Ideal S64x1x128 .bf16 := broadcast S64x1x128 (Scalar.ofBits .bf16 0x0000#16)

/-- The even columns of a frame block (lanes 0 to 127). -/
def gE (x : Vec Ideal S1x1x64x32x256 .bf16) : FVec Ideal S64x32x128 .bf16 :=
  extractStridedSlice S64x32x128 ![0, 0, 0] (k0_pay2 x) slices_S64x32x256_o0_0_0_S64x32x128
/-- The odd columns (lanes 128 to 255). -/
def gO (x : Vec Ideal S1x1x64x32x256 .bf16) : FVec Ideal S64x32x128 .bf16 := k0_pay3 x
/-- The odd columns moved one block column to the right, a zero column in front. -/
def gS (x : Vec Ideal S1x1x64x32x256 .bf16) : FVec Ideal S64x32x128 .bf16 :=
  concatenate S64x32x128 1 [⟨S64x1x128, zcol⟩,
    ⟨S64x31x128, extractStridedSlice S64x31x128 ![0, 0, 0] (k0_pay3 x) slices_S64x32x128_o0_0_0_S64x31x128⟩]
    concatenates_S64x1x128_S64x31x128_S64x32x128_d1

/-- The even rows of a column tap. -/
def tE (g : FVec Ideal S64x32x128 .bf16) : FVec Ideal S32x32x128 .bf16 :=
  shapeCast S32x32x128 (extractStridedSlice S32x1x32x128 ![0, 0, 0, 0] (shapeCast S32x2x32x128 g shapeCasts_S64x32x128_S32x2x32x128)
    slices_S32x2x32x128_o0_0_0_0_S32x1x32x128) shapeCasts_S32x1x32x128_S32x32x128
/-- The odd rows. -/
def tO (g : FVec Ideal S64x32x128 .bf16) : FVec Ideal S32x32x128 .bf16 :=
  shapeCast S32x32x128 (extractStridedSlice S32x1x32x128 ![0, 1, 0, 0] (shapeCast S32x2x32x128 g shapeCasts_S64x32x128_S32x2x32x128)
    slices_S32x2x32x128_o0_1_0_0_S32x1x32x128) shapeCasts_S32x1x32x128_S32x32x128
/-- A row tap moved one row down, the row `z` in front. -/
def tS (z : FVec Ideal S1x32x128 .bf16) (T : FVec Ideal S32x32x128 .bf16) : FVec Ideal S32x32x128 .bf16 :=
  concatenate S32x32x128 0 [⟨S1x32x128, z⟩,
    ⟨S31x32x128, extractStridedSlice S31x32x128 ![0, 0, 0] T slices_S32x32x128_o0_0_0_S31x32x128⟩]
    concatenates_S1x32x128_S31x32x128_S32x32x128_d0
/-- A patch as the product's left operand. -/
def flat (T : FVec Ideal S32x32x128 .bf16) : FVec Ideal S1024x128 .bf16 := shapeCast S1024x128 T shapeCasts_S32x32x128_S1024x128
/-- One tap's product into a zero accumulator. -/
def mm (L : FVec Ideal S1024x128 .bf16) (W : FVec Ideal S1x128x128 .bf16) : FVec Ideal S1024x128 .f32 :=
  matmul dot_S1024x128_S128x128_S1024x128_1_0_0_1_n_n none L (shapeCast S128x128 W shapeCasts_S1x128x128_S128x128 : FVec Ideal S128x128 .bf16)
    (constant (F := Ideal) S1024x128 .f32 0x00000000#32)

theorem zb_eq : (Scalar.ofBits .bf16 0x0000#16 : Ideal .bf16) = 0 := IdealRules.sign_bit.ideal_zero .bf16

/-! ## The product at an index -/

theorem lhs_0 (j : S1024x128.Idx) (k : D0.contr.Idx) : (D0.lhsIdx j k 0).val = (j 0).val := by
  unfold DotDims.lhsIdx
  rw [dif_neg (show ¬ (0 : Fin S1024x128.rank) ∈ D0.lhsBatch by decide),
    dif_pos (show (0 : Fin S1024x128.rank) ∈ D0.lhsNonContracting by decide)]
  rfl
theorem lhs_1 (j : S1024x128.Idx) (k : D0.contr.Idx) : (D0.lhsIdx j k 1).val = (k ⟨0, by decide⟩).val :=
  D0.lhsIdx_val_of_single rfl j k
theorem rhs_0 (j : S1024x128.Idx) (k : D0.contr.Idx) : (D0.rhsIdx j k 0).val = (k ⟨0, by decide⟩).val :=
  D0.rhsIdx_val_of_single rfl j k
theorem rhs_1 (j : S1024x128.Idx) (k : D0.contr.Idx) : (D0.rhsIdx j k 1).val = (j 1).val := by
  unfold DotDims.rhsIdx
  rw [dif_neg (show ¬ (1 : Fin S128x128.rank) ∈ D0.rhsBatch by decide),
    dif_pos (show (1 : Fin S128x128.rank) ∈ D0.rhsNonContracting by decide)]
  rfl

theorem mm_apply (L : FVec Ideal S1024x128 .bf16) (W : FVec Ideal S1x128x128 .bf16) (r : Fin 1024) (co : Fin 128) :
    mm L W (ix2 r co) = ∑ ci : Fin 128, L (ix2 r ci) * W (ix3 (0 : Fin 1) ci co) := by
  unfold mm
  refine (Ideal.matmul_constant_zero_apply D0 none L _ (ix2 r co)).trans ?_
  rw [← Equiv.sum_comp (contrEquiv1 D0 128 rfl rfl).symm]
  refine Finset.sum_congr rfl fun ci _ => ?_
  have hl : D0.lhsIdx (ix2 r co) ((contrEquiv1 D0 128 rfl rfl).symm ci) = ix2 r ci := by
    funext a; refine Fin.ext ?_
    match a with
    | ⟨0, _⟩ => exact lhs_0 _ _
    | ⟨1, _⟩ => exact (lhs_1 _ _).trans (contrEquiv1_symm_val D0 128 rfl rfl ci)
  have hr : D0.rhsIdx (ix2 r co) ((contrEquiv1 D0 128 rfl rfl).symm ci) = ix2 ci co := by
    funext a; refine Fin.ext ?_
    match a with
    | ⟨0, _⟩ => exact (rhs_0 _ _).trans (contrEquiv1_symm_val D0 128 rfl rfl ci)
    | ⟨1, _⟩ => exact rhs_1 _ _
  rw [hl, hr]
  exact congrArg (L (ix2 r ci) * ·) (shapeCast_1ab_ab_apply W _ ci co)

/-! ## The column taps at an index -/

theorem gE_apply (x : Vec Ideal S1x1x64x32x256 .bf16) (h : Fin 64) (wc : Fin 32) (ci : Fin 128) :
    gE x (ix3 h wc ci) = x (ix5 (0 : Fin 1) (0 : Fin 1) h wc (⟨ci.val, by omega⟩ : Fin 256)) := by
  unfold gE k0_pay2
  exact (lanes_apply _ 0 _ h wc ci (⟨ci.val, by omega⟩ : Fin 256) (Nat.zero_add _).symm).trans (drop2_apply x _ h wc _)

theorem gO_apply (x : Vec Ideal S1x1x64x32x256 .bf16) (h : Fin 64) (wc : Fin 32) (ci : Fin 128) :
    gO x (ix3 h wc ci) = x (ix5 (0 : Fin 1) (0 : Fin 1) h wc (⟨128 + ci.val, by omega⟩ : Fin 256)) := by
  unfold gO k0_pay3 k0_pay2
  exact (lanes_apply _ 128 _ h wc ci (⟨128 + ci.val, by omega⟩ : Fin 256) rfl).trans (drop2_apply x _ h wc _)

theorem gS_zero (x : Vec Ideal S1x1x64x32x256 .bf16) (h : Fin 64) (wc : Fin 32) (ci : Fin 128) (h0 : wc.val = 0) :
    gS x (ix3 h wc ci) = 0 := by
  unfold gS
  exact (shiftCol_zero zcol _ _ _ h wc ci h0).trans zb_eq

theorem gS_succ (x : Vec Ideal S1x1x64x32x256 .bf16) (h : Fin 64) (wc : Fin 32) (ci : Fin 128) (k : Fin 32) (hk : k.val + 1 = wc.val) :
    gS x (ix3 h wc ci) = x (ix5 (0 : Fin 1) (0 : Fin 1) h k (⟨128 + ci.val, by omega⟩ : Fin 256)) := by
  unfold gS
  exact (shiftCol_succ zcol _ _ _ h wc ci k hk).trans (gO_apply x h k ci)

/-! ## The row taps of a column tap, as the product's left operand, at an index -/

theorem flat_tE (g : FVec Ideal S64x32x128 .bf16) (ho wo : Fin 32) (ci : Fin 128) :
    flat (tE g) (ix2 (⟨ho.val * 32 + wo.val, by omega⟩ : Fin 1024) ci) = g (ix3 (⟨2 * ho.val, by omega⟩ : Fin 64) wo ci) := by
  unfold flat tE
  exact ((flat_apply _ _ ho wo ci).trans (member_apply _ 0 _ _ ho wo ci (0 : Fin 2) rfl)).trans (rows_apply g _ ho 0 wo ci)

theorem flat_tO (g : FVec Ideal S64x32x128 .bf16) (ho wo : Fin 32) (ci : Fin 128) :
    flat (tO g) (ix2 (⟨ho.val * 32 + wo.val, by omega⟩ : Fin 1024) ci) = g (ix3 (⟨2 * ho.val + 1, by omega⟩ : Fin 64) wo ci) := by
  unfold flat tO
  exact ((flat_apply _ _ ho wo ci).trans (member_apply _ 1 _ _ ho wo ci (1 : Fin 2) rfl)).trans (rows_apply g _ ho 1 wo ci)

theorem tO_apply (g : FVec Ideal S64x32x128 .bf16) (ho wo : Fin 32) (ci : Fin 128) :
    tO g (ix3 ho wo ci) = g (ix3 (⟨2 * ho.val + 1, by omega⟩ : Fin 64) wo ci) := by
  unfold tO
  exact (member_apply _ 1 _ _ ho wo ci (1 : Fin 2) rfl).trans (rows_apply g _ ho 1 wo ci)

theorem flat_tS_zero (g : FVec Ideal S64x32x128 .bf16) (ho wo : Fin 32) (ci : Fin 128) (h0 : ho.val = 0) :
    flat (tS zrow (tO g)) (ix2 (⟨ho.val * 32 + wo.val, by omega⟩ : Fin 1024) ci) = 0 := by
  unfold flat tS
  exact ((flat_apply _ _ ho wo ci).trans (shiftRow_zero zrow _ _ _ ho wo ci h0)).trans zb_eq

theorem flat_tS_succ (g : FVec Ideal S64x32x128 .bf16) (ho wo : Fin 32) (ci : Fin 128) (h0 : 1 ≤ ho.val) :
    flat (tS zrow (tO g)) (ix2 (⟨ho.val * 32 + wo.val, by omega⟩ : Fin 1024) ci) = g (ix3 (⟨2 * ho.val - 1, by omega⟩ : Fin 64) wo ci) := by
  unfold flat tS
  refine ((flat_apply _ _ ho wo ci).trans (shiftRow_succ zrow _ _ _ ho wo ci (⟨ho.val - 1, by omega⟩ : Fin 32) (by show ho.val - 1 + 1 = ho.val; omega))).trans ?_
  refine (tO_apply g _ wo ci).trans ?_
  exact congrArg (fun a : Fin 64 => g (ix3 a wo ci)) (Fin.ext (by show 2 * (ho.val - 1) + 1 = 2 * ho.val - 1; omega))

/-! ## A column tap read at a PADDED row -/

/-- A column tap read at the padded row `hp` in [0, 66): row `hp - 1`, zero on the border. -/
def rowpad (g : FVec Ideal S64x32x128 .bf16) (hp : ℕ) (wo : Fin 32) (ci : Fin 128) : EReal :=
  if h : 1 ≤ hp ∧ hp ≤ 64 then g (ix3 (⟨hp - 1, by omega⟩ : Fin 64) wo ci) else 0

theorem rowpad_in (g : FVec Ideal S64x32x128 .bf16) (hp : ℕ) (wo : Fin 32) (ci : Fin 128) (hh : 1 ≤ hp ∧ hp ≤ 64) (k : Fin 64)
    (hk : k.val = hp - 1) : rowpad g hp wo ci = g (ix3 k wo ci) := by
  unfold rowpad; rw [dif_pos hh]
  exact congrArg (fun a : Fin 64 => g (ix3 a wo ci)) (Fin.ext hk.symm)

theorem patch_kh0 (g : FVec Ideal S64x32x128 .bf16) (ho wo : Fin 32) (ci : Fin 128) (kh : Fin 3) (hkh : kh.val = 0) :
    flat (tS zrow (tO g)) (ix2 (⟨ho.val * 32 + wo.val, by omega⟩ : Fin 1024) ci) = rowpad g (2 * ho.val + kh.val) wo ci := by
  by_cases h0 : ho.val = 0
  · rw [flat_tS_zero g ho wo ci h0]
    unfold rowpad; rw [dif_neg (by omega)]
  · rw [flat_tS_succ g ho wo ci (by omega)]
    exact (rowpad_in g _ wo ci (by omega) _ (by show 2 * ho.val - 1 = 2 * ho.val + kh.val - 1; omega)).symm

theorem patch_kh1 (g : FVec Ideal S64x32x128 .bf16) (ho wo : Fin 32) (ci : Fin 128) (kh : Fin 3) (hkh : kh.val = 1) :
    flat (tE g) (ix2 (⟨ho.val * 32 + wo.val, by omega⟩ : Fin 1024) ci) = rowpad g (2 * ho.val + kh.val) wo ci := by
  rw [flat_tE g ho wo ci]
  exact (rowpad_in g _ wo ci (by omega) _ (by show 2 * ho.val = 2 * ho.val + kh.val - 1; omega)).symm

theorem patch_kh2 (g : FVec Ideal S64x32x128 .bf16) (ho wo : Fin 32) (ci : Fin 128) (kh : Fin 3) (hkh : kh.val = 2) :
    flat (tO g) (ix2 (⟨ho.val * 32 + wo.val, by omega⟩ : Fin 1024) ci) = rowpad g (2 * ho.val + kh.val) wo ci := by
  rw [flat_tO g ho wo ci]
  exact (rowpad_in g _ wo ci (by omega) _ (by show 2 * ho.val + 1 = 2 * ho.val + kh.val - 1; omega)).symm

/-! ## The padded picture -/

theorem fr_in (x : Vec Ideal S1x1x64x32x256 .bf16) (hp wp : ℕ) (ci : Fin 128) (hh : 1 ≤ hp ∧ hp ≤ 64 ∧ 1 ≤ wp ∧ wp ≤ 64)
    (h : Fin 64) (wc : Fin 32) (l : Fin 256) (e1 : h.val = hp - 1) (e2 : wc.val = (wp - 1) / 2)
    (e3 : l.val = ((wp - 1) % 2) * 128 + ci.val) : fr x hp wp ci = x (ix5 (0 : Fin 1) (0 : Fin 1) h wc l) := by
  unfold fr; rw [dif_pos hh]
  obtain ⟨hv, hlt⟩ := h
  obtain ⟨wv, wlt⟩ := wc
  obtain ⟨lv, llt⟩ := l
  dsimp only at e1 e2 e3
  subst e1 e2 e3
  rfl

theorem fr_out (x : Vec Ideal S1x1x64x32x256 .bf16) (hp wp : ℕ) (ci : Fin 128) (hh : ¬ (1 ≤ hp ∧ hp ≤ 64 ∧ 1 ≤ wp ∧ wp ≤ 64)) :
    fr x hp wp ci = 0 := by
  unfold fr; rw [dif_neg hh]

theorem rowpad_gS (x : Vec Ideal S1x1x64x32x256 .bf16) (hp : ℕ) (wo : Fin 32) (ci : Fin 128) (kw : Fin 3) (hkw : kw.val = 0) :
    rowpad (gS x) hp wo ci = fr x hp (2 * wo.val + kw.val) ci := by
  unfold rowpad
  by_cases hh : 1 ≤ hp ∧ hp ≤ 64
  · rw [dif_pos hh]
    by_cases h0 : wo.val = 0
    · rw [gS_zero x _ wo ci h0, fr_out x _ _ ci (by omega)]
    · rw [gS_succ x _ wo ci (⟨wo.val - 1, by omega⟩ : Fin 32) (by show wo.val - 1 + 1 = wo.val; omega)]
      exact (fr_in x _ _ ci (by omega) _ _ _ rfl (by show wo.val - 1 = (2 * wo.val + kw.val - 1) / 2; omega)
        (by show 128 + ci.val = ((2 * wo.val + kw.val - 1) % 2) * 128 + ci.val; omega)).symm
  · rw [dif_neg hh, fr_out x _ _ ci (by omega)]

theorem rowpad_gE (x : Vec Ideal S1x1x64x32x256 .bf16) (hp : ℕ) (wo : Fin 32) (ci : Fin 128) (kw : Fin 3) (hkw : kw.val = 1) :
    rowpad (gE x) hp wo ci = fr x hp (2 * wo.val + kw.val) ci := by
  unfold rowpad
  by_cases hh : 1 ≤ hp ∧ hp ≤ 64
  · rw [dif_pos hh, gE_apply x _ wo ci]
    exact (fr_in x _ _ ci (by omega) _ _ _ rfl (by show wo.val = (2 * wo.val + kw.val - 1) / 2; omega)
      (by show ci.val = ((2 * wo.val + kw.val - 1) % 2) * 128 + ci.val; omega)).symm
  · rw [dif_neg hh, fr_out x _ _ ci (by omega)]

theorem rowpad_gO (x : Vec Ideal S1x1x64x32x256 .bf16) (hp : ℕ) (wo : Fin 32) (ci : Fin 128) (kw : Fin 3) (hkw : kw.val = 2) :
    rowpad (gO x) hp wo ci = fr x hp (2 * wo.val + kw.val) ci := by
  unfold rowpad
  by_cases hh : 1 ≤ hp ∧ hp ≤ 64
  · rw [dif_pos hh, gO_apply x _ wo ci]
    exact (fr_in x _ _ ci (by omega) _ _ _ rfl (by show wo.val = (2 * wo.val + kw.val - 1) / 2; omega)
      (by show 128 + ci.val = ((2 * wo.val + kw.val - 1) % 2) * 128 + ci.val; omega)).symm
  · rw [dif_neg hh, fr_out x _ _ ci (by omega)]

/-! ## The loads -/

theorem ldX (x : Vec Ideal S1x1x64x32x256 .bf16) : View.ld x rX = x :=
  View.ld_unit_zero (funext fun a => by
    match a with
    | ⟨0, _⟩ => rfl
    | ⟨1, _⟩ => rfl
    | ⟨2, _⟩ => rfl
    | ⟨3, _⟩ => rfl
    | ⟨4, _⟩ => rfl) _ x

theorem ldB (b : Vec Ideal S1x128 .f32) : View.ld b rB = b :=
  View.ld_unit_zero (funext fun a => by
    match a with
    | ⟨0, _⟩ => rfl
    | ⟨1, _⟩ => rfl) _ b

/-- Tap matrix `k` loaded as a block of one matrix. -/
theorem ldW_apply (w : Vec Ideal S27x128x128 .bf16) (k : ℕ) (inb : ∀ a, (![k, 0, 0] : Fin 3 → ℕ) a + S1x128x128.size a ≤ S27x128x128.size a)
    (ci co : Fin 128) (k' : Fin 27) (hk : k'.val = k) :
    View.ld w (Rect.unit (s := S27x128x128) ![k, 0, 0] S1x128x128.size inb) (ix3 (0 : Fin 1) ci co) = w (ix3 k' ci co) := by
  show w _ = w _
  refine congrArg w (funext fun a => Fin.ext ?_)
  match a with
  | ⟨0, _⟩ => show k + 1 * 0 = k'.val; omega
  | ⟨1, _⟩ => show 0 + 1 * ci.val = ci.val; omega
  | ⟨2, _⟩ => show 0 + 1 * co.val = co.val; omega

/-! ## One tap -/

theorem tap_apply (x0 x1 x2 : Vec Ideal S1x1x64x32x256 .bf16) (w : Vec Ideal S27x128x128 .bf16) (ho wo : Fin 32) (co : Fin 128)
    (kt kh kw : Fin 3) (L : FVec Ideal S1024x128 .bf16) (W : FVec Ideal S1x128x128 .bf16) (g : FVec Ideal S64x32x128 .bf16)
    (hL : ∀ ci, L (ix2 (⟨ho.val * 32 + wo.val, by omega⟩ : Fin 1024) ci) = rowpad g (2 * ho.val + kh.val) wo ci)
    (hg : ∀ hp ci, rowpad g hp wo ci = fr (sel kt x0 x1 x2) hp (2 * wo.val + kw.val) ci)
    (hW : ∀ ci, W (ix3 (0 : Fin 1) ci co)
      = w (ix3 ⟨kt.val * 9 + kh.val * 3 + kw.val, by have := kt.isLt; have := kh.isLt; have := kw.isLt; omega⟩ ci co)) :
    mm L W (ix2 (⟨ho.val * 32 + wo.val, by omega⟩ : Fin 1024) co)
      = ∑ ci : Fin 128, fr (sel kt x0 x1 x2) (2 * ho.val + kh.val) (2 * wo.val + kw.val) ci
          * w (ix3 ⟨kt.val * 9 + kh.val * 3 + kw.val, by have := kt.isLt; have := kh.isLt; have := kw.isLt; omega⟩ ci co) := by
  rw [mm_apply]
  refine Finset.sum_congr rfl fun ci _ => ?_
  rw [hL ci, hg _ ci, hW ci]

/-! ## The accumulator payloads at an index -/

theorem pay4_apply (x : Vec Ideal S1x1x64x32x256 .bf16) (W0 W3 W6 : Vec Ideal S1x128x128 .bf16) (i : S1024x128.Idx) :
    k0_pay4 x W0 W3 W6 i
      = 0 + mm (flat (tS zrow (tO (gS x)))) W0 i + mm (flat (tE (gS x))) W3 i + mm (flat (tO (gS x))) W6 i := by
  show Ideal.ofBits .f32 0x00000000#32 + _ + _ + _ = _
  rw [Ideal.ofBits_zero_f32]
  rfl

theorem pay11_apply (v4 : FVec Ideal S64x32x128 .bf16) (v30 : FVec Ideal S1024x128 .f32) (v33 v35 : FVec Ideal S32x32x128 .bf16)
    (v36 : FVec Ideal S1x32x128 .bf16) (W1 W4 W7 W2 W5 : Vec Ideal S1x128x128 .bf16) (i : S1024x128.Idx) :
    k0_pay11 v4 v30 v33 v35 v36 W1 W4 W7 W2 W5 i
      = v30 i + mm (flat (tS v36 v35)) W1 i + mm (flat v33) W4 i + mm (flat v35) W7 i
          + mm (flat (tS zrow (tO v4))) W2 i + mm (flat (tE v4)) W5 i := rfl

theorem pay15_apply (v71 : FVec Ideal S1024x128 .f32) (v72 : FVec Ideal S1024x128 .bf16) (W8 : Vec Ideal S1x128x128 .bf16)
    (x : Vec Ideal S1x1x64x32x256 .bf16) (W9 W12 W15 : Vec Ideal S1x128x128 .bf16) (i : S1024x128.Idx) :
    k0_pay15 v71 v72 W8 x W9 W12 W15 i
      = v71 i + mm v72 W8 i + mm (flat (tS zrow (tO (gS x)))) W9 i + mm (flat (tE (gS x))) W12 i + mm (flat (tO (gS x))) W15 i := rfl

theorem pay21_apply (v80 : FVec Ideal S64x32x128 .bf16) (v106 : FVec Ideal S1024x128 .f32) (v109 v111 : FVec Ideal S32x32x128 .bf16)
    (c : Ideal .bf16) (W10 W13 W16 W11 W14 : Vec Ideal S1x128x128 .bf16) (i : S1024x128.Idx) :
    k0_pay21 v80 v106 v109 v111 c W10 W13 W16 W11 W14 i
      = v106 i + mm (flat (tS (broadcast S1x32x128 c) v111)) W10 i + mm (flat v109) W13 i + mm (flat v111) W16 i
          + mm (flat (tS zrow (tO v80))) W11 i + mm (flat (tE v80)) W14 i := rfl

theorem pay25_apply (v147 : FVec Ideal S1024x128 .f32) (v148 : FVec Ideal S1024x128 .bf16) (W17 : Vec Ideal S1x128x128 .bf16)
    (x : Vec Ideal S1x1x64x32x256 .bf16) (W18 W21 W24 : Vec Ideal S1x128x128 .bf16) (i : S1024x128.Idx) :
    k0_pay25 v147 v148 W17 x W18 W21 W24 i
      = v147 i + mm v148 W17 i + mm (flat (tS zrow (tO (gS x)))) W18 i + mm (flat (tE (gS x))) W21 i + mm (flat (tO (gS x))) W24 i := rfl

theorem pay31_apply (v156 : FVec Ideal S64x32x128 .bf16) (v182 : FVec Ideal S1024x128 .f32) (v185 v187 : FVec Ideal S32x32x128 .bf16)
    (W19 W22 W25 W20 W23 : Vec Ideal S1x128x128 .bf16) (i : S1024x128.Idx) :
    k0_pay31 v156 v182 v185 v187 W19 W22 W25 W20 W23 i
      = v182 i + mm (flat (tS zrow v187)) W19 i + mm (flat v185) W22 i + mm (flat v187) W25 i
          + mm (flat (tS zrow (tO v156))) W20 i + mm (flat (tE v156)) W23 i := rfl

theorem add_congr {a a' c c' : EReal} (h1 : a = a') (h2 : c = c') : a + c = a' + c' := by rw [h1, h2]

/-- The stored block at an output position: the last accumulator, the last tap and the bias. -/
theorem pay1_apply (v223 : FVec Ideal S1024x128 .f32) (v224 : FVec Ideal S1024x128 .bf16) (W26 : Vec Ideal S1x128x128 .bf16)
    (b : Vec Ideal S1x128 .f32) (u v : Fin 1) (ho wo : Fin 32) (co : Fin 128) :
    k0_pay1 v223 v224 W26 b (ix5 u v ho wo co)
      = v223 (ix2 (⟨ho.val * 32 + wo.val, by omega⟩ : Fin 1024) co) + mm v224 W26 (ix2 (⟨ho.val * 32 + wo.val, by omega⟩ : Fin 1024) co)
          + b (ix2 (0 : Fin 1) co) := by
  unfold k0_pay1
  have hu := u.isLt
  have hv := v.isLt
  refine (shapeCast_apply _ _ (ix5 u v ho wo co) (ix3 ho wo co) (by
    rw [Shape.rowMajor_val_three, Shape.rowMajor_val_five]
    show (ho.val * 32 + wo.val) * 128 + co.val = (((u.val * 1 + v.val) * 32 + ho.val) * 32 + wo.val) * 128 + co.val
    omega)).trans ?_
  refine (shapeCast_apply _ _ (ix3 ho wo co) (ix2 (⟨ho.val * 32 + wo.val, by omega⟩ : Fin 1024) co) (by
    rw [Shape.rowMajor_val_three, Shape.rowMajor_val_two]
    show (ho.val * 32 + wo.val) * 128 + co.val = (ho.val * 32 + wo.val) * 128 + co.val
    rfl)).trans ?_
  show _ + _ + _ = _
  refine add_congr rfl ?_
  refine (broadcastTo_1b_ab_apply _ _ _ co).trans ?_
  exact shapeCast_apply b _ _ _ rfl

/-- THE STORED VALUE AT A POSITION: output row `ho`, column `wo`, channel `co`. -/
theorem kout_apply (x0 x1 x2 : Vec Ideal S1x1x64x32x256 .bf16) (w : Vec Ideal S27x128x128 .bf16) (b : Vec Ideal S1x128 .f32)
    (ho wo : Fin 32) (co : Fin 128) :
    kout (F := Ideal) x0 x1 x2 w b (ix5 0 0 ho wo co)
      = Cert.ConvSpec.kfold (fun kt kh kw => ∑ ci : Fin 128,
          fr (sel kt x0 x1 x2) (2 * ho.val + kh.val) (2 * wo.val + kw.val) ci
            * w (ix3 ⟨kt.val * 9 + kh.val * 3 + kw.val, by have := kt.isLt; have := kh.isLt; have := kw.isLt; omega⟩ ci co))
        + b (ix2 0 co) := by
  unfold kout Cert.ConvSpec.kfold
  rw [ldX x0, ldX x1, ldX x2, ldB b]
  refine (pay1_apply _ _ _ _ 0 0 ho wo co).trans ?_
  refine add_congr ?_ rfl
  refine add_congr ?_ (tap_apply x0 x1 x2 w ho wo co 2 2 2 _ _ (gO x2) (fun ci => patch_kh2 (gO x2) ho wo ci 2 rfl)
    (fun hp ci => rowpad_gO x2 hp wo ci 2 rfl) (fun ci => ldW_apply w 26 _ ci co _ rfl))
  refine (pay31_apply _ _ _ _ _ _ _ _ _ _).trans ?_
  refine add_congr (add_congr (add_congr (add_congr (add_congr ?_
    (tap_apply x0 x1 x2 w ho wo co 2 0 1 _ _ (gE x2) (fun ci => patch_kh0 (gE x2) ho wo ci 0 rfl)
      (fun hp ci => rowpad_gE x2 hp wo ci 1 rfl) (fun ci => ldW_apply w 19 _ ci co _ rfl)))
    (tap_apply x0 x1 x2 w ho wo co 2 1 1 _ _ (gE x2) (fun ci => patch_kh1 (gE x2) ho wo ci 1 rfl)
      (fun hp ci => rowpad_gE x2 hp wo ci 1 rfl) (fun ci => ldW_apply w 22 _ ci co _ rfl)))
    (tap_apply x0 x1 x2 w ho wo co 2 2 1 _ _ (gE x2) (fun ci => patch_kh2 (gE x2) ho wo ci 2 rfl)
      (fun hp ci => rowpad_gE x2 hp wo ci 1 rfl) (fun ci => ldW_apply w 25 _ ci co _ rfl)))
    (tap_apply x0 x1 x2 w ho wo co 2 0 2 _ _ (gO x2) (fun ci => patch_kh0 (gO x2) ho wo ci 0 rfl)
      (fun hp ci => rowpad_gO x2 hp wo ci 2 rfl) (fun ci => ldW_apply w 20 _ ci co _ rfl)))
    (tap_apply x0 x1 x2 w ho wo co 2 1 2 _ _ (gO x2) (fun ci => patch_kh1 (gO x2) ho wo ci 1 rfl)
      (fun hp ci => rowpad_gO x2 hp wo ci 2 rfl) (fun ci => ldW_apply w 23 _ ci co _ rfl))
  refine (pay25_apply _ _ _ _ _ _ _ _).trans ?_
  refine add_congr (add_congr (add_congr (add_congr ?_
    (tap_apply x0 x1 x2 w ho wo co 1 2 2 _ _ (gO x1) (fun ci => patch_kh2 (gO x1) ho wo ci 2 rfl)
      (fun hp ci => rowpad_gO x1 hp wo ci 2 rfl) (fun ci => ldW_apply w 17 _ ci co _ rfl)))
    (tap_apply x0 x1 x2 w ho wo co 2 0 0 _ _ (gS x2) (fun ci => patch_kh0 (gS x2) ho wo ci 0 rfl)
      (fun hp ci => rowpad_gS x2 hp wo ci 0 rfl) (fun ci => ldW_apply w 18 _ ci co _ rfl)))
    (tap_apply x0 x1 x2 w ho wo co 2 1 0 _ _ (gS x2) (fun ci => patch_kh1 (gS x2) ho wo ci 1 rfl)
      (fun hp ci => rowpad_gS x2 hp wo ci 0 rfl) (fun ci => ldW_apply w 21 _ ci co _ rfl)))
    (tap_apply x0 x1 x2 w ho wo co 2 2 0 _ _ (gS x2) (fun ci => patch_kh2 (gS x2) ho wo ci 2 rfl)
      (fun hp ci => rowpad_gS x2 hp wo ci 0 rfl) (fun ci => ldW_apply w 24 _ ci co _ rfl))
  refine (pay21_apply _ _ _ _ _ _ _ _ _ _ _).trans ?_
  refine add_congr (add_congr (add_congr (add_congr (add_congr ?_
    (tap_apply x0 x1 x2 w ho wo co 1 0 1 _ _ (gE x1) (fun ci => patch_kh0 (gE x1) ho wo ci 0 rfl)
      (fun hp ci => rowpad_gE x1 hp wo ci 1 rfl) (fun ci => ldW_apply w 10 _ ci co _ rfl)))
    (tap_apply x0 x1 x2 w ho wo co 1 1 1 _ _ (gE x1) (fun ci => patch_kh1 (gE x1) ho wo ci 1 rfl)
      (fun hp ci => rowpad_gE x1 hp wo ci 1 rfl) (fun ci => ldW_apply w 13 _ ci co _ rfl)))
    (tap_apply x0 x1 x2 w ho wo co 1 2 1 _ _ (gE x1) (fun ci => patch_kh2 (gE x1) ho wo ci 2 rfl)
      (fun hp ci => rowpad_gE x1 hp wo ci 1 rfl) (fun ci => ldW_apply w 16 _ ci co _ rfl)))
    (tap_apply x0 x1 x2 w ho wo co 1 0 2 _ _ (gO x1) (fun ci => patch_kh0 (gO x1) ho wo ci 0 rfl)
      (fun hp ci => rowpad_gO x1 hp wo ci 2 rfl) (fun ci => ldW_apply w 11 _ ci co _ rfl)))
    (tap_apply x0 x1 x2 w ho wo co 1 1 2 _ _ (gO x1) (fun ci => patch_kh1 (gO x1) ho wo ci 1 rfl)
      (fun hp ci => rowpad_gO x1 hp wo ci 2 rfl) (fun ci => ldW_apply w 14 _ ci co _ rfl))
  refine (pay15_apply _ _ _ _ _ _ _ _).trans ?_
  refine add_congr (add_congr (add_congr (add_congr ?_
    (tap_apply x0 x1 x2 w ho wo co 0 2 2 _ _ (gO x0) (fun ci => patch_kh2 (gO x0) ho wo ci 2 rfl)
      (fun hp ci => rowpad_gO x0 hp wo ci 2 rfl) (fun ci => ldW_apply w 8 _ ci co _ rfl)))
    (tap_apply x0 x1 x2 w ho wo co 1 0 0 _ _ (gS x1) (fun ci => patch_kh0 (gS x1) ho wo ci 0 rfl)
      (fun hp ci => rowpad_gS x1 hp wo ci 0 rfl) (fun ci => ldW_apply w 9 _ ci co _ rfl)))
    (tap_apply x0 x1 x2 w ho wo co 1 1 0 _ _ (gS x1) (fun ci => patch_kh1 (gS x1) ho wo ci 1 rfl)
      (fun hp ci => rowpad_gS x1 hp wo ci 0 rfl) (fun ci => ldW_apply w 12 _ ci co _ rfl)))
    (tap_apply x0 x1 x2 w ho wo co 1 2 0 _ _ (gS x1) (fun ci => patch_kh2 (gS x1) ho wo ci 2 rfl)
      (fun hp ci => rowpad_gS x1 hp wo ci 0 rfl) (fun ci => ldW_apply w 15 _ ci co _ rfl))
  refine (pay11_apply _ _ _ _ _ _ _ _ _ _ _).trans ?_
  refine add_congr (add_congr (add_congr (add_congr (add_congr ?_
    (tap_apply x0 x1 x2 w ho wo co 0 0 1 _ _ (gE x0) (fun ci => patch_kh0 (gE x0) ho wo ci 0 rfl)
      (fun hp ci => rowpad_gE x0 hp wo ci 1 rfl) (fun ci => ldW_apply w 1 _ ci co _ rfl)))
    (tap_apply x0 x1 x2 w ho wo co 0 1 1 _ _ (gE x0) (fun ci => patch_kh1 (gE x0) ho wo ci 1 rfl)
      (fun hp ci => rowpad_gE x0 hp wo ci 1 rfl) (fun ci => ldW_apply w 4 _ ci co _ rfl)))
    (tap_apply x0 x1 x2 w ho wo co 0 2 1 _ _ (gE x0) (fun ci => patch_kh2 (gE x0) ho wo ci 2 rfl)
      (fun hp ci => rowpad_gE x0 hp wo ci 1 rfl) (fun ci => ldW_apply w 7 _ ci co _ rfl)))
    (tap_apply x0 x1 x2 w ho wo co 0 0 2 _ _ (gO x0) (fun ci => patch_kh0 (gO x0) ho wo ci 0 rfl)
      (fun hp ci => rowpad_gO x0 hp wo ci 2 rfl) (fun ci => ldW_apply w 2 _ ci co _ rfl)))
    (tap_apply x0 x1 x2 w ho wo co 0 1 2 _ _ (gO x0) (fun ci => patch_kh1 (gO x0) ho wo ci 1 rfl)
      (fun hp ci => rowpad_gO x0 hp wo ci 2 rfl) (fun ci => ldW_apply w 5 _ ci co _ rfl))
  refine (pay4_apply _ _ _ _ _).trans ?_
  exact add_congr (add_congr (add_congr rfl
    (tap_apply x0 x1 x2 w ho wo co 0 0 0 _ _ (gS x0) (fun ci => patch_kh0 (gS x0) ho wo ci 0 rfl)
      (fun hp ci => rowpad_gS x0 hp wo ci 0 rfl) (fun ci => ldW_apply w 0 _ ci co _ rfl)))
    (tap_apply x0 x1 x2 w ho wo co 0 1 0 _ _ (gS x0) (fun ci => patch_kh1 (gS x0) ho wo ci 1 rfl)
      (fun hp ci => rowpad_gS x0 hp wo ci 0 rfl) (fun ci => ldW_apply w 3 _ ci co _ rfl)))
    (tap_apply x0 x1 x2 w ho wo co 0 2 0 _ _ (gS x0) (fun ci => patch_kh2 (gS x0) ho wo ci 2 rfl)
      (fun hp ci => rowpad_gS x0 hp wo ci 0 rfl) (fun ci => ldW_apply w 6 _ ci co _ rfl))

end Cert.KernelIdeal.Hand

end
-- ==== Proof.KIValue.lean ====
/-
  The kernel program's result, at the exact extended reals, is the convolution of its arguments: the host
  operations before the region lay the activations out channels-last with column pairs fused in lanes, the weights as
  27 tap matrices and the bias as a row; grid point (n, t) reads the three frames max(2t + kt - 2, 0) of clip n and
  writes block (n, t) of the output array, which the blocks tile; the host transpose after the region moves the
  channels to the second axis.
-/
import proofs.«108319_g2000506355603382_pallasbulk_1083_2_alg».proof.Proof.KIArr
import proofs.«108319_g2000506355603382_pallasbulk_1083_2_alg».proof.Proof.KIPay

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The fused-lane activations as the region finds them: the reshape of the cast of the transpose of the first argument. -/
theorem V_v2_term (c : Dev nD) :
    (V m c main_v2 : S2x16x64x32x256.Idx → EReal)
      = shapeCast S2x16x64x32x256
          (truncf (F := Ideal) .bf16
            (transpose S2x16x64x64x128 [0, 2, 3, 4, 1] (m ((c.tc : Thread nD τ).loc main_arg0))
              transposes_S2x128x16x64x64_S2x16x64x64x128_0_2_3_4_1) bitsLt_bf16_f32)
          shapeCasts_S2x16x64x64x128_S2x16x64x32x256 := by
  dsimp only [V, V0]
  simp only [hostOps0, List.flatten_cons, List.flatten_nil, List.append_nil]
  after_results
  rfl

/-- The tap matrices as the region finds them: the cast of the reshape of the transpose of the second argument. -/
theorem V_v5_term (c : Dev nD) :
    (V m c main_v5 : S27x128x128.Idx → EReal)
      = truncf (F := Ideal) .bf16
          (shapeCast S27x128x128
            (transpose S3x3x3x128x128 [2, 3, 4, 1, 0] (m ((c.tc : Thread nD τ).loc main_arg1))
              transposes_S128x128x3x3x3_S3x3x3x128x128_2_3_4_1_0)
            shapeCasts_S3x3x3x128x128_S27x128x128) bitsLt_bf16_f32 := by
  dsimp only [V, V0]
  simp only [hostOps0, List.flatten_cons, List.flatten_nil, List.append_nil]
  after_results
  rfl

/-- The bias row as the region finds it: the reshape of the third argument. -/
theorem V_v6_term (c : Dev nD) :
    (V m c main_v6 : S1x128.Idx → EReal)
      = shapeCast S1x128 (m ((c.tc : Thread nD τ).loc main_arg2)) shapeCasts_S128_S1x128 := by
  dsimp only [V, V0]
  simp only [hostOps0, List.flatten_cons, List.flatten_nil, List.append_nil]
  after_results
  rfl

/-- The fused-lane activations at (n, t, h, j, l): the first argument at clip n, channel l % 128, frame t, row h, column 2 j + l / 128. -/
theorem V_v2_at (c : Dev nD) (n : Fin 2) (t : Fin 16) (h : Fin 64) (j : Fin 32) (l : Fin 256) :
    V m c main_v2 (ix5 n t h j l)
      = m ((c.tc : Thread nD τ).loc main_arg0)
          (ix5 n (⟨l.val % 128, Nat.mod_lt _ (by decide)⟩ : Fin 128) t h
            (⟨2 * j.val + l.val / 128, by have := j.isLt; have := l.isLt; omega⟩ : Fin 64)) := by
  have hj := j.isLt
  have hl := l.isLt
  have hw : 2 * j.val + l.val / 128 < 64 := by omega
  have hc : l.val % 128 < 128 := Nat.mod_lt _ (by decide)
  refine (congrFun (V_v2_term m c) (ix5 n t h j l)).trans ?_
  -- the reshape keeps the row-major position: column w = 2 j + l / 128, channel l % 128
  have hrm : (S2x16x64x64x128.rowMajor (ix5 n t h (⟨2 * j.val + l.val / 128, hw⟩ : Fin 64) (⟨l.val % 128, hc⟩ : Fin 128))).val
      = (S2x16x64x32x256.rowMajor (ix5 n t h j l)).val := by
    rw [Shape.rowMajor_val_five, Shape.rowMajor_val_five]
    show (((n.val * 16 + t.val) * 64 + h.val) * 64 + (2 * j.val + l.val / 128)) * 128 + l.val % 128 = (((n.val * 16 + t.val) * 64 + h.val) * 32 + j.val) * 256 + l.val
    omega
  refine (shapeCast_apply _ _ _ _ hrm).trans ?_
  refine (truncf_apply (φ := .f32) (ψ := .bf16) _ bitsLt_bf16_f32 _).trans ?_
  -- the transpose moved the channels last
  exact transpose_apply _ _ _ _ _ (fun b => match b with | ⟨0, _⟩ => rfl | ⟨1, _⟩ => rfl | ⟨2, _⟩ => rfl | ⟨3, _⟩ => rfl | ⟨4, _⟩ => rfl)

/-- Tap matrix k at (ci, co): the second argument at (co, ci, k / 9, k / 3 % 3, k % 3). -/
theorem V_v5_at (c : Dev nD) (k : Fin 27) (ci co : Fin 128) :
    V m c main_v5 (ix3 k ci co)
      = m ((c.tc : Thread nD τ).loc main_arg1)
          (ix5 co ci (⟨k.val / 9, by have := k.isLt; omega⟩ : Fin 3) (⟨k.val / 3 % 3, Nat.mod_lt _ (by decide)⟩ : Fin 3)
            (⟨k.val % 3, Nat.mod_lt _ (by decide)⟩ : Fin 3)) := by
  have hk := k.isLt
  have h0 : k.val / 9 < 3 := by omega
  have h1 : k.val / 3 % 3 < 3 := Nat.mod_lt _ (by decide)
  have h2 : k.val % 3 < 3 := Nat.mod_lt _ (by decide)
  refine (congrFun (V_v5_term m c) (ix3 k ci co)).trans ?_
  refine (truncf_apply (φ := .f32) (ψ := .bf16) _ bitsLt_bf16_f32 _).trans ?_
  -- the reshape fuses the three tap axes: k = (kt * 3 + kh) * 3 + kw
  have hrm : (S3x3x3x128x128.rowMajor (ix5 (⟨k.val / 9, h0⟩ : Fin 3) (⟨k.val / 3 % 3, h1⟩ : Fin 3) (⟨k.val % 3, h2⟩ : Fin 3) ci co)).val
      = (S27x128x128.rowMajor (ix3 k ci co)).val := by
    rw [Shape.rowMajor_val_five, Shape.rowMajor_val_three]
    show ((((k.val / 9) * 3 + k.val / 3 % 3) * 3 + k.val % 3) * 128 + ci.val) * 128 + co.val = (k.val * 128 + ci.val) * 128 + co.val
    omega
  refine (shapeCast_apply _ _ _ _ hrm).trans ?_
  -- the transpose moved the taps first and the output channels last
  exact transpose_apply _ _ _ _ _ (fun b => match b with | ⟨0, _⟩ => rfl | ⟨1, _⟩ => rfl | ⟨2, _⟩ => rfl | ⟨3, _⟩ => rfl | ⟨4, _⟩ => rfl)

/-- The bias row at (0, co): the third argument at co. -/
theorem V_v6_at (c : Dev nD) (co : Fin 128) :
    V m c main_v6 (ix2 (0 : Fin 1) co) = m ((c.tc : Thread nD τ).loc main_arg2) (ix1 co) := by
  refine (congrFun (V_v6_term m c) (ix2 (0 : Fin 1) co)).trans ?_
  have hrm : (S128.rowMajor (ix1 co)).val = (S1x128.rowMajor (ix2 (0 : Fin 1) co)).val := by
    rw [Shape.rowMajor_val_one, Shape.rowMajor_val_two]
    show co.val = 0 * 128 + co.val
    omega
  exact shapeCast_apply _ _ _ _ hrm

/-- A frame block whose entries are the activations of clip n at frame tf (column pairs fused in lanes), read at padded
    coordinates, is the specification's padded read. -/
theorem fr_eq_xpad (X : Vec Ideal S1x1x64x32x256 .bf16) (x : Cert.ConvSpec.SX.Idx → EReal) (n : Fin 2) (tf : Fin 16)
    (hX : ∀ (h : Fin 64) (j : Fin 32) (l : Fin 256),
      X (ix5 0 0 h j l) = x (ix5 n (⟨l.val % 128, Nat.mod_lt _ (by decide)⟩ : Fin 128) tf h
        (⟨2 * j.val + l.val / 128, by have := j.isLt; have := l.isLt; omega⟩ : Fin 64)))
    (hp wp : ℕ) (ci : Fin 128) : fr X hp wp ci = Cert.ConvSpec.xpad x n ci tf hp wp := by
  have hci := ci.isLt
  unfold fr Cert.ConvSpec.xpad
  by_cases hb : 1 ≤ hp ∧ hp ≤ 64 ∧ 1 ≤ wp ∧ wp ≤ 64
  · rw [dif_pos hb, dif_pos hb, hX]
    -- column (wp - 1) / 2 * 2 + (wp - 1) % 2 = wp - 1, and lane (wp - 1) % 2 * 128 + ci holds channel ci
    refine congrArg x ?_
    funext a
    match a with
    | ⟨0, _⟩ => rfl
    | ⟨1, _⟩ => exact Fin.ext (by show ((wp - 1) % 2 * 128 + ci.val) % 128 = ci.val; omega)
    | ⟨2, _⟩ => rfl
    | ⟨3, _⟩ => rfl
    | ⟨4, _⟩ => exact Fin.ext (by show 2 * ((wp - 1) / 2) + ((wp - 1) % 2 * 128 + ci.val) / 128 = wp - 1; omega)
  · rw [dif_neg hb, dif_neg hb]

/-- Time tap kt's frame block at point (n, t), read at padded coordinates, is the specification's padded read of frame
    max(2t + kt - 2, 0) of clip n. -/
theorem fr_sel (c : Dev nD) (n : Fin 2) (t : Fin 8) (kt : Fin 3) (hp wp : ℕ) (ci : Fin 128) :
    fr (sel kt (iblk m c 0 (pt n t)) (iblk m c 1 (pt n t)) (iblk m c 2 (pt n t))) hp wp ci
      = Cert.ConvSpec.xpad (m ((c.tc : Thread nD τ).loc main_arg0)) n ci (Cert.ConvSpec.tin t kt) hp wp := by
  match kt with
  | ⟨0, _⟩ =>
    show fr (iblk m c 0 (pt n t)) hp wp ci = Cert.ConvSpec.xpad _ n ci (Cert.ConvSpec.tin t 0) hp wp
    exact fr_eq_xpad _ _ n _ (fun h j l => (iblk_frame0 m c n t h j l).trans (V_v2_at m c n _ h j l)) hp wp ci
  | ⟨1, _⟩ =>
    show fr (iblk m c 1 (pt n t)) hp wp ci = Cert.ConvSpec.xpad _ n ci (Cert.ConvSpec.tin t 1) hp wp
    exact fr_eq_xpad _ _ n _ (fun h j l => (iblk_frame1 m c n t h j l).trans (V_v2_at m c n _ h j l)) hp wp ci
  | ⟨2, _⟩ =>
    show fr (iblk m c 2 (pt n t)) hp wp ci = Cert.ConvSpec.xpad _ n ci (Cert.ConvSpec.tin t 2) hp wp
    exact fr_eq_xpad _ _ n _ (fun h j l => (iblk_frame2 m c n t h j l).trans (V_v2_at m c n _ h j l)) hp wp ci

/-- The tap matrices' block at any point, at tap (kt, kh, kw), is the weight at (co, ci, kt, kh, kw). -/
theorem w_at (c : Dev nD) (n : Fin 2) (t : Fin 8) (kt kh kw : Fin 3) (ci co : Fin 128) :
    iblk m c 3 (pt n t) (ix3 (⟨kt.val * 9 + kh.val * 3 + kw.val, by have := kt.isLt; have := kh.isLt; have := kw.isLt; omega⟩ : Fin 27) ci co)
      = m ((c.tc : Thread nD τ).loc main_arg1) (ix5 co ci kt kh kw) := by
  have h0 := kt.isLt
  have h1 := kh.isLt
  have h2 := kw.isLt
  refine (iblk_w m c n t _ ci co).trans ?_
  refine (V_v5_at m c _ ci co).trans ?_
  refine congrArg (m ((c.tc : Thread nD τ).loc main_arg1)) ?_
  funext a
  match a with
  | ⟨0, _⟩ => rfl
  | ⟨1, _⟩ => rfl
  | ⟨2, _⟩ => exact Fin.ext (by show (kt.val * 9 + kh.val * 3 + kw.val) / 9 = kt.val; omega)
  | ⟨3, _⟩ => exact Fin.ext (by show (kt.val * 9 + kh.val * 3 + kw.val) / 3 % 3 = kh.val; omega)
  | ⟨4, _⟩ => exact Fin.ext (by show (kt.val * 9 + kh.val * 3 + kw.val) % 3 = kw.val; omega)

/-- The bias block at any point is the bias. -/
theorem b_at (c : Dev nD) (n : Fin 2) (t : Fin 8) (co : Fin 128) :
    iblk m c 4 (pt n t) (ix2 0 co) = m ((c.tc : Thread nD τ).loc main_arg2) (ix1 co) :=
  (iblk_b m c n t co).trans (V_v6_at m c co)

/-- The specification at an index given by its coordinates. -/
theorem conv_ix5 (x : Cert.ConvSpec.SX.Idx → EReal) (w : Cert.ConvSpec.SW.Idx → EReal) (b : Cert.ConvSpec.SB.Idx → EReal)
    (n : Fin 2) (co : Fin 128) (t : Fin 8) (ho wo : Fin 32) :
    Cert.ConvSpec.conv x w b (ix5 n co t ho wo)
      = (∑ kt : Fin 3, ∑ kh : Fin 3, ∑ kw : Fin 3, ∑ ci : Fin 128,
          Cert.ConvSpec.xpad x n ci (Cert.ConvSpec.tin t kt) (2 * ho.val + kh.val) (2 * wo.val + kw.val) * w (ix5 co ci kt kh kw))
        + b (ix1 co) := rfl

/-- The result buffer at (n, co, t, ho, wo) is the specification there. -/
theorem result_at_conv (c : Dev nD) (n : Fin 2) (co : Fin 128) (t : Fin 8) (ho wo : Fin 32) :
    StableHlo.after hostOps1 (Wexit m c) (Proc.devRef .tc main_v8) (ix5 n co t ho wo)
      = Cert.ConvSpec.conv (m ((c.tc : Thread nD τ).loc main_arg0)) (m ((c.tc : Thread nD τ).loc main_arg1))
          (m ((c.tc : Thread nD τ).loc main_arg2)) (ix5 n co t ho wo) := by
  refine (result_at m c n co t ho wo).trans ?_
  refine (kout_apply _ _ _ _ _ ho wo co).trans ?_
  rw [Cert.ConvSpec.kfold_eq, conv_ix5, b_at m c n t co]
  refine congrArg (· + _) ?_
  refine Finset.sum_congr rfl fun kt _ => Finset.sum_congr rfl fun kh _ => Finset.sum_congr rfl fun kw _ =>
    Finset.sum_congr rfl fun ci _ => ?_
  rw [fr_sel m c n t kt _ _ ci, w_at m c n t kt kh kw ci co]

/-- THE RESULT: what the run leaves in the result buffer is the specification's convolution of the argument arrays. -/
theorem result_eq (c : Dev nD) :
    StableHlo.after hostOps1 (Wexit m c) (Proc.devRef .tc main_v8)
      = Cert.ConvSpec.conv (m ((c.tc : Thread nD τ).loc main_arg0)) (m ((c.tc : Thread nD τ).loc main_arg1)) (m ((c.tc : Thread nD τ).loc main_arg2)) := by
  funext i
  have hi : i = ix5 (n0 := 2) (n1 := 128) (n2 := 8) (n3 := 32) (n4 := 32) (i 0) (i 1) (i 2) (i 3) (i 4) := eq_ix5 (n0 := 2) (n1 := 128) (n2 := 8) (n3 := 32) (n4 := 32) i
  rw [hi]
  exact result_at_conv m c (i 0) (i 1) (i 2) (i 3) (i 4)

end Cert.KernelIdeal.Hand

end
-- ==== Proof.RIBody.lean ====
/-
  The reference's convolution kernel body as one pure function of the blocks it loads: three phase-split,
  zero-padded frame blocks (the four stride phases of a 66 x 66 padded picture, 33 x 33 each), the nine fused
  tap matrices (the three kw taps stacked along the contraction) and the bias row. The body loads 27 shifted
  32 x 32 tap tiles, fuses each three along the channels, multiplies with a fused tap matrix, adds the bias
  and stores the result block whole; `rout` names that stored value.
-/
import proofs.«108319_g2000506355603382_pallasbulk_1083_2_alg».proof.Proof.Gen.ReferenceIdeal.Launch
import proofs.«108319_g2000506355603382_pallasbulk_1083_2_alg».proof.Proof.Gen.ReferenceIdeal.Skeleton
import proofs.«108319_g2000506355603382_pallasbulk_1083_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rT000 : Rect S1x4x33x33x128 := Rect.unit (s := S1x4x33x33x128) ![0, 0, 0, 0, 0] S1x1x32x32x128.size inb_S1x4x33x33x128_S1x1x32x32x128_0_0_0_0_0
abbrev rT100 : Rect S1x4x33x33x128 := Rect.unit (s := S1x4x33x33x128) ![0, 1, 0, 0, 0] S1x1x32x32x128.size inb_S1x4x33x33x128_S1x1x32x32x128_0_1_0_0_0
abbrev rT001 : Rect S1x4x33x33x128 := Rect.unit (s := S1x4x33x33x128) ![0, 0, 0, 1, 0] S1x1x32x32x128.size inb_S1x4x33x33x128_S1x1x32x32x128_0_0_0_1_0
abbrev rT200 : Rect S1x4x33x33x128 := Rect.unit (s := S1x4x33x33x128) ![0, 2, 0, 0, 0] S1x1x32x32x128.size inb_S1x4x33x33x128_S1x1x32x32x128_0_2_0_0_0
abbrev rT300 : Rect S1x4x33x33x128 := Rect.unit (s := S1x4x33x33x128) ![0, 3, 0, 0, 0] S1x1x32x32x128.size inb_S1x4x33x33x128_S1x1x32x32x128_0_3_0_0_0
abbrev rT201 : Rect S1x4x33x33x128 := Rect.unit (s := S1x4x33x33x128) ![0, 2, 0, 1, 0] S1x1x32x32x128.size inb_S1x4x33x33x128_S1x1x32x32x128_0_2_0_1_0
abbrev rT010 : Rect S1x4x33x33x128 := Rect.unit (s := S1x4x33x33x128) ![0, 0, 1, 0, 0] S1x1x32x32x128.size inb_S1x4x33x33x128_S1x1x32x32x128_0_0_1_0_0
abbrev rT110 : Rect S1x4x33x33x128 := Rect.unit (s := S1x4x33x33x128) ![0, 1, 1, 0, 0] S1x1x32x32x128.size inb_S1x4x33x33x128_S1x1x32x32x128_0_1_1_0_0
abbrev rT011 : Rect S1x4x33x33x128 := Rect.unit (s := S1x4x33x33x128) ![0, 0, 1, 1, 0] S1x1x32x32x128.size inb_S1x4x33x33x128_S1x1x32x32x128_0_0_1_1_0
abbrev rW0 : Rect S9x384x128 := Rect.unit (s := S9x384x128) ![0, 0, 0] S1x384x128.size inb_S9x384x128_S1x384x128_0_0_0
abbrev rW1 : Rect S9x384x128 := Rect.unit (s := S9x384x128) ![1, 0, 0] S1x384x128.size inb_S9x384x128_S1x384x128_1_0_0
abbrev rW2 : Rect S9x384x128 := Rect.unit (s := S9x384x128) ![2, 0, 0] S1x384x128.size inb_S9x384x128_S1x384x128_2_0_0
abbrev rW3 : Rect S9x384x128 := Rect.unit (s := S9x384x128) ![3, 0, 0] S1x384x128.size inb_S9x384x128_S1x384x128_3_0_0
abbrev rW4 : Rect S9x384x128 := Rect.unit (s := S9x384x128) ![4, 0, 0] S1x384x128.size inb_S9x384x128_S1x384x128_4_0_0
abbrev rW5 : Rect S9x384x128 := Rect.unit (s := S9x384x128) ![5, 0, 0] S1x384x128.size inb_S9x384x128_S1x384x128_5_0_0
abbrev rW6 : Rect S9x384x128 := Rect.unit (s := S9x384x128) ![6, 0, 0] S1x384x128.size inb_S9x384x128_S1x384x128_6_0_0
abbrev rW7 : Rect S9x384x128 := Rect.unit (s := S9x384x128) ![7, 0, 0] S1x384x128.size inb_S9x384x128_S1x384x128_7_0_0
abbrev rW8 : Rect S9x384x128 := Rect.unit (s := S9x384x128) ![8, 0, 0] S1x384x128.size inb_S9x384x128_S1x384x128_8_0_0
abbrev rB : Rect S1x128 := Rect.unit (s := S1x128) ![0, 0] S1x128.size inb_S1x128_S1x128_0_0
abbrev rO : Rect S1x32x32x128 := Rect.unit (s := S1x32x32x128) ![0, 0, 0, 0] S1x32x32x128.size inb_S1x32x32x128_S1x32x32x128_0_0_0_0

/-! ## The stored value -/

/-- What the body stores into the output block, as a function of the three frame blocks `x0 x1 x2`
    (time taps 0, 1, 2), the fused tap matrices `w` and the bias row `b`. -/
def rout (x0 x1 x2 : Vec F S1x4x33x33x128 .f32) (w : Vec F S9x384x128 .f32) (b : Vec F S1x128 .f32) : FVec F S1x32x32x128 .f32 :=
  k0_pay1 (k0_pay13 (k0_pay10 (k0_pay6 (k0_pay4 (k0_pay2 (View.ld x0 rT000) (View.ld x0 rT100) (View.ld x0 rT001) (View.ld w rW0)) (k0_pay3 (View.ld x0 rT200) (View.ld x0 rT300) (View.ld x0 rT201)) (View.ld w rW1) (View.ld x0 rT010) (View.ld x0 rT110) (View.ld x0 rT011) (View.ld w rW2)) (k0_pay5 (View.ld x1 rT000) (View.ld x1 rT100) (View.ld x1 rT001)) (View.ld w rW3) (View.ld x1 rT200) (View.ld x1 rT300) (View.ld x1 rT201) (View.ld w rW4)) (k0_pay7 (View.ld x1 rT010)) (k0_pay8 (View.ld x1 rT110)) (k0_pay9 (View.ld x1 rT011)) (View.ld w rW5) (View.ld x2 rT000) (View.ld x2 rT100) (View.ld x2 rT001) (View.ld w rW6)) (k0_pay11 (View.ld x2 rT200)) (k0_pay12 (View.ld x2 rT300)) (View.ld x2 rT201) (View.ld w rW7) (View.ld x2 rT010) (View.ld x2 rT110) (View.ld x2 rT011) (View.ld w rW8) (View.ld b rB))

/-- The output block after the body: its one store, which covers the block. -/
def out5 (x0 x1 x2 : Vec F S1x4x33x33x128 .f32) (w : Vec F S9x384x128 .f32) (b : Vec F S1x128 .f32) : Vec F S1x32x32x128 .f32 :=
  View.canon [⟨rO, rout x0 x1 x2 w b⟩]

theorem cover5 (p0 : Vec F S1x32x32x128 .f32) (y : S1x32x32x128.Idx) :
    ∃ pc ∈ ([⟨rO, p0⟩] : List (View.Piece (Elt F) S1x32x32x128 .f32)), y ∈ pc.1.set :=
  View.cover_of_tiled [⟨rO, p0⟩] S1x32x32x128.size (by rfl) y

/-! ## The body's run -/

set_option maxHeartbeats 4000000 in
/-- On whole staging blocks, the inputs at contents `x0 x1 x2 w b` and the output at anything, the body runs to the
    continuation holding the inputs as they were and the output block at `out5` of them. -/
theorem sound_kernel (c : Dev nD) (E : Set ℕ) (i : grid0.Coords)
    (arg2 : Memref sig .tc .vmem S1x4x33x33x128 .f32) (harg2 : arg2.IsWhole) (arg3 : Memref sig .tc .vmem S1x4x33x33x128 .f32) (harg3 : arg3.IsWhole)
    (arg4 : Memref sig .tc .vmem S1x4x33x33x128 .f32) (harg4 : arg4.IsWhole) (arg5 : Memref sig .tc .vmem S9x384x128 .f32) (harg5 : arg5.IsWhole)
    (arg6 : Memref sig .tc .vmem S1x128 .f32) (harg6 : arg6.IsWhole) (arg7 : Memref sig .tc .vmem S1x32x32x128 .f32) (harg7 : arg7.IsWhole)
    (x0 x1 x2 : Vec F S1x4x33x33x128 .f32) (w : Vec F S9x384x128 .f32) (b : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare w ∗ owns (c : Thread nD τ) arg6 fullShare b ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare w ∗ owns (c : Thread nD τ) arg6 fullShare b
            ∗ owns (c : Thread nD τ) arg7 fullShare (out5 x0 x1 x2 w b)) -∗ K ⟨⟩))
      ⊢ wp frame (wpE (defs₀ (F := F)) Variants.none c none) E (cc0__causal_conv3d_kernel i arg2 harg2 arg3 harg3 arg4 harg4 arg5 harg5 arg6 harg6 arg7 harg7) K := by
  simp only [cc0__causal_conv3d_kernel_eq_skeleton]; unfold cc0__causal_conv3d_kernel_skel
  simp only [k0_part5_eq_skeleton]; unfold k0_part5_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

end Cert.ReferenceIdeal.Hand

end
-- ==== Proof.RIDat.lean ====
/-
  The proof data of the reference convolution kernel's one pipeline: the arrays as the region finds them (after the
  host's causal front padding, spatial zero padding, stride-phase split and weight re-layout), each window's block at
  a grid point, what the body leaves in every staging block, and the body obligation at every point. The phase-split
  frame array is handed to the kernel through three windows (time taps 0, 1, 2), so its full share is dealt among them.
-/
import proofs.«108319_g2000506355603382_pallasbulk_1083_2_alg».proof.Proof.RIBody

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the seven host stretches before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The region's invariant: the core's scoped buffers that are no staging buffer (there are none). -/
abbrev ΦK (c : Dev nD) : sProp 𝕄 :=
  Pipeline.scopedRest (Ix := Unit) (Name := ℕ) (U := UR sig nD τ) (Lvl := ℕ) (Val := Elt F) spec0 c

/-- The share of its array each input window holds: the frame array's full share dealt to its three windows. -/
abbrev qK : Fin cfg0.W → PosShare TreeShare := fun
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := ΦK c
  q := qK
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- Input window 0's current staging block holds its block at every point, for any proof data whose array is the
    region-entry contents and whose body leaves the block in place: where the window is not fetched its block index
    has not moved, and the block left at the point before is this point's. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging block holds its block at every point, for any proof data whose array is the
    region-entry contents and whose body leaves the block in place: where the window is not fetched its block index
    has not moved, and the block left at the point before is this point's. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging block holds its block at every point, for any proof data whose array is the
    region-entry contents and whose body leaves the block in place: where the window is not fetched its block index
    has not moved, and the block left at the point before is this point's. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging block holds its block at every point, for any proof data whose array is the
    region-entry contents and whose body leaves the block in place: where the window is not fetched its block index
    has not moved, and the block left at the point before is this point's. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging block holds its block at every point, for any proof data whose array is the
    region-entry contents and whose body leaves the block in place: where the window is not fetched its block index
    has not moved, and the block left at the point before is this point's. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each input window's current staging block holds its array's block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input blocks hold their arrays' blocks, so the body's run applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.ReferenceIdeal.Hand

end
-- ==== Proof.RILaunch.lean ====
/-
  The launch of the reference program: @main is seven host stretches (the activations to channels-last, two copies of
  the first frame put in front, a spatial zero border, the split into the four stride phases, the weights to nine fused
  tap matrices, the bias to a row), one kernel region on a 2 x 8 grid whose first three windows read ONE array at three
  time taps, and a host reshape and transpose of the region's result. The run: every weakly fair execution terminates,
  the arguments end unchanged, and the result buffer ends at the host operations' value of the region's output array as
  the pipeline library computes it.
-/
import proofs.«108319_g2000506355603382_pallasbulk_1083_2_alg».proof.Proof.RIDat
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- Core `c`'s buffer contents when the region is left: as it was entered, but for the output array, which holds
    what the write-backs of all grid points left. -/
def Wexit (c : Dev nD) : Valuation τ sig (Elt F) := fun b =>
  if h : Proc.devRef .tc main_v14 = b then
    cast (congrArg (fun b' : DevRef τ sig => b'.ty.Contents (Elt F)) h) ((dats m 0 c).arrAt 5 cfg0.N)
  else V0 m c b

theorem Wexit_out (c : Dev nD) : Wexit m c (Proc.devRef .tc main_v14) = (dats m 0 c).arrAt 5 cfg0.N := by
  unfold Wexit; rw [dif_pos rfl]; rfl

theorem Wexit_of_ne (c : Dev nD) (b : DevRef τ sig) (hb : Proc.devRef .tc main_v14 ≠ b) : Wexit m c b = V0 m c b := by
  unfold Wexit; rw [dif_neg hb]

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations before the region allocate nothing, stretch by stretch. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
/-- Nor do the reshape and the transpose after the region. -/
theorem hostOps1_fresh : (hostOps1 : List (HloOp τ sig (Elt F))).Forall fun op => op.fresh = ∅ := by
  simp only [List.Forall]; repeat' constructor

/-- @main around the region: the seven host stretches, the region, the host reshape and transpose; it reduces to the
    region continued by those two, the buffers at their contents after the seven stretches. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-! ## The region's arrays from the buffers behind them -/

/-- The distinct buffers behind the windows' arrays, one by one: the phase-split frame array, the fused tap matrices,
    the bias row and the output array. -/
theorem arrBufs_chain (c : Dev nD) :
    (Pipeline.arrBufs (Ix := Unit) (Name := ℕ) (U := UR sig nD τ) (Lvl := ℕ) spec0 c (V m c) : sProp 𝕄)
      = iprop((((c : Thread nD τ).loc main_v8) ↦{fullShare} V m c main_v8) ∗ (((c : Thread nD τ).loc main_v11) ↦{fullShare} V m c main_v11)
          ∗ (((c : Thread nD τ).loc main_v13) ↦{fullShare} V m c main_v13) ∗ (((c : Thread nD τ).loc main_v14) ↦{fullShare} V m c main_v14)) := by
  unfold Pipeline.arrBufs
  exact bigSep_eq_bigSepL_of_eq [main_v8, main_v11, main_v13, main_v14] (by decide) (by decide) _

/-- The windows' arrays, one by one, each a whole buffer at its window's share: the frame array three times, at the
    left, right-left and right-right parts of the full share. -/
theorem arrays_chain (c : Dev nD) (n : Nat) :
    ((dats m 0 c).arrays ((dats m 0 c).arrAt · n) : sProp 𝕄)
      = iprop((((c : Thread nD τ).loc main_v8) ↦{fullShare.left} (dats m 0 c).arrAt 0 n)
          ∗ (((c : Thread nD τ).loc main_v8) ↦{fullShare.right.left} (dats m 0 c).arrAt 1 n)
          ∗ (((c : Thread nD τ).loc main_v8) ↦{fullShare.right.right} (dats m 0 c).arrAt 2 n)
          ∗ (((c : Thread nD τ).loc main_v11) ↦{fullShare} (dats m 0 c).arrAt 3 n)
          ∗ (((c : Thread nD τ).loc main_v13) ↦{fullShare} (dats m 0 c).arrAt 4 n)
          ∗ (((c : Thread nD τ).loc main_v14) ↦{fullShare} (dats m 0 c).arrAt 5 n)) := by
  unfold Dat.arrays
  rw [show (bigSep Finset.univ fun w : Fin cfg0.W => ((cfg0.win w).arr.view.loc (c.tc : Thread nD τ) ↦[(cfg0.win w).arr.view.set]{(dats m 0 c).share w} (dats m 0 c).arrAt w n : sProp 𝕄))
      = bigSep Finset.univ fun w : Fin cfg0.W => (((c.tc : Thread nD τ).loc (Pipeline.arrRef spec0 w)) ↦{(dats m 0 c).share w} (dats m 0 c).arrAt w n : sProp 𝕄)
    from bigSep_congr fun w _ => by rw [(arr_whole0 w).set_eq_univ]]
  rw [bigSep_W0]
  rfl

/-- The four buffers behind the six windows' arrays, whole at the full share as the region finds them, make the
    windows' arrays at entry: the frame array's full share is dealt left, right-left, right-right to its three
    windows; the tap matrices, the bias and the output array are each one window's, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : (dats m 0 c).arrAt 0 0 = V m c main_v8 := A_eq m c 0
  have e1 : (dats m 0 c).arrAt 1 0 = V m c main_v8 := A_eq m c 1
  have e2 : (dats m 0 c).arrAt 2 0 = V m c main_v8 := A_eq m c 2
  have e3 : (dats m 0 c).arrAt 3 0 = V m c main_v11 := A_eq m c 3
  have e4 : (dats m 0 c).arrAt 4 0 = V m c main_v13 := A_eq m c 4
  have e5 : (dats m 0 c).arrAt 5 0 = V m c main_v14 := A_eq m c 5
  rw [arrBufs_chain, arrays_chain, e0, e1, e2, e3, e4, e5]
  iintro ⟨H8, H11, H13, H14⟩
  ihave H8' := ((pointsTo_share (PosShare.mem_left_op_right fullShare)).1) $$ H8
  icases H8' with ⟨H8l, H8r⟩
  ihave H8'' := ((pointsTo_share (PosShare.mem_left_op_right fullShare.right)).1) $$ H8r
  icases H8'' with ⟨H8rl, H8rr⟩
  isplitl [H8l]; · iexact H8l
  isplitl [H8rl]; · iexact H8rl
  isplitl [H8rr]; · iexact H8rr
  isplitl [H11]; · iexact H11
  isplitl [H13]; · iexact H13
  iexact H14

/-! ## The buffers that bypass the region -/

/-- The twenty-two unscoped buffers that are no window's array, whole at the contents the region finds them at, but
    for the reshaped result and the result buffer, at `X` and `Y`. -/
def restAt (c : Dev nD) (X : Buf (Elt F) ((c : Thread nD τ).loc main_v15)) (Y : Buf (Elt F) ((c : Thread nD τ).loc main_v16)) : sProp 𝕄 :=
  iprop((((c : Thread nD τ).loc main_arg0) ↦{fullShare} V m c main_arg0)
    ∗ (((c : Thread nD τ).loc main_arg1) ↦{fullShare} V m c main_arg1)
    ∗ (((c : Thread nD τ).loc main_arg2) ↦{fullShare} V m c main_arg2)
    ∗ (((c : Thread nD τ).loc main_v0) ↦{fullShare} V m c main_v0)
    ∗ (((c : Thread nD τ).loc main_v1) ↦{fullShare} V m c main_v1)
    ∗ (((c : Thread nD τ).loc main_v2) ↦{fullShare} V m c main_v2)
    ∗ (((c : Thread nD τ).loc main_v3) ↦{fullShare} V m c main_v3)
    ∗ (((c : Thread nD τ).loc main_v4) ↦{fullShare} V m c main_v4)
    ∗ (((c : Thread nD τ).loc main_c) ↦{fullShare} V m c main_c)
    ∗ (((c : Thread nD τ).loc main_call0_v0) ↦{fullShare} V m c main_call0_v0)
    ∗ (((c : Thread nD τ).loc main_v5) ↦{fullShare} V m c main_v5)
    ∗ (((c : Thread nD τ).loc main_v6) ↦{fullShare} V m c main_v6)
    ∗ (((c : Thread nD τ).loc main_v7) ↦{fullShare} V m c main_v7)
    ∗ (((c : Thread nD τ).loc main_v9) ↦{fullShare} V m c main_v9)
    ∗ (((c : Thread nD τ).loc main_v10) ↦{fullShare} V m c main_v10)
    ∗ (((c : Thread nD τ).loc main_c_0) ↦{fullShare} V m c main_c_0)
    ∗ (((c : Thread nD τ).loc main_call1_v0) ↦{fullShare} V m c main_call1_v0)
    ∗ (((c : Thread nD τ).loc main_c_1) ↦{fullShare} V m c main_c_1)
    ∗ (((c : Thread nD τ).loc main_call2_v0) ↦{fullShare} V m c main_call2_v0)
    ∗ (((c : Thread nD τ).loc main_v12) ↦{fullShare} V m c main_v12)
    ∗ (((c : Thread nD τ).loc main_v15) ↦{fullShare} X) ∗ (((c : Thread nD τ).loc main_v16) ↦{fullShare} Y))

/-- As the region finds them they are the library's rest of the unscoped buffers. -/
theorem restAt_entry (c : Dev nD) :
    (Pipeline.unscopedRest (Ix := Unit) (Name := ℕ) (U := UR sig nD τ) (Lvl := ℕ) spec0 c (V m c) : sProp 𝕄) = restAt m c (V m c main_v15) (V m c main_v16) :=
  unscopedRest0_eq c (V m c)

/-! ## The host reshape and transpose after the region -/

/-- The output array, the reshaped result and the result buffer: all the two operations touch. -/
abbrev outRefs : Finset (DevRef τ sig) := {Proc.devRef .tc main_v14, Proc.devRef .tc main_v15, Proc.devRef .tc main_v16}

/-- The three held whole at contents `W`, one by one. -/
theorem held_out (c : Dev nD) (W : Valuation τ sig (Elt F)) :
    (StableHlo.held (c.tc : Thread nD τ) outRefs W : sProp 𝕄)
      = iprop((((c : Thread nD τ).loc main_v14) ↦{fullShare} W (Proc.devRef .tc main_v14))
          ∗ (((c : Thread nD τ).loc main_v15) ↦{fullShare} W (Proc.devRef .tc main_v15))
          ∗ (((c : Thread nD τ).loc main_v16) ↦{fullShare} W (Proc.devRef .tc main_v16))) := by
  unfold StableHlo.held outRefs
  rw [bigSep_insert (by
      rw [Finset.mem_insert, Finset.mem_singleton, not_or]
      exact ⟨StableHlo.devRef_ne_of_ne (by decide), StableHlo.devRef_ne_of_ne (by decide)⟩),
    bigSep_insert (Finset.notMem_singleton.mpr (StableHlo.devRef_ne_of_ne (by decide))), bigSep_singleton]
  rfl

/-- Neither operation writes the output array: after them the array is as the region left it. -/
theorem after_out (c : Dev nD) :
    StableHlo.after hostOps1 (Wexit m c) (Proc.devRef .tc main_v14) = (dats m 0 c).arrAt 5 cfg0.N := by
  rw [StableHlo.after_of_forall_not_mem (b := Proc.devRef .tc main_v14) _ _ (List.forall_iff_forall_mem.mp (by
    simp only [hostOps1, List.Forall, StableHlo.unary_writes, StableHlo.reshape_writes, Finset.mem_singleton]
    exact ⟨StableHlo.devRef_ne_of_ne (by decide), StableHlo.devRef_ne_of_ne (by decide)⟩)), Wexit_out]

/-- The three at the region's exit: the output array as the write-backs left it, the other two as the region found them. -/
theorem held_exit (c : Dev nD) :
    (StableHlo.held (c.tc : Thread nD τ) outRefs (Wexit m c) : sProp 𝕄)
      = iprop((((c : Thread nD τ).loc main_v14) ↦{fullShare} (dats m 0 c).arrAt 5 cfg0.N)
          ∗ (((c : Thread nD τ).loc main_v15) ↦{fullShare} V m c main_v15) ∗ (((c : Thread nD τ).loc main_v16) ↦{fullShare} V m c main_v16)) := by
  rw [held_out, Wexit_out, Wexit_of_ne m c (Proc.devRef .tc main_v15) (StableHlo.devRef_ne_of_ne (by decide)),
    Wexit_of_ne m c (Proc.devRef .tc main_v16) (StableHlo.devRef_ne_of_ne (by decide))]

/-- The three after the two operations: the output array unchanged, the reshaped result and the result buffer at the
    operations' values. -/
theorem held_done (c : Dev nD) :
    (StableHlo.held (c.tc : Thread nD τ) outRefs (StableHlo.after (List.flatten [hostOps1]) (Wexit m c)) : sProp 𝕄)
      = iprop((((c : Thread nD τ).loc main_v14) ↦{fullShare} (dats m 0 c).arrAt 5 cfg0.N)
          ∗ (((c : Thread nD τ).loc main_v15) ↦{fullShare} StableHlo.after hostOps1 (Wexit m c) (Proc.devRef .tc main_v15))
          ∗ (((c : Thread nD τ).loc main_v16) ↦{fullShare} StableHlo.after hostOps1 (Wexit m c) (Proc.devRef .tc main_v16))) := by
  rw [held_out, show List.flatten [hostOps1 (F := F)] = hostOps1 from List.append_nil _, after_out]

/-- The two operations touch only the output array, the reshaped result and the result buffer. -/
theorem sfx_sub : ∀ ops ∈ ([hostOps1] : List (List (HloOp τ sig (Elt F)))), ∀ op ∈ ops, op.bufs ⊆ outRefs := by
  intro ops hops op hop
  simp only [List.mem_cons, List.mem_nil_iff, or_false] at hops
  subst hops
  simp only [hostOps1, List.mem_cons, List.mem_nil_iff, or_false] at hop
  rcases hop with rfl | rfl
  · intro b hb
    rw [StableHlo.reshape_bufs, Finset.mem_insert, Finset.mem_singleton] at hb
    rw [Finset.mem_insert, Finset.mem_insert, Finset.mem_singleton]
    rcases hb with rfl | rfl
    · exact Or.inl rfl
    · exact Or.inr (Or.inl rfl)
  · intro b hb
    rw [StableHlo.unary_bufs, Finset.mem_insert, Finset.mem_singleton] at hb
    rw [Finset.mem_insert, Finset.mem_insert, Finset.mem_singleton]
    rcases hb with rfl | rfl
    · exact Or.inr (Or.inl rfl)
    · exact Or.inr (Or.inr rfl)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the reshape of the output array and the transpose into the result buffer run, and hand back
    the arrays as the region left them and the bypassing buffers with the reshaped result and the result buffer at the
    operations' values. -/
theorem htail (c : Dev nD) (Q' : PUnit → sProp 𝕄) :
    iprop((iprop((dats m 0 c).arrays ((dats m 0 c).arrAt · cfg0.N)
              ∗ restAt m c (StableHlo.after hostOps1 (Wexit m c) (Proc.devRef .tc main_v15)) (StableHlo.after hostOps1 (Wexit m c) (Proc.devRef .tc main_v16))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [restAt_entry, arrays_chain]
  unfold restAt
  show _ ⊢ wp frame (wpE (Pipeline.defs (pcfgs (F := F)) defs₀) (Variants.lift Variants.none) (c : Thread nD τ) none) Set.univ
      (Pipeline.chain (([hostOps1] : List (List (HloOp τ sig (Elt F)))).map StableHlo.seq ++ [])) Q'
  iintro ⟨Hk, Hb, ⟨A0, A1, A2, A3, A4, A5⟩, ⟨R0, R1, R2, R3, R4, R5, R6, R7, R8, R9, R10, R11, R12, R13, R14, R15, R16, R17, R18, R19, Rx, Ry⟩⟩
  ihave Hh := (Entails.of_eq (held_exit m c).symm) $$ [A5 Rx Ry]
  · isplitl [A5]; · iexact A5
    isplitl [Rx]; · iexact Rx
    iexact Ry
  iapply (Pipeline.wp_seqs_then (pcfgs (F := F)) defs₀ Variants.none c outRefs [] [hostOps1] sfx_sub sfx_fresh (Wexit m c)) $$ [Hb Hh]
  · isplitl [Hb]; · iexact Hb
    iexact Hh
  iintro ⟨Hb, Hh⟩
  rw [Pipeline.chain_nil, wp_pure]
  imodintro
  ihave Hh' := (Entails.of_eq (held_done m c)) $$ Hh
  icases Hh' with ⟨A5, Rx, Ry⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [Rx]; · iexact Rx
  iexact Ry

/-! ## The final memory -/

/-- What the run's post says of core `c`. -/
def QY (c : Dev nD) (s : MemSt nD τ sig (Elt F)) : Prop :=
  s.mem ((c.tc : Thread nD τ).loc main_v16) = StableHlo.after hostOps1 (Wexit m c) (Proc.devRef .tc main_v16)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

/-- The bypassing buffers held whole fix the memory at the result buffer and at the three arguments. -/
theorem hY (c : Dev nD) (s' : Phys nD τ sig (Elt F)) :
    iprop((BI.emp : sProp 𝕄) ∗ restAt m c (StableHlo.after hostOps1 (Wexit m c) (Proc.devRef .tc main_v15)) (StableHlo.after hostOps1 (Wexit m c) (Proc.devRef .tc main_v16)) ∗ SI s')
      ⊢ |={Set.univ}=> iprop(⌜QY m c s'.mem⌝ ∗ SI s') := by
  unfold restAt
  rw [V_main_arg0, V_main_arg1, V_main_arg2]
  iintro ⟨-, ⟨H0, H1, H2, -, -, -, -, -, -, -, -, -, -, -, -, -, -, -, -, -, -, H16⟩, HSI⟩
  icombine HSI H0 gives %h0
  icombine HSI H1 gives %h1
  icombine HSI H2 gives %h2
  icombine HSI H16 gives %h16
  imodintro
  isplitr
  · ipureintro
    exact ⟨Buf.eq_of_forall_mem_univ h16, Buf.eq_of_forall_mem_univ h0, Buf.eq_of_forall_mem_univ h1, Buf.eq_of_forall_mem_univ h2⟩
  iexact HSI

set_option backward.isDefEq.respectTransparency.types false in
/-- THE RUN. -/
theorem run_main : θ_run defs (onTc (τ := τ) (main (F := F))) (s₀ m ρ) (fun r => ∀ c : Dev nD,
      r.2.mem ((c.tc : Thread nD τ).loc main_v16) = StableHlo.after hostOps1 (Wexit m c) (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_noSem_pf_tail (fun q => (cfgs q).toPCfg) (fun q => (cfgs q).toPCfg_adm) (dats m) () cellOf_inj 0
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => restAt m c (StableHlo.after hostOps1 (Wexit m c) (Proc.devRef .tc main_v15)) (StableHlo.after hostOps1 (Wexit m c) (Proc.devRef .tc main_v16)))
    (hX := fun c => by
      rw [Pipeline.unscopedRestP_none]
      iintro H; isplitr; · iempintro
      iexact H)
    (hin := fun c => by
      iintro ⟨-, -, HR⟩
      iapply (show (Pipeline.scopedRest (Ix := Unit) (Name := ℕ) (U := UR sig nD τ) (Lvl := ℕ) (Val := Elt F) spec0 c : sProp 𝕄) ⊢ (dats m 0 c).Φ 0 from by
        dsimp only [dats]; exact .rfl)
      iexact HR)
    (hout := fun c => by
      iintro HR; isplitr; · iempintro
      iapply (show (dats m 0 c).Φ (Fin.last cfg0.N) ⊢ (Pipeline.scopedRest (Ix := Unit) (Name := ℕ) (U := UR sig nD τ) (Lvl := ℕ) (Val := Elt F) spec0 c : sProp 𝕄) from by
        dsimp only [dats]; exact .rfl)
      iexact HR)
    (htail := htail m)
    (QY := QY m)
    (hY := hY m)
    (hQ := fun s h c => (h c).2.2)

end Cert.ReferenceIdeal.Hand

end
-- ==== Proof.RIArr.lean ====
/-
  From the pipeline's account of the output array to the body's stored value: the result buffer at
  (n, co, t, ho, wo) is what grid point (n, t) stored at (ho, wo, co) of its output block, a function of the blocks that
  point read; and those blocks are the padded frames 2t + kt of clip n (row n * 18 + 2t + kt of the phase-split
  array), all the fused tap matrices, and the bias row.

  The result buffer is the transpose (channels to the front) of the reshape [16, 32, 32, 128] → [2, 8, 32, 32, 128] of the
  region's output array, so its entry (n, co, t, ho, wo) is the output array's entry (n * 8 + t, ho, wo, co). Grid
  point r writes back block r of the output array, one row, whole; so the array after the run is the one function
  `Gout` of the blocks the points read, row r coming from point r, and the sixteen one-row blocks cover it. An input
  block at a point is its array read at block index × block size + the coordinate inside the block on each axis; the
  printed index maps are decided once over the sixteen points.
-/
import proofs.«108319_g2000506355603382_pallasbulk_1083_2_alg».proof.Proof.RILaunch
import proofs.«108319_g2000506355603382_pallasbulk_1083_2_alg».proof.Proof.ConvSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem

variable (m : (ℓ : Loc nD τ sig) → Buf (Elt Ideal) ℓ)

/-- The grid point of clip `n` and output frame `t` (the grid is 2 x 8, row-major). -/
def pt (n : Fin 2) (t : Fin 8) : Fin cfg0.N := ⟨n.val * 8 + t.val, by rw [show cfg0.N = 16 from N_0]; have := n.isLt; have := t.isLt; omega⟩

/-- Row of the phase-split array that time tap `kt` of point (n, t) reads: padded frame 2t + kt of clip n. -/
def prow (n : Fin 2) (t : Fin 8) (kt : Fin 3) : Fin 36 := ⟨n.val * 18 + 2 * t.val + kt.val, by have := n.isLt; have := t.isLt; have := kt.isLt; omega⟩

/-! ## The host operations after the region -/

/-- The result buffer is the transpose of the reshape of the region's output array. -/
theorem tail_eq (c : Dev nD) :
    StableHlo.after hostOps1 (Wexit m c) (Proc.devRef .tc main_v16)
      = transpose S2x128x8x32x32 [0, 4, 1, 2, 3] (shapeCast S2x8x32x32x128 ((dats m 0 c).arrAt 5 cfg0.N : S16x32x32x128.Idx → EReal) shapeCasts_S16x32x32x128_S2x8x32x32x128) transposes_S2x8x32x32x128_S2x128x8x32x32_0_4_1_2_3 := by
  show StableHlo.after hostOps1 _ (Proc.devRef .tc main_v16) = _
  after_results
  rw [Wexit_out]
  rfl

/-- Read at (n, co, t, ho, wo): the output array at row n * 8 + t, position (ho, wo, co). -/
theorem tail_at (c : Dev nD) (n : Fin 2) (co : Fin 128) (t : Fin 8) (ho wo : Fin 32) (r : Fin 16) (hr : r.val = n.val * 8 + t.val) :
    StableHlo.after hostOps1 (Wexit m c) (Proc.devRef .tc main_v16) (ix5 n co t ho wo)
      = ((dats m 0 c).arrAt 5 cfg0.N : S16x32x32x128.Idx → EReal) (ix4 r ho wo co) := by
  rw [tail_eq]
  refine (transpose_apply _ _ _ (ix5 n co t ho wo) (ix5 n t ho wo co) fun b => ?_).trans ?_
  · match b with
    | ⟨0, _⟩ => rfl
    | ⟨1, _⟩ => rfl
    | ⟨2, _⟩ => rfl
    | ⟨3, _⟩ => rfl
    | ⟨4, _⟩ => rfl
  refine shapeCast_apply _ _ (ix5 n t ho wo co) (ix4 r ho wo co) ?_
  rw [Shape.rowMajor_val_four, Shape.rowMajor_val_five]
  show ((r.val * 32 + ho.val) * 32 + wo.val) * 128 + co.val = (((n.val * 8 + t.val) * 32 + ho.val) * 32 + wo.val) * 128 + co.val
  rw [hr]

/-! ## The output array, block by block -/

theorem hz4 : (![0, 0, 0, 0] : Fin 4 → Nat) = fun _ => 0 := funext fun a => by fin_cases a <;> rfl

/-- Row `r` of the output array belongs to grid point `r`. -/
def ptOf (r : Fin 16) : Fin cfg0.N := ⟨r.val, by rw [show cfg0.N = 16 from N_0]; exact r.isLt⟩

/-- The output array as one function of the blocks the points read: row r, position (ho, wo, co) is what point r
    stored at (0, ho, wo, co) of its output block. -/
def Gout (c : Dev nD) : S16x32x32x128.Idx → EReal := fun i =>
  rout (F := Ideal) (iblk m c 0 (ptOf (i 0))) (iblk m c 1 (ptOf (i 0))) (iblk m c 2 (ptOf (i 0))) (iblk m c 3 (ptOf (i 0))) (iblk m c 4 (ptOf (i 0)))
    (ix4 0 (i 1) (i 2) (i 3))

/-- `Gout` at an index of row `t` whose other coordinates are those of the block index `j`. -/
theorem Gout_at (c : Dev nD) (t : Fin cfg0.N) (i : S16x32x32x128.Idx) (j : S1x32x32x128.Idx)
    (h0 : (i 0).val = t.val) (h1 : (i 1).val = (j 1).val) (h2 : (i 2).val = (j 2).val) (h3 : (i 3).val = (j 3).val) :
    Gout m c i = rout (F := Ideal) (iblk m c 0 t) (iblk m c 1 t) (iblk m c 2 t) (iblk m c 3 t) (iblk m c 4 t) j := by
  obtain rfl : t = ptOf (i 0) := Fin.ext h0.symm
  have hj : ix4 (0 : Fin 1) (i 1) (i 2) (i 3) = j := by
    funext a
    match a with
    | ⟨0, _⟩ => exact Fin.ext (by have h : (j 0).val < 1 := (j 0).isLt; show 0 = (j 0).val; omega)
    | ⟨1, _⟩ => exact Fin.ext h1
    | ⟨2, _⟩ => exact Fin.ext h2
    | ⟨3, _⟩ => exact Fin.ext h3
  unfold Gout
  exact congrArg _ hj

/-- The printed index map of the output window, decided over the grid: point `t` writes row `t`. -/
theorem idx_out : ∀ t : Fin cfg0.N, win0_5.index t (0 : Fin 4) = t.val ∧ win0_5.index t (1 : Fin 4) = 0
    ∧ win0_5.index t (2 : Fin 4) = 0 ∧ win0_5.index t (3 : Fin 4) = 0 :=
  (by decide +kernel : ∀ t : Fin grid0.N, _)

/-- What point `t` writes back is block `t` of `Gout`. -/
theorem flushed_eq (c : Dev nD) (t : Fin cfg0.N) :
    (dats m 0 c).flushed 5 t = ((cfg0.win 5).blk t).view.read (Elt Ideal) (Gout m c) := by
  show (cfg0.win 5).cut (grid0.coords t) ((dats m 0 c).after 5 t) = _
  rw [after5]
  unfold out5
  rw [View.canon_unit_zero hz4]
  obtain ⟨e0, e1, e2, e3⟩ := idx_out t
  funext j
  rw [View.read_apply]
  refine (Gout_at m c t _ j ?_ ?_ ?_ ?_).symm
  · show win0_5.index t (0 : Fin 4) * 1 + 1 * (j 0).val = t.val
    have h : (j 0).val < 1 := (j 0).isLt; omega
  · show win0_5.index t (1 : Fin 4) * 32 + 1 * (j 1).val = (j 1).val
    omega
  · show win0_5.index t (2 : Fin 4) * 32 + 1 * (j 2).val = (j 2).val
    omega
  · show win0_5.index t (3 : Fin 4) * 128 + 1 * (j 3).val = (j 3).val
    omega

/-- An index of the output array is in point `t`'s block iff each coordinate is in the block's range on its axis. -/
theorem mem_blk_out (t : Fin cfg0.N) (i : S16x32x32x128.Idx) :
    i ∈ ((cfg0.win 5).blk t).view.set ↔ ∀ a : Fin 4, win0_5.index t a * S1x32x32x128.size a ≤ (i a).val ∧ (i a).val < win0_5.index t a * S1x32x32x128.size a + S1x32x32x128.size a := by
  show i ∈ ((View.whole main_v14).slice (win0_5.rect t)).set ↔ _
  rw [View.set_slice_whole, Rect.mem_set_unit]
  exact Iff.rfl

/-- Every index of the output array is in the block of the point of its row. -/
theorem cover_out (i : S16x32x32x128.Idx) : ∃ t : Fin cfg0.N, (cfg0.win 5).flush t = true ∧ i ∈ ((cfg0.win 5).blk t).view.set := by
  refine ⟨ptOf (i 0), flush0_5 _, ?_⟩
  rw [mem_blk_out]
  obtain ⟨e0, e1, e2, e3⟩ := idx_out (ptOf (i 0))
  have h0 : (ptOf (i 0)).val = (i 0).val := rfl
  have b1 : (i 1).val < 32 := (i 1).isLt
  have b2 : (i 2).val < 32 := (i 2).isLt
  have b3 : (i 3).val < 128 := (i 3).isLt
  intro a
  match a with
  | ⟨0, _⟩ => show win0_5.index (ptOf (i 0)) (0 : Fin 4) * 1 ≤ (i 0).val ∧ (i 0).val < win0_5.index (ptOf (i 0)) (0 : Fin 4) * 1 + 1; omega
  | ⟨1, _⟩ => show win0_5.index (ptOf (i 0)) (1 : Fin 4) * 32 ≤ (i 1).val ∧ (i 1).val < win0_5.index (ptOf (i 0)) (1 : Fin 4) * 32 + 32; omega
  | ⟨2, _⟩ => show win0_5.index (ptOf (i 0)) (2 : Fin 4) * 32 ≤ (i 2).val ∧ (i 2).val < win0_5.index (ptOf (i 0)) (2 : Fin 4) * 32 + 32; omega
  | ⟨3, _⟩ => show win0_5.index (ptOf (i 0)) (3 : Fin 4) * 128 ≤ (i 3).val ∧ (i 3).val < win0_5.index (ptOf (i 0)) (3 : Fin 4) * 128 + 128; omega

/-- The output array after the run. -/
theorem final_out (c : Dev nD) : (dats m 0 c).arrAt 5 cfg0.N = Gout m c :=
  (dats m 0 c).arrAt_eq_of_cover 5 (Gout m c) (fun t _ => flushed_eq m c t) cover_out

/-- The result buffer at an index is the stored value of that index's grid point at the block position. -/
theorem result_at (c : Dev nD) (n : Fin 2) (co : Fin 128) (t : Fin 8) (ho wo : Fin 32) :
    StableHlo.after hostOps1 (Wexit m c) (Proc.devRef .tc main_v16) (ix5 n co t ho wo)
      = rout (F := Ideal) (iblk m c 0 (pt n t)) (iblk m c 1 (pt n t)) (iblk m c 2 (pt n t)) (iblk m c 3 (pt n t)) (iblk m c 4 (pt n t))
          (ix4 0 ho wo co) := by
  have hr : n.val * 8 + t.val < 16 := by have := n.isLt; have := t.isLt; omega
  rw [tail_at m c n co t ho wo ⟨n.val * 8 + t.val, hr⟩ rfl]
  refine (congrFun (final_out m c) _).trans ?_
  exact Gout_at m c (pt n t) _ _ rfl rfl rfl rfl

/-! ## The input blocks -/

/-- The printed index maps of the three frame windows, decided over the grid: time tap `kt` of point `t` reads row
    (t / 8) * 18 + 2 (t mod 8) + kt, whole. -/
theorem idx_frame0 : ∀ t : Fin cfg0.N, win0_0.index t (0 : Fin 5) = t.val / 8 * 18 + 2 * (t.val % 8) + 0 ∧ win0_0.index t (1 : Fin 5) = 0
    ∧ win0_0.index t (2 : Fin 5) = 0 ∧ win0_0.index t (3 : Fin 5) = 0 ∧ win0_0.index t (4 : Fin 5) = 0 :=
  (by decide +kernel : ∀ t : Fin grid0.N, _)
theorem idx_frame1 : ∀ t : Fin cfg0.N, win0_1.index t (0 : Fin 5) = t.val / 8 * 18 + 2 * (t.val % 8) + 1 ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, _)
theorem idx_frame2 : ∀ t : Fin cfg0.N, win0_2.index t (0 : Fin 5) = t.val / 8 * 18 + 2 * (t.val % 8) + 2 ∧ win0_2.index t (1 : Fin 5) = 0
    ∧ win0_2.index t (2 : Fin 5) = 0 ∧ win0_2.index t (3 : Fin 5) = 0 ∧ win0_2.index t (4 : Fin 5) = 0 :=
  (by decide +kernel : ∀ t : Fin grid0.N, _)
/-- The tap matrices' and the bias's windows stay at block 0. -/
theorem idx_w : ∀ t : Fin cfg0.N, win0_3.index t (0 : Fin 3) = 0 ∧ win0_3.index t (1 : Fin 3) = 0 ∧ win0_3.index t (2 : Fin 3) = 0 :=
  (by decide +kernel : ∀ t : Fin grid0.N, _)
theorem idx_b : ∀ t : Fin cfg0.N, win0_4.index t (0 : Fin 2) = 0 ∧ win0_4.index t (1 : Fin 2) = 0 :=
  (by decide +kernel : ∀ t : Fin grid0.N, _)

/-- Block `t` of window 0, read off any contents `A` of the phase-split array at (0, ph, hq, wq, ci), is `A` at row `r`
    when `r` is the window's block index at `t`. -/
theorem blk0_read (A : S36x4x33x33x128.Idx → EReal) (t : Fin cfg0.N) (r : Fin 36) (hr : r.val = t.val / 8 * 18 + 2 * (t.val % 8) + 0)
    (ph : Fin 4) (hq wq : Fin 33) (ci : Fin 128) :
    ((cfg0.win 0).blk t).view.read (Elt Ideal) A (ix5 0 ph hq wq ci) = A (ix5 r ph hq wq ci) := by
  obtain ⟨e0, e1, e2, e3, e4⟩ := idx_frame0 t
  rw [View.read_apply]
  show A _ = A _
  congr 1
  funext a
  apply Fin.ext
  match a with
  | ⟨0, _⟩ => show win0_0.index t (0 : Fin 5) * 1 + 1 * 0 = r.val; omega
  | ⟨1, _⟩ => show win0_0.index t (1 : Fin 5) * 4 + 1 * ph.val = ph.val; omega
  | ⟨2, _⟩ => show win0_0.index t (2 : Fin 5) * 33 + 1 * hq.val = hq.val; omega
  | ⟨3, _⟩ => show win0_0.index t (3 : Fin 5) * 33 + 1 * wq.val = wq.val; omega
  | ⟨4, _⟩ => show win0_0.index t (4 : Fin 5) * 128 + 1 * ci.val = ci.val; omega

/-- Window `kt`'s block at point (n, t) is row n * 18 + 2t + kt of the phase-split activations. -/
theorem iblk_frame0 (c : Dev nD) (n : Fin 2) (t : Fin 8) (ph : Fin 4) (hq wq : Fin 33) (ci : Fin 128) :
    iblk m c 0 (pt n t) (ix5 0 ph hq wq ci) = V m c main_v8 (ix5 (prow n t 0) ph hq wq ci) := by
  unfold iblk
  exact blk0_read (V m c main_v8) (pt n t) (prow n t 0) (by
    have hn := n.isLt
    have ht := t.isLt
    show n.val * 18 + 2 * t.val + 0 = (n.val * 8 + t.val) / 8 * 18 + 2 * ((n.val * 8 + t.val) % 8) + 0
    omega) ph hq wq ci

/-- Block `t` of window 1, read off any contents `A` of the phase-split array at (0, ph, hq, wq, ci), is `A` at row `r`
    when `r` is the window's block index at `t`. -/
theorem blk1_read (A : S36x4x33x33x128.Idx → EReal) (t : Fin cfg0.N) (r : Fin 36) (hr : r.val = t.val / 8 * 18 + 2 * (t.val % 8) + 1)
    (ph : Fin 4) (hq wq : Fin 33) (ci : Fin 128) :
    ((cfg0.win 1).blk t).view.read (Elt Ideal) A (ix5 0 ph hq wq ci) = A (ix5 r ph hq wq ci) := by
  obtain ⟨e0, e1, e2, e3, e4⟩ := idx_frame1 t
  rw [View.read_apply]
  show A _ = A _
  congr 1
  funext a
  apply Fin.ext
  match a with
  | ⟨0, _⟩ => show win0_1.index t (0 : Fin 5) * 1 + 1 * 0 = r.val; omega
  | ⟨1, _⟩ => show win0_1.index t (1 : Fin 5) * 4 + 1 * ph.val = ph.val; omega
  | ⟨2, _⟩ => show win0_1.index t (2 : Fin 5) * 33 + 1 * hq.val = hq.val; omega
  | ⟨3, _⟩ => show win0_1.index t (3 : Fin 5) * 33 + 1 * wq.val = wq.val; omega
  | ⟨4, _⟩ => show win0_1.index t (4 : Fin 5) * 128 + 1 * ci.val = ci.val; omega

theorem iblk_frame1 (c : Dev nD) (n : Fin 2) (t : Fin 8) (ph : Fin 4) (hq wq : Fin 33) (ci : Fin 128) :
    iblk m c 1 (pt n t) (ix5 0 ph hq wq ci) = V m c main_v8 (ix5 (prow n t 1) ph hq wq ci) := by
  unfold iblk
  exact blk1_read (V m c main_v8) (pt n t) (prow n t 1) (by
    have hn := n.isLt
    have ht := t.isLt
    show n.val * 18 + 2 * t.val + 1 = (n.val * 8 + t.val) / 8 * 18 + 2 * ((n.val * 8 + t.val) % 8) + 1
    omega) ph hq wq ci

/-- Block `t` of window 2, read off any contents `A` of the phase-split array at (0, ph, hq, wq, ci), is `A` at row `r`
    when `r` is the window's block index at `t`. -/
theorem blk2_read (A : S36x4x33x33x128.Idx → EReal) (t : Fin cfg0.N) (r : Fin 36) (hr : r.val = t.val / 8 * 18 + 2 * (t.val % 8) + 2)
    (ph : Fin 4) (hq wq : Fin 33) (ci : Fin 128) :
    ((cfg0.win 2).blk t).view.read (Elt Ideal) A (ix5 0 ph hq wq ci) = A (ix5 r ph hq wq ci) := by
  obtain ⟨e0, e1, e2, e3, e4⟩ := idx_frame2 t
  rw [View.read_apply]
  show A _ = A _
  congr 1
  funext a
  apply Fin.ext
  match a with
  | ⟨0, _⟩ => show win0_2.index t (0 : Fin 5) * 1 + 1 * 0 = r.val; omega
  | ⟨1, _⟩ => show win0_2.index t (1 : Fin 5) * 4 + 1 * ph.val = ph.val; omega
  | ⟨2, _⟩ => show win0_2.index t (2 : Fin 5) * 33 + 1 * hq.val = hq.val; omega
  | ⟨3, _⟩ => show win0_2.index t (3 : Fin 5) * 33 + 1 * wq.val = wq.val; omega
  | ⟨4, _⟩ => show win0_2.index t (4 : Fin 5) * 128 + 1 * ci.val = ci.val; omega

theorem iblk_frame2 (c : Dev nD) (n : Fin 2) (t : Fin 8) (ph : Fin 4) (hq wq : Fin 33) (ci : Fin 128) :
    iblk m c 2 (pt n t) (ix5 0 ph hq wq ci) = V m c main_v8 (ix5 (prow n t 2) ph hq wq ci) := by
  unfold iblk
  exact blk2_read (V m c main_v8) (pt n t) (prow n t 2) (by
    have hn := n.isLt
    have ht := t.isLt
    show n.val * 18 + 2 * t.val + 2 = (n.val * 8 + t.val) / 8 * 18 + 2 * ((n.val * 8 + t.val) % 8) + 2
    omega) ph hq wq ci

/-- Every block of the tap-matrix window, read off any contents of its array, is the contents. -/
theorem blk3_read (A : S9x384x128.Idx → EReal) (t : Fin cfg0.N) (k : Fin 9) (j : Fin 384) (co : Fin 128) :
    ((cfg0.win 3).blk t).view.read (Elt Ideal) A (ix3 k j co) = A (ix3 k j co) := by
  obtain ⟨e0, e1, e2⟩ := idx_w t
  rw [View.read_apply]
  show A _ = A _
  congr 1
  funext a
  apply Fin.ext
  match a with
  | ⟨0, _⟩ => show win0_3.index t (0 : Fin 3) * 9 + 1 * k.val = k.val; omega
  | ⟨1, _⟩ => show win0_3.index t (1 : Fin 3) * 384 + 1 * j.val = j.val; omega
  | ⟨2, _⟩ => show win0_3.index t (2 : Fin 3) * 128 + 1 * co.val = co.val; omega

/-- Every block of the bias window, read off any contents of its array, is the contents. -/
theorem blk4_read (A : S1x128.Idx → EReal) (t : Fin cfg0.N) (co : Fin 128) :
    ((cfg0.win 4).blk t).view.read (Elt Ideal) A (ix2 0 co) = A (ix2 0 co) := by
  obtain ⟨e0, e1⟩ := idx_b t
  rw [View.read_apply]
  show A _ = A _
  congr 1
  funext a
  apply Fin.ext
  match a with
  | ⟨0, _⟩ => show win0_4.index t (0 : Fin 2) * 1 + 1 * 0 = 0; omega
  | ⟨1, _⟩ => show win0_4.index t (1 : Fin 2) * 128 + 1 * co.val = co.val; omega

/-- The fused tap matrices' and the bias's windows are their whole arrays at every point. -/
theorem iblk_w (c : Dev nD) (n : Fin 2) (t : Fin 8) (k : Fin 9) (j : Fin 384) (co : Fin 128) :
    iblk m c 3 (pt n t) (ix3 k j co) = V m c main_v11 (ix3 k j co) := by
  unfold iblk
  exact blk3_read (V m c main_v11) (pt n t) k j co
theorem iblk_b (c : Dev nD) (n : Fin 2) (t : Fin 8) (co : Fin 128) :
    iblk m c 4 (pt n t) (ix2 0 co) = V m c main_v13 (ix2 0 co) := by
  unfold iblk
  exact blk4_read (V m c main_v13) (pt n t) co

end Cert.ReferenceIdeal.Hand

end
-- ==== Proof.RIHost.lean ====
/-
  The host operations before the reference's region, read at an index: the phase-split activations are the zero-padded,
  front-padded picture (row q = n * 18 + p is padded frame p of clip n, which is frame max(p - 2, 0); phase ph, cell
  (hq, wq) is padded position (2 hq + ph / 2, 2 wq + ph % 2)); the fused tap matrices are the weights with (kt, kh) on
  the first axis and (kw, ci) fused on the second; the bias row is the bias.

  Each buffer is first written as the composed term of the operations that made it; each operation of that term is
  then read at an index given by coordinates (a transpose permutes them, a reshape keeps the row-major position, the
  concatenation along the frame axis reads the first frame below 2 and frame p - 2 from 2 on, the padding reads the
  picture one cell in and zero on the border), and the readings are chained outermost first.
-/
import proofs.«108319_g2000506355603382_pallasbulk_1083_2_alg».proof.Proof.RIDat
import proofs.«108319_g2000506355603382_pallasbulk_1083_2_alg».proof.Proof.ConvSpec
import Idealize.ShloMosaic.Lib.ValueIdx
import Idealize.ShloMosaic.Lib.ValueIdxRank6
import Idealize.ShloMosaic.Lib.KernelVsHost
import Idealize.ShloMosaic.Lib.ValueLayout
import Idealize.ShloMosaic.Lib.Pipeline.Value
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem

variable (m : (ℓ : Loc nD τ sig) → Buf (Elt Ideal) ℓ)

/-- The padding value: the integer constant zero converted. -/
abbrev zpad : S_.Idx → EReal := (sitofp (F := Idealize.ShloMosaic.Ideal) .f32 (constantI S_ 32 0#32) : FVec Idealize.ShloMosaic.Ideal S_ .f32)

/-- The channels-last video. -/
abbrev t0 (x : S2x128x16x64x64.Idx → EReal) : S2x16x64x64x128.Idx → EReal :=
  transpose S2x16x64x64x128 [0, 2, 3, 4, 1] x transposes_S2x128x16x64x64_S2x16x64x64x128_0_2_3_4_1
/-- Its first frame, twice. -/
abbrev t3 (x : S2x128x16x64x64.Idx → EReal) : S2x2x64x64x128.Idx → EReal :=
  shapeCast S2x2x64x64x128 (broadcastInDim S2x1x2x64x64x128 ![0, 1, 3, 4, 5] bcast_S2x1x64x64x128_S2x1x2x64x64x128_0_1_3_4_5
    (extractStridedSlice S2x1x64x64x128 ![0, 0, 0, 0, 0] (t0 x) slices_S2x16x64x64x128_S2x1x64x64x128_0_0_0_0_0)) shapeCasts_S2x1x2x64x64x128_S2x2x64x64x128
/-- The front-padded video. -/
abbrev t4 (x : S2x128x16x64x64.Idx → EReal) : S2x18x64x64x128.Idx → EReal :=
  concatenate S2x18x64x64x128 1 [⟨S2x2x64x64x128, t3 x⟩, ⟨S2x16x64x64x128, t0 x⟩] concatenates_S2x2x64x64x128_S2x16x64x64x128_S2x18x64x64x128_d1
/-- The spatially padded video. -/
abbrev t5 (x : S2x128x16x64x64.Idx → EReal) : S2x18x66x66x128.Idx → EReal :=
  pad S2x18x66x66x128 ![0, 0, 1, 1, 0] ![0, 0, 1, 1, 0] ![0, 0, 0, 0, 0] (t4 x) zpad pads_S2x18x64x64x128_S2x18x66x66x128_000_000_110_110_000 h_S_
/-- The phase-split video. -/
abbrev t8 (x : S2x128x16x64x64.Idx → EReal) : S36x4x33x33x128.Idx → EReal :=
  shapeCast S36x4x33x33x128 (transpose S2x18x2x2x33x33x128 [0, 1, 3, 5, 2, 4, 6]
    (shapeCast S2x18x33x2x33x2x128 (t5 x) shapeCasts_S2x18x66x66x128_S2x18x33x2x33x2x128)
    transposes_S2x18x33x2x33x2x128_S2x18x2x2x33x33x128_0_1_3_5_2_4_6) shapeCasts_S2x18x2x2x33x33x128_S36x4x33x33x128

/-- The fused tap matrices. -/
abbrev w11 (w : S128x128x3x3x3.Idx → EReal) : S9x384x128.Idx → EReal :=
  pad S9x384x128 ![0, 0, 0] ![0, 0, 0] ![0, 0, 0]
    (shapeCast S9x384x128 (transpose S3x3x3x128x128 [2, 3, 4, 1, 0] w transposes_S128x128x3x3x3_S3x3x3x128x128_2_3_4_1_0) shapeCasts_S3x3x3x128x128_S9x384x128)
    zpad pads_S9x384x128_S9x384x128_000_000_000 h_S_
/-- The bias row. -/
abbrev b13 (b : S128.Idx → EReal) : S1x128.Idx → EReal :=
  shapeCast S1x128 (pad S128 ![0] ![0] ![0] b zpad pads_S128_S128_000 h_S_) shapeCasts_S128_S1x128

/-! ## The buffers as the operations' terms -/

theorem V_v8_term (c : Dev nD) :
    (V m c main_v8 : S36x4x33x33x128.Idx → EReal) = fun i => t8 (m ((c.tc : Thread nD τ).loc main_arg0)) i := by
  dsimp only [V, V0]
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

theorem V_v11_term (c : Dev nD) :
    (V m c main_v11 : S9x384x128.Idx → EReal) = fun i => w11 (m ((c.tc : Thread nD τ).loc main_arg1)) i := by
  dsimp only [V, V0]
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

theorem V_v13_term (c : Dev nD) :
    (V m c main_v13 : S1x128.Idx → EReal) = fun i => b13 (m ((c.tc : Thread nD τ).loc main_arg2)) i := by
  dsimp only [V, V0]
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_eq]
  rfl

/-! ## Rank-7 indices -/

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

section Layout
variable {α : Type}

/-- The last reshape: row `n * 18 + p`, phase `a * 2 + b`. -/
theorem cast8_apply (y : S2x18x2x2x33x33x128.Idx → α) (h : S2x18x2x2x33x33x128.ShapeCasts S36x4x33x33x128)
    (q : Fin 36) (ph : Fin 4) (hq wq : Fin 33) (ci : Fin 128) (n : Fin 2) (p : Fin 18) (a b : Fin 2)
    (e1 : q.val = n.val * 18 + p.val) (e2 : ph.val = a.val * 2 + b.val) :
    shapeCast S36x4x33x33x128 y h (ix5 q ph hq wq ci) = y (ix7 n p a b hq wq ci) :=
  shapeCast_apply y h _ _ (by
    rw [rowMajor_val_seven, Shape.rowMajor_val_five]
    show (((((n.val * 18 + p.val) * 2 + a.val) * 2 + b.val) * 33 + hq.val) * 33 + wq.val) * 128 + ci.val = (((q.val * 4 + ph.val) * 33 + hq.val) * 33 + wq.val) * 128 + ci.val
    omega)

/-- The phase transpose. -/
theorem tr7_apply (y : S2x18x33x2x33x2x128.Idx → α) (h : S2x18x33x2x33x2x128.Transposes [0, 1, 3, 5, 2, 4, 6] S2x18x2x2x33x33x128)
    (n : Fin 2) (p : Fin 18) (a b : Fin 2) (hq wq : Fin 33) (ci : Fin 128) :
    transpose S2x18x2x2x33x33x128 [0, 1, 3, 5, 2, 4, 6] y h (ix7 n p a b hq wq ci) = y (ix7 n p hq a wq b ci) :=
  transpose_apply _ y h _ _ fun c => match c with
    | ⟨0, _⟩ => rfl | ⟨1, _⟩ => rfl | ⟨2, _⟩ => rfl | ⟨3, _⟩ => rfl | ⟨4, _⟩ => rfl | ⟨5, _⟩ => rfl | ⟨6, _⟩ => rfl

/-- The phase split of the two padded spatial axes. -/
theorem cast6_apply (y : S2x18x66x66x128.Idx → α) (h : S2x18x66x66x128.ShapeCasts S2x18x33x2x33x2x128)
    (n : Fin 2) (p : Fin 18) (a b : Fin 2) (hq wq : Fin 33) (ci : Fin 128) (hp wp : Fin 66)
    (e1 : hp.val = 2 * hq.val + a.val) (e2 : wp.val = 2 * wq.val + b.val) :
    shapeCast S2x18x33x2x33x2x128 y h (ix7 n p hq a wq b ci) = y (ix5 n p hp wp ci) :=
  shapeCast_apply y h _ _ (by
    rw [rowMajor_val_seven, Shape.rowMajor_val_five]
    show (((n.val * 18 + p.val) * 66 + hp.val) * 66 + wp.val) * 128 + ci.val = (((((n.val * 18 + p.val) * 33 + hq.val) * 2 + a.val) * 33 + wq.val) * 2 + b.val) * 128 + ci.val
    omega)

end Layout

section Layout2
variable {α : Type}

/-- The channels-last transpose. -/
theorem tr0_apply (x : S2x128x16x64x64.Idx → α) (h : S2x128x16x64x64.Transposes [0, 2, 3, 4, 1] S2x16x64x64x128)
    (n : Fin 2) (t : Fin 16) (hh ww : Fin 64) (ci : Fin 128) :
    transpose S2x16x64x64x128 [0, 2, 3, 4, 1] x h (ix5 n t hh ww ci) = x (ix5 n ci t hh ww) :=
  transpose_apply _ x h _ _ fun c => match c with
    | ⟨0, _⟩ => rfl | ⟨1, _⟩ => rfl | ⟨2, _⟩ => rfl | ⟨3, _⟩ => rfl | ⟨4, _⟩ => rfl

/-- The first frame cut out. -/
theorem slice1_apply (y : S2x16x64x64x128.Idx → α) (h : S2x16x64x64x128.Slices ![0, 0, 0, 0, 0] S2x1x64x64x128)
    (n : Fin 2) (u : Fin 1) (hh ww : Fin 64) (ci : Fin 128) :
    extractStridedSlice S2x1x64x64x128 ![0, 0, 0, 0, 0] y h (ix5 n u hh ww ci) = y (ix5 n (0 : Fin 16) hh ww ci) :=
  extractStridedSlice_apply _ y h _ _ fun c => match c with
    | ⟨0, _⟩ => (Nat.zero_add _).symm
    | ⟨1, _⟩ => by show (0 : ℕ) = 0 + u.val; omega
    | ⟨2, _⟩ => (Nat.zero_add _).symm | ⟨3, _⟩ => (Nat.zero_add _).symm | ⟨4, _⟩ => (Nat.zero_add _).symm

/-- The first frame twice. -/
theorem bcast2_apply (y : S2x1x64x64x128.Idx → α) (h : S2x1x64x64x128.BroadcastsInDim S2x1x2x64x64x128 (![0, 1, 3, 4, 5] : Fin 5 → Fin S2x1x2x64x64x128.rank))
    (n : Fin 2) (u : Fin 1) (r : Fin 2) (hh ww : Fin 64) (ci : Fin 128) :
    broadcastInDim S2x1x2x64x64x128 ![0, 1, 3, 4, 5] h y (ix6 n u r hh ww ci) = y (ix5 n (0 : Fin 1) hh ww ci) :=
  broadcastInDim_apply _ h y _ _ fun c => match c with
    | ⟨0, _⟩ => rfl | ⟨1, _⟩ => rfl | ⟨2, _⟩ => rfl | ⟨3, _⟩ => rfl | ⟨4, _⟩ => rfl

/-- The unit axis dropped. -/
theorem cast3_apply (y : S2x1x2x64x64x128.Idx → α) (h : S2x1x2x64x64x128.ShapeCasts S2x2x64x64x128)
    (n : Fin 2) (r : Fin 2) (hh ww : Fin 64) (ci : Fin 128) :
    shapeCast S2x2x64x64x128 y h (ix5 n r hh ww ci) = y (ix6 n (0 : Fin 1) r hh ww ci) :=
  shapeCast_apply y h _ _ (by
    rw [Shape.rowMajor_val_six, Shape.rowMajor_val_five]
    show ((((n.val * 1 + 0) * 2 + r.val) * 64 + hh.val) * 64 + ww.val) * 128 + ci.val = (((n.val * 2 + r.val) * 64 + hh.val) * 64 + ww.val) * 128 + ci.val
    omega)

/-- The front padding along the frame axis: two copies of the first piece's frames, then the second piece. -/
theorem cat4_apply_lt (y1 : S2x2x64x64x128.Idx → α) (y2 : S2x16x64x64x128.Idx → α)
    (h : Shape.Concatenates [S2x2x64x64x128, S2x16x64x64x128] S2x18x64x64x128 1)
    (n : Fin 2) (p : Fin 18) (hh ww : Fin 64) (ci : Fin 128) (hp : p.val < 2) :
    concatenate S2x18x64x64x128 1 [⟨S2x2x64x64x128, y1⟩, ⟨S2x16x64x64x128, y2⟩] h (ix5 n p hh ww ci)
      = y1 (ix5 n (⟨p.val, hp⟩ : Fin 2) hh ww ci) :=
  concatenate_pair_apply_left (1 : Fin 5) y1 y2 h (ix5 n p hh ww ci) rfl (ix5 n (⟨p.val, hp⟩ : Fin 2) hh ww ci) fun c => match c with
    | ⟨0, _⟩ => rfl | ⟨1, _⟩ => rfl | ⟨2, _⟩ => rfl | ⟨3, _⟩ => rfl | ⟨4, _⟩ => rfl

theorem cat4_apply_ge (y1 : S2x2x64x64x128.Idx → α) (y2 : S2x16x64x64x128.Idx → α)
    (h : Shape.Concatenates [S2x2x64x64x128, S2x16x64x64x128] S2x18x64x64x128 1)
    (n : Fin 2) (p : Fin 18) (hh ww : Fin 64) (ci : Fin 128) (hp : 2 ≤ p.val) :
    concatenate S2x18x64x64x128 1 [⟨S2x2x64x64x128, y1⟩, ⟨S2x16x64x64x128, y2⟩] h (ix5 n p hh ww ci)
      = y2 (ix5 n (⟨p.val - 2, by have := p.isLt; omega⟩ : Fin 16) hh ww ci) :=
  concatenate_pair_apply_right (1 : Fin 5) y1 y2 h (ix5 n p hh ww ci) rfl rfl (ix5 n (⟨p.val - 2, by have := p.isLt; omega⟩ : Fin 16) hh ww ci)
    (fun c => match c with
      | ⟨0, _⟩ => fun _ => rfl
      | ⟨1, _⟩ => fun hne => absurd rfl hne
      | ⟨2, _⟩ => fun _ => rfl | ⟨3, _⟩ => fun _ => rfl | ⟨4, _⟩ => fun _ => rfl)
    (by show p.val - 2 + 2 = p.val; omega)

end Layout2

section Layout3
variable {α : Type}

/-- The spatial padding, inside the picture. -/
theorem pad5_apply_in (y : S2x18x64x64x128.Idx → α) (v : S_.Idx → α)
    (h : S2x18x64x64x128.Pads (![0, 0, 1, 1, 0] : Fin 5 → Nat) ![0, 0, 1, 1, 0] ![0, 0, 0, 0, 0] S2x18x66x66x128) (hu : 0 < S_.numel)
    (n : Fin 2) (p : Fin 18) (hp wp : Fin 66) (ci : Fin 128) (hh ww : Fin 64) (e1 : hp.val = 1 + hh.val) (e2 : wp.val = 1 + ww.val) :
    pad S2x18x66x66x128 ![0, 0, 1, 1, 0] ![0, 0, 1, 1, 0] ![0, 0, 0, 0, 0] y v h hu (ix5 n p hp wp ci) = y (ix5 n p hh ww ci) :=
  pad_apply_of_inside _ _ _ y v h hu _ _ fun c => match c with
    | ⟨0, _⟩ => by show n.val = 0 + n.val * (0 + 1); omega
    | ⟨1, _⟩ => by show p.val = 0 + p.val * (0 + 1); omega
    | ⟨2, _⟩ => by show hp.val = 1 + hh.val * (0 + 1); omega
    | ⟨3, _⟩ => by show wp.val = 1 + ww.val * (0 + 1); omega
    | ⟨4, _⟩ => by show ci.val = 0 + ci.val * (0 + 1); omega

/-- The spatial padding, on the border rows. -/
theorem pad5_apply_outH (y : S2x18x64x64x128.Idx → α) (v : S_.Idx → α)
    (h : S2x18x64x64x128.Pads (![0, 0, 1, 1, 0] : Fin 5 → Nat) ![0, 0, 1, 1, 0] ![0, 0, 0, 0, 0] S2x18x66x66x128) (hu : 0 < S_.numel)
    (n : Fin 2) (p : Fin 18) (hp wp : Fin 66) (ci : Fin 128) (e : ¬(1 ≤ hp.val ∧ hp.val ≤ 64)) :
    pad S2x18x66x66x128 ![0, 0, 1, 1, 0] ![0, 0, 1, 1, 0] ![0, 0, 0, 0, 0] y v h hu (ix5 n p hp wp ci) = v (Shape.Idx.first hu) :=
  pad_apply_of_not_inside _ _ _ y v h hu _ (2 : Fin 5) (by
    show ¬(1 ≤ hp.val ∧ (hp.val - 1) % (0 + 1) = 0 ∧ (hp.val - 1) / (0 + 1) < 64)
    intro hc; apply e; have := hc.1; have := hc.2.2; omega)

/-- The spatial padding, on the border columns. -/
theorem pad5_apply_outW (y : S2x18x64x64x128.Idx → α) (v : S_.Idx → α)
    (h : S2x18x64x64x128.Pads (![0, 0, 1, 1, 0] : Fin 5 → Nat) ![0, 0, 1, 1, 0] ![0, 0, 0, 0, 0] S2x18x66x66x128) (hu : 0 < S_.numel)
    (n : Fin 2) (p : Fin 18) (hp wp : Fin 66) (ci : Fin 128) (e : ¬(1 ≤ wp.val ∧ wp.val ≤ 64)) :
    pad S2x18x66x66x128 ![0, 0, 1, 1, 0] ![0, 0, 1, 1, 0] ![0, 0, 0, 0, 0] y v h hu (ix5 n p hp wp ci) = v (Shape.Idx.first hu) :=
  pad_apply_of_not_inside _ _ _ y v h hu _ (3 : Fin 5) (by
    show ¬(1 ≤ wp.val ∧ (wp.val - 1) % (0 + 1) = 0 ∧ (wp.val - 1) / (0 + 1) < 64)
    intro hc; apply e; have := hc.1; have := hc.2.2; omega)

end Layout3

/-- The padding value is zero. -/
theorem zpad_apply (i : S_.Idx) : zpad i = 0 := by
  show (Scalar.sitofp .f32 0#32 : Idealize.ShloMosaic.Ideal .f32) = 0
  exact sitofp_zero

/-! ## The weights' and the bias's layout operations at an index -/

section Weights
variable {α : Type}

/-- The taps-first transpose of the weights. -/
theorem tr9_apply (w : S128x128x3x3x3.Idx → α) (h : S128x128x3x3x3.Transposes [2, 3, 4, 1, 0] S3x3x3x128x128)
    (kt kh kw : Fin 3) (ci co : Fin 128) :
    transpose S3x3x3x128x128 [2, 3, 4, 1, 0] w h (ix5 kt kh kw ci co) = w (ix5 co ci kt kh kw) :=
  transpose_apply _ w h _ _ fun c => match c with
    | ⟨0, _⟩ => rfl | ⟨1, _⟩ => rfl | ⟨2, _⟩ => rfl | ⟨3, _⟩ => rfl | ⟨4, _⟩ => rfl

/-- The fusion of (kt, kh) into the first axis and of (kw, ci) into the second. -/
theorem cast10_apply (y : S3x3x3x128x128.Idx → α) (h : S3x3x3x128x128.ShapeCasts S9x384x128)
    (k : Fin 9) (j : Fin 384) (co : Fin 128) (kt kh kw : Fin 3) (ci : Fin 128)
    (e1 : k.val = kt.val * 3 + kh.val) (e2 : j.val = kw.val * 128 + ci.val) :
    shapeCast S9x384x128 y h (ix3 k j co) = y (ix5 kt kh kw ci co) :=
  shapeCast_apply y h _ _ (by
    rw [Shape.rowMajor_val_five, Shape.rowMajor_val_three]
    show (((kt.val * 3 + kh.val) * 3 + kw.val) * 128 + ci.val) * 128 + co.val = (k.val * 384 + j.val) * 128 + co.val
    omega)

/-- A padding by nothing is the identity (rank 3). -/
theorem pad11_apply (y : S9x384x128.Idx → α) (v : S_.Idx → α)
    (h : S9x384x128.Pads (![0, 0, 0] : Fin 3 → Nat) ![0, 0, 0] ![0, 0, 0] S9x384x128) (hu : 0 < S_.numel)
    (k : Fin 9) (j : Fin 384) (co : Fin 128) :
    pad S9x384x128 ![0, 0, 0] ![0, 0, 0] ![0, 0, 0] y v h hu (ix3 k j co) = y (ix3 k j co) :=
  pad_apply_of_inside _ _ _ y v h hu _ _ fun c => match c with
    | ⟨0, _⟩ => by show k.val = 0 + k.val * (0 + 1); omega
    | ⟨1, _⟩ => by show j.val = 0 + j.val * (0 + 1); omega
    | ⟨2, _⟩ => by show co.val = 0 + co.val * (0 + 1); omega

/-- A padding by nothing is the identity (rank 1). -/
theorem pad12_apply (y : S128.Idx → α) (v : S_.Idx → α)
    (h : S128.Pads (![0] : Fin 1 → Nat) ![0] ![0] S128) (hu : 0 < S_.numel) (co : Fin 128) :
    pad S128 ![0] ![0] ![0] y v h hu (ix1 co) = y (ix1 co) :=
  pad_apply_of_inside _ _ _ y v h hu _ _ fun c => match c with
    | ⟨0, _⟩ => by show co.val = 0 + co.val * (0 + 1); omega

end Weights

/-! ## The terms at an index -/

/-- The front-padded video at an index: frame `p - 2` (truncated), channels first. -/
theorem t4_apply (x : S2x128x16x64x64.Idx → EReal) (n : Fin 2) (p : Fin 18) (hh ww : Fin 64) (ci : Fin 128) :
    t4 x (ix5 n p hh ww ci) = x (ix5 n ci (⟨p.val - 2, by have := p.isLt; omega⟩ : Fin 16) hh ww) := by
  by_cases hp : p.val < 2
  · refine (cat4_apply_lt _ _ _ n p hh ww ci hp).trans ?_
    refine (cast3_apply _ _ n _ hh ww ci).trans ?_
    refine (bcast2_apply _ _ n _ _ hh ww ci).trans ?_
    refine (slice1_apply _ _ n _ hh ww ci).trans ?_
    refine (tr0_apply x _ n _ hh ww ci).trans ?_
    exact congrArg (fun t => x (ix5 n ci t hh ww)) (Fin.ext (by show 0 = p.val - 2; omega))
  · refine (cat4_apply_ge _ _ _ n p hh ww ci (by omega)).trans ?_
    exact tr0_apply x _ n _ hh ww ci

/-- The spatially padded video at an index: the zero-bordered picture of frame `p - 2`. -/
theorem t5_apply (x : S2x128x16x64x64.Idx → EReal) (n : Fin 2) (p : Fin 18) (hp wp : Fin 66) (ci : Fin 128) :
    t5 x (ix5 n p hp wp ci) = Cert.ConvSpec.xpad x n ci ⟨p.val - 2, by have := p.isLt; omega⟩ hp.val wp.val := by
  unfold Cert.ConvSpec.xpad
  by_cases hc : 1 ≤ hp.val ∧ hp.val ≤ 64 ∧ 1 ≤ wp.val ∧ wp.val ≤ 64
  · rw [dif_pos hc]
    refine (pad5_apply_in _ _ _ _ n p hp wp ci ⟨hp.val - 1, by omega⟩ ⟨wp.val - 1, by omega⟩
      (by show hp.val = 1 + (hp.val - 1); omega) (by show wp.val = 1 + (wp.val - 1); omega)).trans ?_
    exact t4_apply x n p _ _ ci
  · rw [dif_neg hc]
    by_cases hH : 1 ≤ hp.val ∧ hp.val ≤ 64
    · have hW : ¬(1 ≤ wp.val ∧ wp.val ≤ 64) := fun h => hc ⟨hH.1, hH.2, h.1, h.2⟩
      exact (pad5_apply_outW _ _ _ _ n p hp wp ci hW).trans (zpad_apply _)
    · exact (pad5_apply_outH _ _ _ _ n p hp wp ci hH).trans (zpad_apply _)

/-- The phase-split video at an index. -/
theorem t8_apply (x : S2x128x16x64x64.Idx → EReal) (q : Fin 36) (ph : Fin 4) (hq wq : Fin 33) (ci : Fin 128) :
    t8 x (ix5 q ph hq wq ci)
      = Cert.ConvSpec.xpad x ⟨q.val / 18, by have := q.isLt; omega⟩ ci ⟨q.val % 18 - 2, by have := q.isLt; omega⟩
          (2 * hq.val + ph.val / 2) (2 * wq.val + ph.val % 2) := by
  have hq36 := q.isLt
  have hph4 := ph.isLt
  have hq33 := hq.isLt
  have hw33 := wq.isLt
  refine (cast8_apply _ _ q ph hq wq ci (⟨q.val / 18, by omega⟩ : Fin 2) (⟨q.val % 18, by omega⟩ : Fin 18)
    (⟨ph.val / 2, by omega⟩ : Fin 2) (⟨ph.val % 2, by omega⟩ : Fin 2)
    (by show q.val = q.val / 18 * 18 + q.val % 18; omega) (by show ph.val = ph.val / 2 * 2 + ph.val % 2; omega)).trans ?_
  refine (tr7_apply _ _ _ _ _ _ hq wq ci).trans ?_
  refine (cast6_apply _ _ _ _ _ _ hq wq ci (⟨2 * hq.val + ph.val / 2, by omega⟩ : Fin 66) (⟨2 * wq.val + ph.val % 2, by omega⟩ : Fin 66) rfl rfl).trans ?_
  exact t5_apply x _ _ _ _ ci

/-! ## The three arrays as the region finds them -/

theorem V_v8 (c : Dev nD) (q : Fin 36) (ph : Fin 4) (hq wq : Fin 33) (ci : Fin 128) :
    V m c main_v8 (ix5 q ph hq wq ci)
      = Cert.ConvSpec.xpad (m ((c.tc : Thread nD τ).loc main_arg0)) ⟨q.val / 18, by have := q.isLt; omega⟩ ci
          ⟨q.val % 18 - 2, by have := q.isLt; omega⟩ (2 * hq.val + ph.val / 2) (2 * wq.val + ph.val % 2) := by
  exact (congrFun (V_v8_term m c) _).trans (t8_apply _ q ph hq wq ci)

theorem V_v11 (c : Dev nD) (k : Fin 9) (j : Fin 384) (co : Fin 128) :
    V m c main_v11 (ix3 k j co)
      = m ((c.tc : Thread nD τ).loc main_arg1) (ix5 co ⟨j.val % 128, Nat.mod_lt _ (by decide)⟩ ⟨k.val / 3, by have := k.isLt; omega⟩
          ⟨k.val % 3, Nat.mod_lt _ (by decide)⟩ ⟨j.val / 128, by have := j.isLt; omega⟩) := by
  have hk9 := k.isLt
  have hj384 := j.isLt
  refine (congrFun (V_v11_term m c) _).trans ?_
  refine (pad11_apply _ _ _ _ k j co).trans ?_
  refine (cast10_apply _ _ k j co (⟨k.val / 3, by omega⟩ : Fin 3) (⟨k.val % 3, by omega⟩ : Fin 3) (⟨j.val / 128, by omega⟩ : Fin 3)
    (⟨j.val % 128, by omega⟩ : Fin 128) (by show k.val = k.val / 3 * 3 + k.val % 3; omega)
    (by show j.val = j.val / 128 * 128 + j.val % 128; omega)).trans ?_
  exact tr9_apply _ _ _ _ _ _ co

theorem V_v13 (c : Dev nD) (co : Fin 128) :
    V m c main_v13 (ix2 0 co) = m ((c.tc : Thread nD τ).loc main_arg2) (ix1 co) := by
  refine (congrFun (V_v13_term m c) _).trans ?_
  refine (shapeCast_a_1a_apply _ _ 0 co).trans ?_
  exact pad12_apply _ _ _ _ co

end Cert.ReferenceIdeal.Hand

end
-- ==== Proof.RIPay.lean ====
/-
  The reference body's stored value read at one output position, at the exact extended reals. A frame block holds the
  four stride phases of a zero-bordered 66 x 66 picture of 128 channels: padded position (hp, wp) is phase
  (hp % 2) * 2 + wp % 2, cell (hp / 2, wp / 2). The body's tap tiles are reads of that picture at the padded position
  (2 ho + kh, 2 wo + kw); the three kw tiles are fused along the channels, so fused column j is tap kw = j / 128 of
  channel j % 128, and each (kt, kh) contributes the sum over the 384 fused columns of the tile times the fused tap
  matrix; the 9 contributions are added to a zero accumulator in the body's order, then the bias.
-/
import proofs.«108319_g2000506355603382_pallasbulk_1083_2_alg».proof.Proof.RIBody
import proofs.«108319_g2000506355603382_pallasbulk_1083_2_alg».proof.Proof.ConvSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem

/-- A phase-split frame block read at PADDED spatial coordinates `hp, wp` in [0, 66) and channel `ci`. -/
def fr (x : Vec Ideal S1x4x33x33x128 .f32) (hp wp : ℕ) (ci : Fin 128) : EReal :=
  if h : hp < 66 ∧ wp < 66 then
    x (ix5 0 ⟨(hp % 2) * 2 + wp % 2, by omega⟩ ⟨hp / 2, by omega⟩ ⟨wp / 2, by omega⟩ ci)
  else 0

/-- The frame block of time tap `kt`. -/
def sel {α : Type} (kt : Fin 3) (x0 x1 x2 : α) : α := match kt with | ⟨0, _⟩ => x0 | ⟨1, _⟩ => x1 | ⟨2, _⟩ => x2

/-! ## The body's operations, named -/

/-- A tile block with its two leading unit axes dropped. -/
def sq (a : Vec Ideal S1x1x32x32x128 .f32) : FVec Ideal S32x32x128 .f32 :=
  shapeCast S32x32x128 a shapeCasts_S1x1x32x32x128_S32x32x128

/-- Three tiles fused along the channels and flattened to rows: row `ho * 32 + wo`, column `kw * 128 + ci`. -/
def fuse3 (a b c : FVec Ideal S32x32x128 .f32) : FVec Ideal S1024x384 .f32 :=
  shapeCast S1024x384
    (concatenate S32x32x384 2 [⟨S32x32x128, a⟩, ⟨S32x32x128, b⟩, ⟨S32x32x128, c⟩]
      concatenates_S32x32x128_S32x32x128_S32x32x128_S32x32x384_d2)
    shapeCasts_S32x32x384_S1024x384

/-- The product of a fused tile with a fused tap matrix, into a zero accumulator. -/
def mm (A : FVec Ideal S1024x384 .f32) (wk : FVec Ideal S1x384x128 .f32) : FVec Ideal S1024x128 .f32 :=
  matmul dot_S1024x384_S384x128_S1024x128_1_0_0_1_n_n none A (shapeCast S384x128 wk shapeCasts_S1x384x128_S384x128)
    (constant (F := Ideal) S1024x128 .f32 0x00000000#32)

/-! ## Layout operations read at an index -/

theorem sq_apply (a : Vec Ideal S1x1x32x32x128 .f32) (ho wo : Fin 32) (ci : Fin 128) :
    sq a (ix3 ho wo ci) = a (ix5 0 0 ho wo ci) :=
  shapeCast_apply a _ _ _ (by
    rw [Shape.rowMajor_val_five, Shape.rowMajor_val_three]
    show (((0 * 1 + 0) * 32 + ho.val) * 32 + wo.val) * 128 + ci.val = (ho.val * 32 + wo.val) * 128 + ci.val
    omega)

/-- The flattened fused tile at row `ho * 32 + wo` is the fused tile at `(ho, wo)`. -/
theorem flat_apply (v : FVec Ideal S32x32x384 .f32) (h : S32x32x384.ShapeCasts S1024x384) (ho wo : Fin 32) (j : Fin 384) :
    shapeCast S1024x384 v h (ix2 (⟨ho.val * 32 + wo.val, by have := ho.isLt; have := wo.isLt; omega⟩ : Fin 1024) j) = v (ix3 ho wo j) :=
  shapeCast_apply v h _ _ (by
    rw [Shape.rowMajor_val_three, Shape.rowMajor_val_two]
    show (ho.val * 32 + wo.val) * 384 + j.val = (ho.val * 32 + wo.val) * 384 + j.val
    rfl)

/-- Three pieces of 128 channels side by side: column `j` is piece `j / 128` at channel `j % 128`. -/
theorem cat_apply (a b c : FVec Ideal S32x32x128 .f32)
    (h : Shape.Concatenates [S32x32x128, S32x32x128, S32x32x128] S32x32x384 2) (ho wo : Fin 32) (j : Fin 384) :
    concatenate S32x32x384 2 [⟨S32x32x128, a⟩, ⟨S32x32x128, b⟩, ⟨S32x32x128, c⟩] h (ix3 ho wo j)
      = if j.val < 128 then a (ix3 ho wo ⟨j.val % 128, Nat.mod_lt _ (by decide)⟩)
        else if j.val < 256 then b (ix3 ho wo ⟨j.val % 128, Nat.mod_lt _ (by decide)⟩)
        else c (ix3 ho wo ⟨j.val % 128, Nat.mod_lt _ (by decide)⟩) := by
  have hj := j.isLt
  by_cases h1 : j.val < 128
  · rw [if_pos h1]
    exact concatenate_apply_piece (t := S32x32x384) 2 [⟨S32x32x128, a⟩, ⟨S32x32x128, b⟩, ⟨S32x32x128, c⟩] h (ix3 ho wo j) 0 (by show 0 < 3; omega) S32x32x128 a rfl rfl 0 rfl
      (ix3 ho wo ⟨j.val % 128, Nat.mod_lt _ (by decide)⟩)
      (fun b hb => match b with
        | ⟨0, _⟩ => rfl
        | ⟨1, _⟩ => rfl
        | ⟨2, _⟩ => absurd rfl hb)
      (by show 0 + j.val % 128 = j.val; omega)
  · rw [if_neg h1]
    by_cases h2 : j.val < 256
    · rw [if_pos h2]
      exact concatenate_apply_piece (t := S32x32x384) 2 [⟨S32x32x128, a⟩, ⟨S32x32x128, b⟩, ⟨S32x32x128, c⟩] h (ix3 ho wo j) 1 (by show 1 < 3; omega) S32x32x128 b rfl rfl 128 rfl
        (ix3 ho wo ⟨j.val % 128, Nat.mod_lt _ (by decide)⟩)
        (fun b hb => match b with
          | ⟨0, _⟩ => rfl
          | ⟨1, _⟩ => rfl
          | ⟨2, _⟩ => absurd rfl hb)
        (by show 128 + j.val % 128 = j.val; omega)
    · rw [if_neg h2]
      exact concatenate_apply_piece (t := S32x32x384) 2 [⟨S32x32x128, a⟩, ⟨S32x32x128, b⟩, ⟨S32x32x128, c⟩] h (ix3 ho wo j) 2 (by show 2 < 3; omega) S32x32x128 c rfl rfl 256 rfl
        (ix3 ho wo ⟨j.val % 128, Nat.mod_lt _ (by decide)⟩)
        (fun b hb => match b with
          | ⟨0, _⟩ => rfl
          | ⟨1, _⟩ => rfl
          | ⟨2, _⟩ => absurd rfl hb)
        (by show 256 + j.val % 128 = j.val; omega)

theorem fuse3_apply (a b c : FVec Ideal S32x32x128 .f32) (ho wo : Fin 32) (j : Fin 384) :
    fuse3 a b c (ix2 (⟨ho.val * 32 + wo.val, by have := ho.isLt; have := wo.isLt; omega⟩ : Fin 1024) j)
      = if j.val < 128 then a (ix3 ho wo ⟨j.val % 128, Nat.mod_lt _ (by decide)⟩)
        else if j.val < 256 then b (ix3 ho wo ⟨j.val % 128, Nat.mod_lt _ (by decide)⟩)
        else c (ix3 ho wo ⟨j.val % 128, Nat.mod_lt _ (by decide)⟩) := by
  unfold fuse3
  rw [flat_apply, cat_apply]

/-! ## The product read at an index -/

theorem mm_apply (A : FVec Ideal S1024x384 .f32) (wk : FVec Ideal S1x384x128 .f32) (r : Fin 1024) (co : Fin 128) :
    mm A wk (ix2 r co) = ∑ j : Fin 384, A (ix2 r j) * wk (ix3 0 j co) := by
  unfold mm
  show FloatOps.matmul dot_S1024x384_S384x128_S1024x128_1_0_0_1_n_n none A (shapeCast S384x128 wk shapeCasts_S1x384x128_S384x128)
    (constant (F := Ideal) S1024x128 .f32 0x00000000#32) (ix2 r co) = _
  rw [Ideal.matmul_constant_zero_apply, ← Equiv.sum_comp (contrEquiv1 dot_S1024x384_S384x128_S1024x128_1_0_0_1_n_n 384 rfl rfl).symm]
  refine Finset.sum_congr rfl fun c _ => ?_
  have c2 := contrEquiv1_symm_val dot_S1024x384_S384x128_S1024x128_1_0_0_1_n_n 384 rfl rfl c
  have l2 : (dot_S1024x384_S384x128_S1024x128_1_0_0_1_n_n).lhsIdx (ix2 r co) ((contrEquiv1 _ 384 rfl rfl).symm c) = ix2 r c := by
    funext ax; apply Fin.ext
    match ax with
    | ⟨0, _⟩ => simp [DotDims.lhsIdx, dot_S1024x384_S384x128_S1024x128_1_0_0_1_n_n]; rfl
    | ⟨1, _⟩ => simp [DotDims.lhsIdx, dot_S1024x384_S384x128_S1024x128_1_0_0_1_n_n]; exact c2
  have r2 : (dot_S1024x384_S384x128_S1024x128_1_0_0_1_n_n).rhsIdx (ix2 r co) ((contrEquiv1 _ 384 rfl rfl).symm c) = ix2 c co := by
    funext ax; apply Fin.ext
    match ax with
    | ⟨0, _⟩ => simp [DotDims.rhsIdx, dot_S1024x384_S384x128_S1024x128_1_0_0_1_n_n]; exact c2
    | ⟨1, _⟩ => simp [DotDims.rhsIdx, dot_S1024x384_S384x128_S1024x128_1_0_0_1_n_n]; rfl
  rw [l2, r2, shapeCast_1ab_ab_apply]

/-! ## Loads through the body's rectangles -/

/-- The tile at phase `p`, cell offset `(h0, w0)`, read at `(ho, wo)`, is the padded picture at
    `(2 ho + kh, 2 wo + kw)` when `p = (kh % 2) * 2 + kw % 2`, `h0 = kh / 2`, `w0 = kw / 2`. -/
theorem tile_fr (x : Vec Ideal S1x4x33x33x128 .f32) (p h0 w0 kh kw : ℕ)
    (inb : ∀ a, (![0, p, h0, w0, 0] : Fin 5 → Nat) a + S1x1x32x32x128.size a ≤ S1x4x33x33x128.size a)
    (hkh : kh < 3) (hkw : kw < 3) (ep : p = (kh % 2) * 2 + kw % 2) (eh : h0 = kh / 2) (ew : w0 = kw / 2)
    (ho wo : Fin 32) (ci : Fin 128) :
    (View.ld x (Rect.unit (s := S1x4x33x33x128) ![0, p, h0, w0, 0] S1x1x32x32x128.size inb) : FVec Ideal S1x1x32x32x128 .f32)
        (ix5 0 0 ho wo ci)
      = fr x (2 * ho.val + kh) (2 * wo.val + kw) ci := by
  have := ho.isLt; have := wo.isLt
  unfold fr
  rw [dif_pos ⟨by omega, by omega⟩]
  show x ((Rect.unit (s := S1x4x33x33x128) ![0, p, h0, w0, 0] S1x1x32x32x128.size inb).idx (ix5 0 0 ho wo ci)) = _
  refine congrArg x (funext fun a => Fin.ext ?_)
  match a with
  | ⟨0, _⟩ => rfl
  | ⟨1, _⟩ => show p + 1 * 0 = (2 * ho.val + kh) % 2 * 2 + (2 * wo.val + kw) % 2; omega
  | ⟨2, _⟩ => show h0 + 1 * ho.val = (2 * ho.val + kh) / 2; omega
  | ⟨3, _⟩ => show w0 + 1 * wo.val = (2 * wo.val + kw) / 2; omega
  | ⟨4, _⟩ => show 0 + 1 * ci.val = ci.val; omega

/-- Fused tap matrix `k` loaded whole. -/
theorem ldW_apply (w : Vec Ideal S9x384x128 .f32) (k : ℕ) (hk : k < 9)
    (inb : ∀ a, (![k, 0, 0] : Fin 3 → Nat) a + S1x384x128.size a ≤ S9x384x128.size a) (j : Fin 384) (co : Fin 128) :
    (View.ld w (Rect.unit (s := S9x384x128) ![k, 0, 0] S1x384x128.size inb) : FVec Ideal S1x384x128 .f32) (ix3 0 j co)
      = w (ix3 ⟨k, hk⟩ j co) := by
  show w ((Rect.unit (s := S9x384x128) ![k, 0, 0] S1x384x128.size inb).idx (ix3 0 j co)) = _
  refine congrArg w (funext fun a => Fin.ext ?_)
  match a with
  | ⟨0, _⟩ => show k + 1 * 0 = k; omega
  | ⟨1, _⟩ => show 0 + 1 * j.val = j.val; omega
  | ⟨2, _⟩ => show 0 + 1 * co.val = co.val; omega

/-- The bias row loaded whole. -/
theorem ldB_apply (b : Vec Ideal S1x128 .f32) (inb : ∀ a, (![0, 0] : Fin 2 → Nat) a + S1x128.size a ≤ S1x128.size a)
    (co : Fin 128) :
    (View.ld b (Rect.unit (s := S1x128) ![0, 0] S1x128.size inb) : FVec Ideal S1x128 .f32) (ix2 0 co) = b (ix2 0 co) := by
  show b ((Rect.unit (s := S1x128) ![0, 0] S1x128.size inb).idx (ix2 0 co)) = _
  refine congrArg b (funext fun a => Fin.ext ?_)
  match a with
  | ⟨0, _⟩ => rfl
  | ⟨1, _⟩ => show 0 + 1 * co.val = co.val; omega

/-! ## One (kt, kh) contribution -/

/-- The contribution of the three kw tiles `a b c` of one (kt, kh) and its fused tap matrix `wk`. -/
def contrib (a b c : FVec Ideal S1x1x32x32x128 .f32) (wk : FVec Ideal S1x384x128 .f32) : FVec Ideal S1024x128 .f32 :=
  mm (fuse3 (sq a) (sq b) (sq c)) wk

/-- If the tiles are the padded picture at kw = 0, 1, 2 of row tap `kh` and `wk` is fused tap matrix `k`, the
    contribution at row `ho * 32 + wo`, channel `co` is the sum over the 384 fused columns. -/
theorem contrib_apply (x : Vec Ideal S1x4x33x33x128 .f32) (w : Vec Ideal S9x384x128 .f32) (kh k : ℕ) (hk : k < 9)
    (a b c : FVec Ideal S1x1x32x32x128 .f32) (wk : FVec Ideal S1x384x128 .f32)
    (ha : ∀ (ho wo : Fin 32) (ci : Fin 128), a (ix5 0 0 ho wo ci) = fr x (2 * ho.val + kh) (2 * wo.val + 0) ci)
    (hb : ∀ (ho wo : Fin 32) (ci : Fin 128), b (ix5 0 0 ho wo ci) = fr x (2 * ho.val + kh) (2 * wo.val + 1) ci)
    (hc : ∀ (ho wo : Fin 32) (ci : Fin 128), c (ix5 0 0 ho wo ci) = fr x (2 * ho.val + kh) (2 * wo.val + 2) ci)
    (hw : ∀ (j : Fin 384) (co : Fin 128), wk (ix3 0 j co) = w (ix3 ⟨k, hk⟩ j co))
    (ho wo : Fin 32) (co : Fin 128) :
    contrib a b c wk (ix2 (⟨ho.val * 32 + wo.val, by have := ho.isLt; have := wo.isLt; omega⟩ : Fin 1024) co)
      = ∑ j : Fin 384, fr x (2 * ho.val + kh) (2 * wo.val + j.val / 128) ⟨j.val % 128, Nat.mod_lt _ (by decide)⟩
          * w (ix3 ⟨k, hk⟩ j co) := by
  unfold contrib
  rw [mm_apply]
  refine Finset.sum_congr rfl fun j _ => ?_
  have hj := j.isLt
  rw [fuse3_apply, hw]
  congr 1
  by_cases h1 : j.val < 128
  · rw [if_pos h1, sq_apply, ha, show j.val / 128 = 0 by omega]
  · rw [if_neg h1]
    by_cases h2 : j.val < 256
    · rw [if_pos h2, sq_apply, hb, show j.val / 128 = 1 by omega]
    · rw [if_neg h2, sq_apply, hc, show j.val / 128 = 2 by omega]

/-! ## The stored value as nine contributions and the bias -/

/-- The body's stored value: the nine contributions added one by one to a zero accumulator, time tap outermost, then the
    bias row added to every row, reshaped to the output block. -/
theorem rout_eq (x0 x1 x2 : Vec Ideal S1x4x33x33x128 .f32) (w : Vec Ideal S9x384x128 .f32) (b : Vec Ideal S1x128 .f32) :
    rout (F := Ideal) x0 x1 x2 w b
      = shapeCast S1x32x32x128
          (shapeCast S32x32x128
            (addf
              (addf (addf (addf (addf (addf (addf (addf (addf (addf (broadcast S1024x128 (Scalar.ofBits .f32 0x00000000#32 : Ideal .f32))
                (contrib (View.ld x0 rT000) (View.ld x0 rT100) (View.ld x0 rT001) (View.ld w rW0)))
                (contrib (View.ld x0 rT200) (View.ld x0 rT300) (View.ld x0 rT201) (View.ld w rW1)))
                (contrib (View.ld x0 rT010) (View.ld x0 rT110) (View.ld x0 rT011) (View.ld w rW2)))
                (contrib (View.ld x1 rT000) (View.ld x1 rT100) (View.ld x1 rT001) (View.ld w rW3)))
                (contrib (View.ld x1 rT200) (View.ld x1 rT300) (View.ld x1 rT201) (View.ld w rW4)))
                (contrib (View.ld x1 rT010) (View.ld x1 rT110) (View.ld x1 rT011) (View.ld w rW5)))
                (contrib (View.ld x2 rT000) (View.ld x2 rT100) (View.ld x2 rT001) (View.ld w rW6)))
                (contrib (View.ld x2 rT200) (View.ld x2 rT300) (View.ld x2 rT201) (View.ld w rW7)))
                (contrib (View.ld x2 rT010) (View.ld x2 rT110) (View.ld x2 rT011) (View.ld w rW8)))
              (broadcastTo S1024x128 (shapeCast S1x128 (View.ld b rB) shapeCasts_S1x128_S1x128) broadcasts_S1x128_S1024x128))
            shapeCasts_S1024x128_S32x32x128)
          shapeCasts_S32x32x128_S1x32x32x128 := rfl

/-- Rows unflattened: position `(ho, wo)` is row `ho * 32 + wo`. -/
theorem unflat_apply (Z : FVec Ideal S1024x128 .f32) (h : S1024x128.ShapeCasts S32x32x128) (ho wo : Fin 32) (co : Fin 128) :
    shapeCast S32x32x128 Z h (ix3 ho wo co)
      = Z (ix2 (⟨ho.val * 32 + wo.val, by have := ho.isLt; have := wo.isLt; omega⟩ : Fin 1024) co) :=
  shapeCast_apply Z h _ _ (by
    rw [Shape.rowMajor_val_two, Shape.rowMajor_val_three]
    rfl)

/-- THE STORED VALUE AT A POSITION: output row `ho`, column `wo`, channel `co`. -/
theorem rout_apply (x0 x1 x2 : Vec Ideal S1x4x33x33x128 .f32) (w : Vec Ideal S9x384x128 .f32) (b : Vec Ideal S1x128 .f32)
    (ho wo : Fin 32) (co : Fin 128) :
    rout (F := Ideal) x0 x1 x2 w b (ix4 0 ho wo co)
      = Cert.ConvSpec.rfold (fun kt kh => ∑ j : Fin 384,
          fr (sel kt x0 x1 x2) (2 * ho.val + kh.val) (2 * wo.val + j.val / 128) ⟨j.val % 128, Nat.mod_lt _ (by decide)⟩
            * w (ix3 ⟨kt.val * 3 + kh.val, by have := kt.isLt; have := kh.isLt; omega⟩ j co))
        + b (ix2 0 co) := by
  rw [rout_eq, shapeCast_abc_1abc_apply, unflat_apply]
  simp only [addf_apply, broadcast_apply]
  rw [broadcastTo_1b_ab_apply]
  refine congrArg₂ (· + ·) ?_ ((congrFun (shapeCast_self _ _) _).trans (ldB_apply b _ co))
  have e00 := contrib_apply x0 w 0 0 (by decide) (View.ld x0 rT000) (View.ld x0 rT100) (View.ld x0 rT001) (View.ld w rW0)
    (tile_fr x0 0 0 0 0 0 _ (by decide) (by decide) rfl rfl rfl) (tile_fr x0 1 0 0 0 1 _ (by decide) (by decide) rfl rfl rfl) (tile_fr x0 0 0 1 0 2 _ (by decide) (by decide) rfl rfl rfl)
    (ldW_apply w 0 (by decide) _) ho wo co
  have e01 := contrib_apply x0 w 1 1 (by decide) (View.ld x0 rT200) (View.ld x0 rT300) (View.ld x0 rT201) (View.ld w rW1)
    (tile_fr x0 2 0 0 1 0 _ (by decide) (by decide) rfl rfl rfl) (tile_fr x0 3 0 0 1 1 _ (by decide) (by decide) rfl rfl rfl) (tile_fr x0 2 0 1 1 2 _ (by decide) (by decide) rfl rfl rfl)
    (ldW_apply w 1 (by decide) _) ho wo co
  have e02 := contrib_apply x0 w 2 2 (by decide) (View.ld x0 rT010) (View.ld x0 rT110) (View.ld x0 rT011) (View.ld w rW2)
    (tile_fr x0 0 1 0 2 0 _ (by decide) (by decide) rfl rfl rfl) (tile_fr x0 1 1 0 2 1 _ (by decide) (by decide) rfl rfl rfl) (tile_fr x0 0 1 1 2 2 _ (by decide) (by decide) rfl rfl rfl)
    (ldW_apply w 2 (by decide) _) ho wo co
  have e10 := contrib_apply x1 w 0 3 (by decide) (View.ld x1 rT000) (View.ld x1 rT100) (View.ld x1 rT001) (View.ld w rW3)
    (tile_fr x1 0 0 0 0 0 _ (by decide) (by decide) rfl rfl rfl) (tile_fr x1 1 0 0 0 1 _ (by decide) (by decide) rfl rfl rfl) (tile_fr x1 0 0 1 0 2 _ (by decide) (by decide) rfl rfl rfl)
    (ldW_apply w 3 (by decide) _) ho wo co
  have e11 := contrib_apply x1 w 1 4 (by decide) (View.ld x1 rT200) (View.ld x1 rT300) (View.ld x1 rT201) (View.ld w rW4)
    (tile_fr x1 2 0 0 1 0 _ (by decide) (by decide) rfl rfl rfl) (tile_fr x1 3 0 0 1 1 _ (by decide) (by decide) rfl rfl rfl) (tile_fr x1 2 0 1 1 2 _ (by decide) (by decide) rfl rfl rfl)
    (ldW_apply w 4 (by decide) _) ho wo co
  have e12 := contrib_apply x1 w 2 5 (by decide) (View.ld x1 rT010) (View.ld x1 rT110) (View.ld x1 rT011) (View.ld w rW5)
    (tile_fr x1 0 1 0 2 0 _ (by decide) (by decide) rfl rfl rfl) (tile_fr x1 1 1 0 2 1 _ (by decide) (by decide) rfl rfl rfl) (tile_fr x1 0 1 1 2 2 _ (by decide) (by decide) rfl rfl rfl)
    (ldW_apply w 5 (by decide) _) ho wo co
  have e20 := contrib_apply x2 w 0 6 (by decide) (View.ld x2 rT000) (View.ld x2 rT100) (View.ld x2 rT001) (View.ld w rW6)
    (tile_fr x2 0 0 0 0 0 _ (by decide) (by decide) rfl rfl rfl) (tile_fr x2 1 0 0 0 1 _ (by decide) (by decide) rfl rfl rfl) (tile_fr x2 0 0 1 0 2 _ (by decide) (by decide) rfl rfl rfl)
    (ldW_apply w 6 (by decide) _) ho wo co
  have e21 := contrib_apply x2 w 1 7 (by decide) (View.ld x2 rT200) (View.ld x2 rT300) (View.ld x2 rT201) (View.ld w rW7)
    (tile_fr x2 2 0 0 1 0 _ (by decide) (by decide) rfl rfl rfl) (tile_fr x2 3 0 0 1 1 _ (by decide) (by decide) rfl rfl rfl) (tile_fr x2 2 0 1 1 2 _ (by decide) (by decide) rfl rfl rfl)
    (ldW_apply w 7 (by decide) _) ho wo co
  have e22 := contrib_apply x2 w 2 8 (by decide) (View.ld x2 rT010) (View.ld x2 rT110) (View.ld x2 rT011) (View.ld w rW8)
    (tile_fr x2 0 1 0 2 0 _ (by decide) (by decide) rfl rfl rfl) (tile_fr x2 1 1 0 2 1 _ (by decide) (by decide) rfl rfl rfl) (tile_fr x2 0 1 1 2 2 _ (by decide) (by decide) rfl rfl rfl)
    (ldW_apply w 8 (by decide) _) ho wo co
  rw [e00, e01, e02, e10, e11, e12, e20, e21, e22]
  rw [show (Scalar.ofBits .f32 0x00000000#32 : Ideal .f32) = (0 : EReal) from Ideal.ofBits_zero_f32]
  rfl

end Cert.ReferenceIdeal.Hand

end
-- ==== Proof.RIValue.lean ====
/-
  The reference program's result, at the exact extended reals, is the convolution of its arguments: the host
  operations before the region put two copies of each clip's first frame in front (so padded frame p is frame
  max(p - 2, 0)), surround every picture with a zero border, split it into its four stride phases and lay the weights
  out as nine fused tap matrices; grid point (n, t) reads the padded frames 2t + kt of clip n and writes block
  n * 8 + t of the output array, which the blocks tile; the host reshape and transpose after the region give the
  result its axes.
-/
import proofs.«108319_g2000506355603382_pallasbulk_1083_2_alg».proof.Proof.RIArr
import proofs.«108319_g2000506355603382_pallasbulk_1083_2_alg».proof.Proof.RIHost
import proofs.«108319_g2000506355603382_pallasbulk_1083_2_alg».proof.Proof.RIPay

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem

variable (m : (ℓ : Loc nD τ sig) → Buf (Elt Ideal) ℓ)

/-! ## A frame block read at padded coordinates -/

/-- A phase-split block whose cell (hq, wq) of phase ph holds the padded picture at (2 hq + ph / 2, 2 wq + ph % 2)
    reads, at padded coordinates (hp, wp), as the padded picture there: phase (hp % 2) * 2 + wp % 2, cell (hp / 2, wp / 2)
    is position (hp, wp). -/
theorem fr_of (x0 : Vec Ideal S1x4x33x33x128 .f32) (X : Cert.ConvSpec.SX.Idx → EReal) (n : Fin 2) (tf : Fin 16)
    (h : ∀ (ph : Fin 4) (hq wq : Fin 33) (ci : Fin 128),
      x0 (ix5 0 ph hq wq ci) = Cert.ConvSpec.xpad X n ci tf (2 * hq.val + ph.val / 2) (2 * wq.val + ph.val % 2))
    (hp wp : ℕ) (hhp : hp < 66) (hwp : wp < 66) (ci : Fin 128) :
    fr x0 hp wp ci = Cert.ConvSpec.xpad X n ci tf hp wp := by
  unfold fr
  rw [dif_pos ⟨hhp, hwp⟩, h]
  have e1 : 2 * (hp / 2) + (hp % 2 * 2 + wp % 2) / 2 = hp := by omega
  have e2 : 2 * (wp / 2) + (hp % 2 * 2 + wp % 2) % 2 = wp := by omega
  show Cert.ConvSpec.xpad X n ci tf (2 * (hp / 2) + (hp % 2 * 2 + wp % 2) / 2) (2 * (wp / 2) + (hp % 2 * 2 + wp % 2) % 2) = _
  rw [e1, e2]

/-- Row n * 18 + 2t + kt of the phase-split array is padded frame 2t + kt of clip n, which is frame max(2t + kt - 2, 0). -/
theorem xpad_prow (X : Cert.ConvSpec.SX.Idx → EReal) (n : Fin 2) (t : Fin 8) (kt : Fin 3) (ci : Fin 128) (a b : ℕ)
    (h1 : (prow n t kt).val / 18 < 2) (h2 : (prow n t kt).val % 18 - 2 < 16) :
    Cert.ConvSpec.xpad X ⟨(prow n t kt).val / 18, h1⟩ ci ⟨(prow n t kt).val % 18 - 2, h2⟩ a b
      = Cert.ConvSpec.xpad X n ci (Cert.ConvSpec.tin t kt) a b := by
  have hn := n.isLt; have ht := t.isLt; have hk := kt.isLt
  have e1 : (⟨(prow n t kt).val / 18, h1⟩ : Fin 2) = n :=
    Fin.ext (by show (n.val * 18 + 2 * t.val + kt.val) / 18 = n.val; omega)
  have e2 : (⟨(prow n t kt).val % 18 - 2, h2⟩ : Fin 16) = Cert.ConvSpec.tin t kt :=
    Fin.ext (by show (n.val * 18 + 2 * t.val + kt.val) % 18 - 2 = 2 * t.val + kt.val - 2; omega)
  rw [e1, e2]

/-- The block of time tap kt at grid point (n, t), read at padded coordinates, is the padded picture of frame
    max(2t + kt - 2, 0) of clip n. -/
theorem fr_sel (c : Dev nD) (n : Fin 2) (t : Fin 8) (kt : Fin 3) (hp wp : ℕ) (ci : Fin 128) (hhp : hp < 66) (hwp : wp < 66) :
    fr (sel kt (iblk m c 0 (pt n t)) (iblk m c 1 (pt n t)) (iblk m c 2 (pt n t))) hp wp ci
      = Cert.ConvSpec.xpad (m ((c.tc : Thread nD τ).loc main_arg0)) n ci (Cert.ConvSpec.tin t kt) hp wp :=
  match kt with
  | ⟨0, h0⟩ => fr_of _ _ n _ (fun ph hq wq ci => (iblk_frame0 m c n t ph hq wq ci).trans
      ((V_v8 m c (prow n t 0) ph hq wq ci).trans (xpad_prow _ n t 0 ci _ _ _ _))) hp wp hhp hwp ci
  | ⟨1, h1⟩ => fr_of _ _ n _ (fun ph hq wq ci => (iblk_frame1 m c n t ph hq wq ci).trans
      ((V_v8 m c (prow n t 1) ph hq wq ci).trans (xpad_prow _ n t 1 ci _ _ _ _))) hp wp hhp hwp ci
  | ⟨2, h2⟩ => fr_of _ _ n _ (fun ph hq wq ci => (iblk_frame2 m c n t ph hq wq ci).trans
      ((V_v8 m c (prow n t 2) ph hq wq ci).trans (xpad_prow _ n t 2 ci _ _ _ _))) hp wp hhp hwp ci

/-! ## The fused tap matrices and the bias -/

/-- An index of the weights named by coordinates equal to the taps' and the channel's. -/
theorem w_ix (W : Cert.ConvSpec.SW.Idx → EReal) (co ci : Fin 128) (kt kh kw : Fin 3) (a b d e : ℕ)
    (ha : a < 128) (hb : b < 3) (hd : d < 3) (he : e < 3) (ea : a = ci.val) (eb : b = kt.val) (ed : d = kh.val) (ee : e = kw.val) :
    W (ix5 co ⟨a, ha⟩ ⟨b, hb⟩ ⟨d, hd⟩ ⟨e, he⟩) = W (ix5 co ci kt kh kw) := by
  subst ea eb ed ee; rfl

/-- Fused tap matrix kt * 3 + kh at fused column kw * 128 + ci is the weight of tap (kt, kh, kw) and channel ci. -/
theorem w_point (c : Dev nD) (n : Fin 2) (t : Fin 8) (co : Fin 128) (kt kh kw : Fin 3) (ci : Fin 128)
    (h1 : kt.val * 3 + kh.val < 9) (h2 : kw.val * 128 + ci.val < 384) :
    iblk m c 3 (pt n t) (ix3 ⟨kt.val * 3 + kh.val, h1⟩ ⟨kw.val * 128 + ci.val, h2⟩ co)
      = m ((c.tc : Thread nD τ).loc main_arg1) (ix5 co ci kt kh kw) := by
  have hkt := kt.isLt; have hkh := kh.isLt; have hkw := kw.isLt; have hci := ci.isLt
  refine (iblk_w m c n t _ _ co).trans ((V_v11 m c _ _ co).trans
    (w_ix _ co ci kt kh kw _ _ _ _ _ _ _ _ ?_ ?_ ?_ ?_))
  · show (kw.val * 128 + ci.val) % 128 = ci.val; omega
  · show (kt.val * 3 + kh.val) / 3 = kt.val; omega
  · show (kt.val * 3 + kh.val) % 3 = kh.val; omega
  · show (kw.val * 128 + ci.val) / 128 = kw.val; omega

/-! ## The sums -/

/-- The padded picture at fused column kw * 128 + ci: channel ci, tap kw. -/
theorem xpad_fused (X : Cert.ConvSpec.SX.Idx → EReal) (n : Fin 2) (tf : Fin 16) (kw : Fin 3) (ci : Fin 128) (hp wq : ℕ)
    (h : (kw.val * 128 + ci.val) % 128 < 128) :
    Cert.ConvSpec.xpad X n ⟨(kw.val * 128 + ci.val) % 128, h⟩ tf hp (wq + (kw.val * 128 + ci.val) / 128)
      = Cert.ConvSpec.xpad X n ci tf hp (wq + kw.val) := by
  have hkw := kw.isLt; have hci := ci.isLt
  have e1 : (⟨(kw.val * 128 + ci.val) % 128, h⟩ : Fin 128) = ci := Fin.ext (by show (kw.val * 128 + ci.val) % 128 = ci.val; omega)
  have e2 : (kw.val * 128 + ci.val) / 128 = kw.val := by omega
  rw [e1, e2]

/-- The nine fused contributions plus the bias are the convolution: each fused sum over 384 columns is the double sum
    over the tap kw and the channel, and the 9 + 1 additions in the body's order are the sum over (kt, kh). -/
theorem assemble (x0 x1 x2 : Vec Ideal S1x4x33x33x128 .f32) (w : Vec Ideal S9x384x128 .f32) (b : Vec Ideal S1x128 .f32)
    (X : Cert.ConvSpec.SX.Idx → EReal) (W : Cert.ConvSpec.SW.Idx → EReal) (B : Cert.ConvSpec.SB.Idx → EReal)
    (n : Fin 2) (co : Fin 128) (t : Fin 8) (ho wo : Fin 32)
    (hx : ∀ (kt : Fin 3) (hp wp : ℕ) (ci : Fin 128), hp < 66 → wp < 66 →
      fr (sel kt x0 x1 x2) hp wp ci = Cert.ConvSpec.xpad X n ci (Cert.ConvSpec.tin t kt) hp wp)
    (hw : ∀ (kt kh kw : Fin 3) (ci : Fin 128) (h1 : kt.val * 3 + kh.val < 9) (h2 : kw.val * 128 + ci.val < 384),
      w (ix3 ⟨kt.val * 3 + kh.val, h1⟩ ⟨kw.val * 128 + ci.val, h2⟩ co) = W (ix5 co ci kt kh kw))
    (hb : b (ix2 0 co) = B (ix1 co)) :
    Cert.ConvSpec.rfold (fun kt kh => ∑ j : Fin 384,
        fr (sel kt x0 x1 x2) (2 * ho.val + kh.val) (2 * wo.val + j.val / 128) ⟨j.val % 128, Nat.mod_lt _ (by decide)⟩
          * w (ix3 ⟨kt.val * 3 + kh.val, by have := kt.isLt; have := kh.isLt; omega⟩ j co))
      + b (ix2 0 co)
      = Cert.ConvSpec.conv X W B (ix5 n co t ho wo) := by
  rw [Cert.ConvSpec.rfold_eq, hb]
  show _ = (∑ kt : Fin 3, ∑ kh : Fin 3, ∑ kw : Fin 3, ∑ ci : Fin 128, Cert.ConvSpec.term X W n co t ho wo kt kh kw ci) + B (ix1 co)
  congr 1
  refine Finset.sum_congr rfl fun kt _ => Finset.sum_congr rfl fun kh _ => ?_
  rw [Cert.ConvSpec.sum_fused]
  refine Finset.sum_congr rfl fun kw _ => Finset.sum_congr rfl fun ci _ => ?_
  have hkh := kh.isLt; have hkw := kw.isLt; have hci := ci.isLt; have hho := ho.isLt; have hwo := wo.isLt
  dsimp only
  rw [hw kt kh kw ci, hx kt _ _ _ (by omega) (by omega), xpad_fused]
  rfl

/-! ## The result -/

/-- The result at one index. -/
theorem result_point (c : Dev nD) (n : Fin 2) (co : Fin 128) (t : Fin 8) (ho wo : Fin 32) :
    StableHlo.after hostOps1 (Wexit m c) (Proc.devRef .tc main_v16) (ix5 n co t ho wo)
      = Cert.ConvSpec.conv (m ((c.tc : Thread nD τ).loc main_arg0)) (m ((c.tc : Thread nD τ).loc main_arg1)) (m ((c.tc : Thread nD τ).loc main_arg2))
          (ix5 n co t ho wo) :=
  (result_at m c n co t ho wo).trans ((rout_apply _ _ _ _ _ ho wo co).trans
    (assemble _ _ _ _ _ _ _ _ n co t ho wo
      (fun kt hp wp ci hhp hwp => fr_sel m c n t kt hp wp ci hhp hwp)
      (fun kt kh kw ci h1 h2 => w_point m c n t co kt kh kw ci h1 h2)
      ((iblk_b m c n t co).trans (V_v13 m c co))))

/-- THE RESULT: what the run leaves in the result buffer is the specification's convolution of the argument arrays. -/
theorem result_eq (c : Dev nD) :
    StableHlo.after hostOps1 (Wexit m c) (Proc.devRef .tc main_v16)
      = Cert.ConvSpec.conv (m ((c.tc : Thread nD τ).loc main_arg0)) (m ((c.tc : Thread nD τ).loc main_arg1)) (m ((c.tc : Thread nD τ).loc main_arg2)) := by
  funext i
  obtain ⟨n, co, t, ho, wo, rfl⟩ : ∃ (n : Fin 2) (co : Fin 128) (t : Fin 8) (ho wo : Fin 32), i = ix5 n co t ho wo :=
    ⟨i 0, i 1, i 2, i 3, i 4, eq_ix5 i⟩
  exact result_point m c n co t ho wo

end Cert.ReferenceIdeal.Hand

end
-- ==== Proof.lean ====
/-
  A causal 3x3x3 convolution of stride 2 over a video, written twice. The kernel program reads three frames of a
  channels-last video whose column pairs are fused in the lanes, builds the 27 shifted patches by slicing, shifting in
  a zero row or column and regrouping, and adds 27 products of a patch with a tap matrix. The reference program pads
  the video in time (its first frame twice in front) and in space (a zero border), splits every padded picture into its
  four stride phases, reads 27 shifted tiles, fuses the three kw tiles along the channels and adds 9 products with a
  fused tap matrix. At the exact extended reals both results are, at every output position, the same finite family of
  products x * w summed — addition of extended reals is commutative and associative, so the order, the grouping and the
  tiling do not matter, and no finiteness of the inputs is needed — plus the bias (`Cert.ConvSpec.conv`).
  Each program's run (termination, no fault, arguments unchanged, the result buffer named) is proved from the pipeline
  library's launch theorem for windows that share an array; the idealization rewrote nothing, so `preserves` is trivial.
-/
import proofs.«108319_g2000506355603382_pallasbulk_1083_2_alg».proof.Defs
import proofs.«108319_g2000506355603382_pallasbulk_1083_2_alg».proof.Proof.Gen.Kernel
import proofs.«108319_g2000506355603382_pallasbulk_1083_2_alg».proof.Proof.Gen.KernelIdeal
import proofs.«108319_g2000506355603382_pallasbulk_1083_2_alg».proof.Proof.Gen.ReferenceIdeal
import proofs.«108319_g2000506355603382_pallasbulk_1083_2_alg».proof.Proof.Gen.Pre_finite_inputs
import proofs.«108319_g2000506355603382_pallasbulk_1083_2_alg».proof.Proof.KLaunch
import proofs.«108319_g2000506355603382_pallasbulk_1083_2_alg».proof.Proof.KIValue
import proofs.«108319_g2000506355603382_pallasbulk_1083_2_alg».proof.Proof.RIValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ =>
  (θ_run Cert.Kernel.defs _ _).mono (fun _ h c => ⟨(h c).2.1, (h c).2.2.1, (h c).2.2.2⟩) (Cert.Kernel.Hand.run_main (F := Bits) m ρ)

/-- The idealized kernel program runs and leaves its arguments unchanged. -/
theorem frame_ki : Cert.frame_KernelIdeal := fun m ρ _ =>
  (θ_run Cert.KernelIdeal.defs _ _).mono (fun _ h c => ⟨(h c).2.1, (h c).2.2.1, (h c).2.2.2⟩) (Cert.KernelIdeal.Hand.run_main (F := Ideal) m ρ)

/-- The idealized reference program runs and leaves its arguments unchanged. -/
theorem frame_ri : Cert.frame_ReferenceIdeal := fun m ρ _ =>
  (θ_run Cert.ReferenceIdeal.defs _ _).mono (fun _ h c => ⟨(h c).2.1, (h c).2.2.1, (h c).2.2.2⟩) (Cert.ReferenceIdeal.Hand.run_main (F := Ideal) m ρ)

/-- From memories that agree on the arguments both idealized programs end with the convolution of the arguments in
    their result buffers. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.result_eq m c), (h c).2.1, (h c).2.2.1, (h c).2.2.2⟩)
      (Cert.KernelIdeal.Hand.run_main (F := Ideal) m ρ)
  · refine (θ_run Cert.ReferenceIdeal.defs _ _).mono
      (fun _ h c => ⟨(h c).1.trans ((Cert.ReferenceIdeal.Hand.result_eq m' c).trans ?_), (h c).2.1, (h c).2.2.1, (h c).2.2.2⟩)
      (Cert.ReferenceIdeal.Hand.run_main (F := Ideal) m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
